-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x50 : Shape := ⟨2, ![16384, 50]⟩
abbrev S16384 : Shape := ⟨1, ![16384]⟩
abbrev S2048x512 : Shape := ⟨2, ![2048, 512]⟩
abbrev S512 : Shape := ⟨1, ![512]⟩
abbrev S512x2048 : Shape := ⟨2, ![512, 2048]⟩
abbrev S2048 : Shape := ⟨1, ![2048]⟩
abbrev S512x50 : Shape := ⟨2, ![512, 50]⟩
abbrev S50 : Shape := ⟨1, ![50]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S512x50 : S_.BroadcastsInDim S512x50 (![] : Fin 0 → Fin S512x50.rank)
  reducesTo_S512x50_S_d0_1 : S512x50.ReducesTo [0, 1] S_
  bcast_S_S50 : S_.BroadcastsInDim S50 (![] : Fin 0 → Fin S50.rank)
  reducesTo_S50_S_d0 : S50.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_v47 : IVec S_ 1) (main_v49 : IVec S16384 1) (main_c_19 : IVec S_ 1) : IVec S_ 1 :=
  let main_v50 : IVec S_ 1 := (fun x v => Host.reduce IntOp.andi x v reducesTo_S16384_S_d0 h_S_) main_v49 main_c_19
  let main_v51 : IVec S_ 1 := andi main_v47 main_v50
  main_v51

def fn_part2 {F : FTy → Type} [FloatOps F] (main_arg3 : IVec S16384 32) (main_arg8 : FVec F S512x50 .f32) (main_arg9 : FVec F S50 .f32) (main_v33 : IVec S_ 1) : IVec S_ 1 :=
  let main_v34 : FVec F S512x50 .f32 := Host.absf main_arg8
  let main_cst_12 : FVec F S_ .f32 := constant S_ .f32 0x7F800000#32
  let main_v35 : FVec F S512x50 .f32 := broadcastInDim S512x50 ![] bcast_S_S512x50 main_cst_12
  let main_v36 : IVec S512x50 1 := cmpf .olt main_v34 main_v35
  let main_c_13 : IVec S_ 1 := constantI S_ 1 1#1
  let main_v37 : IVec S_ 1 := (fun x v => Host.reduce IntOp.andi x v reducesTo_S512x50_S_d0_1 h_S_) main_v36 main_c_13
  let main_v38 : IVec S_ 1 := andi main_v33 main_v37
  let main_v39 : FVec F S50 .f32 := Host.absf main_arg9
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_c_16 : IVec S_ 32 := constantI S_ 32 0#32
  let main_v44 : IVec S16384 32 := broadcastInDim S16384 ![] bcast_S_S16384 main_c_16
  let main_v45 : IVec S16384 1 := cmpi .sge main_arg3 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v43 main_v46
  let main_c_18 : IVec S_ 32 := constantI S_ 32 50#32
  let main_v48 : IVec S16384 32 := broadcastInDim S16384 ![] bcast_S_S16384 main_c_18
  let main_v49 : IVec S16384 1 := cmpi .slt main_arg3 main_v48
  let main_c_19 : IVec S_ 1 := constantI S_ 1 1#1
  fn_part3 (F := F) main_v47 main_v49 main_c_19

def fn_part1 {F : FTy → Type} [FloatOps F] (main_arg3 : IVec S16384 32) (main_arg5 : FVec F S512 .f32) (main_arg6 : FVec F S512x2048 .f32) (main_arg7 : FVec F S2048 .f32) (main_arg8 : FVec F S512x50 .f32) (main_arg9 : FVec F S50 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x2048 .f32 := Host.absf main_arg6
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg3 main_arg8 main_arg9 main_v33

def fn {F : FTy → Type} [FloatOps F] (main_arg0 : FVec F S16384x2048 .f32) (main_arg1 : FVec F S16384x2048 .f32) (main_arg2 : FVec F S16384x50 .f32) (main_arg3 : IVec S16384 32) (main_arg4 : FVec F S2048x512 .f32) (main_arg5 : FVec F S512 .f32) (main_arg6 : FVec F S512x2048 .f32) (main_arg7 : FVec F S2048 .f32) (main_arg8 : FVec F S512x50 .f32) (main_arg9 : FVec F S50 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x50 .f32 := Host.absf main_arg2
  let main_cst_2 : FVec F S_ .f32 := constant S_ .f32 0x7F800000#32
  let main_v10 : FVec F S16384x50 .f32 := broadcastInDim S16384x50 ![] bcast_S_S16384x50 main_cst_2
  let main_v11 : IVec S16384x50 1 := cmpf .olt main_v9 main_v10
  let main_c_3 : IVec S_ 1 := constantI S_ 1 1#1
  let main_v12 : IVec S_ 1 := (fun x v => Host.reduce IntOp.andi x v reducesTo_S16384x50_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg3 main_arg5 main_arg6 main_arg7 main_arg8 main_arg9 main_v13 main_v16
-- ==== Kernel.lean ====
abbrev S16384x2048 : Shape := ⟨2, ![16384, 2048]⟩
abbrev S16384x50 : Shape := ⟨2, ![16384, 50]⟩
abbrev S16384 : Shape := ⟨1, ![16384]⟩
abbrev S2048x512 : Shape := ⟨2, ![2048, 512]⟩
abbrev S512 : Shape := ⟨1, ![512]⟩
abbrev S512x2048 : Shape := ⟨2, ![512, 2048]⟩
abbrev S2048 : Shape := ⟨1, ![2048]⟩
abbrev S512x50 : Shape := ⟨2, ![512, 50]⟩
abbrev S50 : Shape := ⟨1, ![50]⟩
abbrev S16384x1 : Shape := ⟨2, ![16384, 1]⟩
abbrev S1x50 : Shape := ⟨2, ![1, 50]⟩
abbrev S_ : Shape := ⟨0, ![]⟩
abbrev S1x512 : Shape := ⟨2, ![1, 512]⟩
abbrev S512x128 : Shape := ⟨2, ![512, 128]⟩
abbrev S1 : Shape := ⟨1, ![1]⟩
abbrev S128 : Shape := ⟨1, ![128]⟩
abbrev S512x2176 : Shape := ⟨2, ![512, 2176]⟩
abbrev S2176 : Shape := ⟨1, ![2176]⟩
abbrev S1x2176 : Shape := ⟨2, ![1, 2176]⟩
abbrev S16384x512 : Shape := ⟨2, ![16384, 512]⟩
abbrev S2x50x512 : Shape := ⟨3, ![2, 50, 512]⟩
abbrev S1024x2048 : Shape := ⟨2, ![1024, 2048]⟩
abbrev S1024x50 : Shape := ⟨2, ![1024, 50]⟩
abbrev S1024x512 : Shape := ⟨2, ![1024, 512]⟩
abbrev S1x50x512 : Shape := ⟨3, ![1, 50, 512]⟩
abbrev S50x512 : Shape := ⟨2, ![50, 512]⟩
abbrev S50x1 : Shape := ⟨2, ![50, 1]⟩
abbrev S1x16384 : Shape := ⟨2, ![1, 16384]⟩
abbrev S2x1x2048 : Shape := ⟨3, ![2, 1, 2048]⟩
abbrev S2x1x512 : Shape := ⟨3, ![2, 1, 512]⟩
abbrev S2x1x1 : Shape := ⟨3, ![2, 1, 1]⟩
abbrev S512x512 : Shape := ⟨2, ![512, 512]⟩
abbrev S1x1x2048 : Shape := ⟨3, ![1, 1, 2048]⟩
abbrev S1x1x512 : Shape := ⟨3, ![1, 1, 512]⟩
abbrev S1x1x1 : Shape := ⟨3, ![1, 1, 1]⟩
abbrev S1x2048 : Shape := ⟨2, ![1, 2048]⟩
abbrev S1x1 : Shape := ⟨2, ![1, 1]⟩
abbrev S512x1 : Shape := ⟨2, ![512, 1]⟩

abbrev nBuf : Space → Nat
  | .hbm => 98
  | .vmem => 31
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x50, .f32⟩
  | .hbm, ⟨3, _⟩ => ⟨S16384, .i32⟩
  | .hbm, ⟨4, _⟩ => ⟨S2048x512, .f32⟩
  | .hbm, ⟨5, _⟩ => ⟨S512, .f32⟩
  | .hbm, ⟨6, _⟩ => ⟨S512x2048, .f32⟩
  | .hbm, ⟨7, _⟩ => ⟨S2048, .f32⟩
  | .hbm, ⟨8, _⟩ => ⟨S512x50, .f32⟩
  | .hbm, ⟨9, _⟩ => ⟨S50, .f32⟩
  | .hbm, ⟨10, _⟩ => ⟨S16384x1, .i32⟩
  | .hbm, ⟨11, _⟩ => ⟨S1x50, .i32⟩
  | .hbm, ⟨12, _⟩ => ⟨S16384x50, .i32⟩
  | .hbm, ⟨13, _⟩ => ⟨S16384x50, .i32⟩
  | .hbm, ⟨14, _⟩ => ⟨S16384x50, .i1⟩
  | .hbm, ⟨15, _⟩ => ⟨S16384x50, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x50, .f32⟩
  | .hbm, ⟨20, _⟩ => ⟨S16384x50, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x50, .f32⟩
  | .hbm, ⟨25, _⟩ => ⟨S16384x50, .f32⟩
  | .hbm, ⟨26, _⟩ => ⟨S_, .f32⟩
  | .hbm, ⟨27, _⟩ => ⟨S16384x50, .f32⟩
  | .hbm, ⟨28, _⟩ => ⟨S16384x50, .f32⟩
  | .hbm, ⟨29, _⟩ => ⟨S16384x50, .f32⟩
  | .hbm, ⟨30, _⟩ => ⟨S1x512, .f32⟩
  | .hbm, ⟨31, _⟩ => ⟨S2048x512, .bf16⟩
  | .hbm, ⟨32, _⟩ => ⟨S_, .f32⟩
  | .hbm, ⟨33, _⟩ => ⟨S512x128, .f32⟩
  | .hbm, ⟨34, _⟩ => ⟨S_, .i32⟩
  | .hbm, ⟨35, _⟩ => ⟨S1, .i32⟩
  | .hbm, ⟨36, _⟩ => ⟨S512x128, .f32⟩
  | .hbm, ⟨37, _⟩ => ⟨S_, .f32⟩
  | .hbm, ⟨38, _⟩ => ⟨S128, .f32⟩
  | .hbm, ⟨39, _⟩ => ⟨S_, .i32⟩
  | .hbm, ⟨40, _⟩ => ⟨S1, .i32⟩
  | .hbm, ⟨41, _⟩ => ⟨S128, .f32⟩
  | .hbm, ⟨42, _⟩ => ⟨S512x2176, .f32⟩
  | .hbm, ⟨43, _⟩ => ⟨S2176, .f32⟩
  | .hbm, ⟨44, _⟩ => ⟨S1x2176, .f32⟩
  | .hbm, ⟨45, _⟩ => ⟨S512x2176, .bf16⟩
  | .hbm, ⟨46, _⟩ => ⟨S16384x512, .f32⟩
  | .hbm, ⟨47, _⟩ => ⟨S2x50x512, .f32⟩
  | .hbm, ⟨48, _⟩ => ⟨S1x50x512, .f32⟩
  | .hbm, ⟨49, _⟩ => ⟨S50x512, .f32⟩
  | .hbm, ⟨50, _⟩ => ⟨S1x50x512, .f32⟩
  | .hbm, ⟨51, _⟩ => ⟨S50x512, .f32⟩
  | .hbm, ⟨52, _⟩ => ⟨S50x512, .f32⟩
  | .hbm, ⟨53, _⟩ => ⟨S_, .f32⟩
  | .hbm, ⟨54, _⟩ => ⟨S50, .f32⟩
  | .hbm, ⟨55, _⟩ => ⟨S1x50, .f32⟩
  | .hbm, ⟨56, _⟩ => ⟨S50x1, .f32⟩
  | .hbm, ⟨57, _⟩ => ⟨S_, .f32⟩
  | .hbm, ⟨58, _⟩ => ⟨S50x1, .f32⟩
  | .hbm, ⟨59, _⟩ => ⟨S50x1, .f32⟩
  | .hbm, ⟨60, _⟩ => ⟨S50x512, .f32⟩
  | .hbm, ⟨61, _⟩ => ⟨S50x512, .f32⟩
  | .hbm, ⟨62, _⟩ => ⟨S1x16384, .f32⟩
  | .hbm, ⟨63, _⟩ => ⟨S2x1x2048, .f32⟩
  | .hbm, ⟨64, _⟩ => ⟨S2x1x512, .f32⟩
  | .hbm, ⟨65, _⟩ => ⟨S2x1x1, .f32⟩
  | .hbm, ⟨66, _⟩ => ⟨S1x1x2048, .f32⟩
  | .hbm, ⟨67, _⟩ => ⟨S1x2048, .f32⟩
  | .hbm, ⟨68, _⟩ => ⟨S1x1x2048, .f32⟩
  | .hbm, ⟨69, _⟩ => ⟨S1x2048, .f32⟩
  | .hbm, ⟨70, _⟩ => ⟨S1x2048, .f32⟩
  | .hbm, ⟨71, _⟩ => ⟨S1x1x512, .f32⟩
  | .hbm, ⟨72, _⟩ => ⟨S1x512, .f32⟩
  | .hbm, ⟨73, _⟩ => ⟨S1x1x512, .f32⟩
  | .hbm, ⟨74, _⟩ => ⟨S1x512, .f32⟩
  | .hbm, ⟨75, _⟩ => ⟨S1x512, .f32⟩
  | .hbm, ⟨76, _⟩ => ⟨S1x1x1, .f32⟩
  | .hbm, ⟨77, _⟩ => ⟨S1x1, .f32⟩
  | .hbm, ⟨78, _⟩ => ⟨S1x1x1, .f32⟩
  | .hbm, ⟨79, _⟩ => ⟨S1x1, .f32⟩
  | .hbm, ⟨80, _⟩ => ⟨S1x1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S16384, .f32⟩
  | .hbm, ⟨96, _⟩ => ⟨S16384, .f32⟩
  | .hbm, ⟨97, _⟩ => ⟨S16384, .f32⟩
  | .local _ .vmem, ⟨0, _⟩ => ⟨S1024x2048, .f32⟩
  | .local _ .vmem, ⟨1, _⟩ => ⟨S1024x2048, .f32⟩
  | .local _ .vmem, ⟨2, _⟩ => ⟨S1024x50, .f32⟩
  | .local _ .vmem, ⟨3, _⟩ => ⟨S1024x50, .f32⟩
  | .local _ .vmem, ⟨4, _⟩ => ⟨S2048x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x50x512, .f32⟩
  | .local _ .vmem, ⟨9, _⟩ => ⟨S1x50x512, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | .local _ .vmem, ⟨14, _⟩ => ⟨S512x50, .f32⟩
  | .local _ .vmem, ⟨15, _⟩ => ⟨S512x50, .f32⟩
  | .local _ .vmem, ⟨16, _⟩ => ⟨S512x50, .f32⟩
  | .local _ .vmem, ⟨17, _⟩ => ⟨S512x50, .f32⟩
  | .local _ .vmem, ⟨18, _⟩ => ⟨S50x512, .f32⟩
  | .local _ .vmem, ⟨19, _⟩ => ⟨S512x2176, .bf16⟩
  | .local _ .vmem, ⟨20, _⟩ => ⟨S1x2176, .f32⟩
  | .local _ .vmem, ⟨21, _⟩ => ⟨S2048x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x1x2048, .f32⟩
  | .local _ .vmem, ⟨26, _⟩ => ⟨S1x1x2048, .f32⟩
  | .local _ .vmem, ⟨27, _⟩ => ⟨S1x1x512, .f32⟩
  | .local _ .vmem, ⟨28, _⟩ => ⟨S1x1x512, .f32⟩
  | .local _ .vmem, ⟨29, _⟩ => ⟨S1x1x1, .f32⟩
  | .local _ .vmem, ⟨30, _⟩ => ⟨S1x1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_c_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19_0 : Ref sig .tc := ⟨.hbm, 46, rfl⟩
abbrev main_v19_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v32_2 : Ref sig .tc := ⟨.hbm, 64, rfl⟩
abbrev main_v32_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_cst_11 : Ref sig .tc := ⟨.hbm, 89, rfl⟩
abbrev main_v52 : Ref sig .tc := ⟨.hbm, 90, rfl⟩
abbrev main_cst_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x50x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S50x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x2176 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2176 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x1x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

class Facts₀ : Prop where
  bcast_S16384_S16384x1_0 : S16384.BroadcastsInDim S16384x1 (![0] : Fin 1 → Fin S16384x1.rank)
  bcast_S16384x1_S16384x50_0_1 : S16384x1.BroadcastsInDim S16384x50 (![0, 1] : Fin 2 → Fin S16384x50.rank)
  bcast_S1x50_S16384x50_0_1 : S1x50.BroadcastsInDim S16384x50 (![0, 1] : Fin 2 → Fin S16384x50.rank)
  reducesTo_S16384x50_S16384_d1 : S16384x50.ReducesTo [1] S16384
  h_S_ : 0 < S_.numel
  bcast_S_S16384x50 : S_.BroadcastsInDim S16384x50 (![] : Fin 0 → Fin S16384x50.rank)
  shapeCasts_S512_S1x512 : S512.ShapeCasts S1x512
  bitsLt_bf16_f32 : FTy.bits .bf16 < FTy.bits .f32
  bcast_S_S512x128 : S_.BroadcastsInDim S512x128 (![] : Fin 0 → Fin S512x128.rank)
  bcast_S_S1 : S_.BroadcastsInDim S1 (![] : Fin 0 → Fin S1.rank)
  bcast_S_S128 : S_.BroadcastsInDim S128 (![] : Fin 0 → Fin S128.rank)
  concatenates_S512x2048_S512x128_S512x2176_d1 : Shape.Concatenates [S512x2048, S512x128] S512x2176 1
  concatenates_S2048_S128_S2176_d0 : Shape.Concatenates [S2048, S128] S2176 0
  shapeCasts_S2176_S1x2176 : S2176.ShapeCasts S1x2176
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  shapeCasts_S50x512_S1x50x512 : S50x512.ShapeCasts S1x50x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  slices_S2x50x512_S1x50x512_0_0_0 : S2x50x512.Slices ![0, 0, 0] S1x50x512
  slices_S2x50x512_S1x50x512_1_0_0 : S2x50x512.Slices ![1, 0, 0] S1x50x512
  reducesTo_S16384x50_S50_d0 : S16384x50.ReducesTo [0] S50
  bcast_S50_S1x50_1 : S50.BroadcastsInDim S1x50 (![1] : Fin 1 → Fin S1x50.rank)
  transposes_S1x50_S50x1_1_0 : S1x50.Transposes [1, 0] S50x1
  bcast_S_S50x1 : S_.BroadcastsInDim S50x1 (![] : Fin 0 → Fin S50x1.rank)
  bcast_S50x1_S50x512_0_1 : S50x1.BroadcastsInDim S50x512 (![0, 1] : Fin 2 → Fin S50x512.rank)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S512x2176_S512x2176_0_0 : ∀ a, (![0, 0] : Fin 2 → Nat) a + S512x2176.size a ≤ S512x2176.size a
  h_S512x2176 : 0 < S512x2176.numel
  shapeCasts_S512x2176_S512x2176 : S512x2176.ShapeCasts S512x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S512x2176 : S1x2176.Broadcasts S512x2176
  slices_S512x2176_o0_0_S512x2048 : S512x2176.Slices ![0, 0] S512x2048
  slices_S512x2176_o0_2048_S512x50 : S512x2176.Slices ![0, 2048] S512x50
  reduces_S512x50_S512 : S512x50.Reduces [1] S512
  shapeCasts_S512_S512x1 : S512.ShapeCasts S512x1
  broadcasts_S512x1_S512x50 : S512x1.Broadcasts S512x50
  broadcasts_S1x512_S512x512 : S1x512.Broadcasts S512x512
  inb_S50x512_S50x512_0_0 : ∀ a, (![0, 0] : Fin 2 → Nat) a + S50x512.size a ≤ S50x512.size a
  h_S50x512 : 0 < S50x512.numel
  shapeCasts_S50x512_S50x512 : S50x512.ShapeCasts S50x512
  reduces_S512x512_S512 : S512x512.Reduces [1] S512
  transposes_S512x1_p1_0_S1x512 : S512x1.Transposes [1, 0] S1x512
  reduces_S512x2048_S2048 : S512x2048.Reduces [0] S2048
  shapeCasts_S2048_S1x2048 : S2048.ShapeCasts S1x2048
  reduces_S512x512_S512_2 : S512x512.Reduces [0] S512
  reduces_S512x1_S1 : S512x1.Reduces [0] S1
  shapeCasts_S1_S1x1 : S1.ShapeCasts S1x1
  slices_S2x1x2048_S1x1x2048_0_0_0 : S2x1x2048.Slices ![0, 0, 0] S1x1x2048
  slices_S2x1x2048_S1x1x2048_1_0_0 : S2x1x2048.Slices ![1, 0, 0] S1x1x2048
  slices_S2x1x512_S1x1x512_0_0_0 : S2x1x512.Slices ![0, 0, 0] S1x1x512
  slices_S2x1x512_S1x1x512_1_0_0 : S2x1x512.Slices ![1, 0, 0] S1x1x512
  slices_S2x1x1_S1x1x1_0_0_0 : S2x1x1.Slices ![0, 0, 0] S1x1x1
  slices_S2x1x1_S1x1x1_1_0_0 : S2x1x1.Slices ![1, 0, 0] S1x1x1
  reducesTo_S1x2048_S_d0_1 : S1x2048.ReducesTo [0, 1] S_
  reducesTo_S1x512_S_d0_1 : S1x512.ReducesTo [0, 1] S_
  reducesTo_S1x1_S_d0_1 : S1x1.ReducesTo [0, 1] S_
  shapeCasts_S1x16384_S16384 : S1x16384.ShapeCasts S16384
  bcast_S_S16384 : S_.BroadcastsInDim S16384 (![] : Fin 0 → Fin S16384.rank)
  scatter_S512x128_S1_S512x50_01_n_1_0_wf : ScatterDims.WF S512x128 S1 S512x50 [0, 1] [] [1] 0
  scatter_S128_S1_S50_0_n_0_0_wf : ScatterDims.WF S128 S1 S50 [0] [] [0] 0
  dot_S1024x2048_S2048x512_S1024x512_1_0_0_1_n_n_wf : DotDims.WF S1024x2048 S2048x512 S1024x512 [1] [0] [0] [1] [] []
  dot_S1024x50_S1024x512_S50x512_0_0_1_1_n_n_wf : DotDims.WF S1024x50 S1024x512 S50x512 [0] [0] [1] [1] [] []
  dot_S512x512_S512x2176_S512x2176_1_0_0_1_n_n_wf : DotDims.WF S512x512 S512x2176 S512x2176 [1] [0] [0] [1] [] []
  dot_S512x2048_S2048x512_S512x512_1_0_0_1_n_n_wf : DotDims.WF S512x2048 S2048x512 S512x512 [1] [0] [0] [1] [] []
  dot_S512x50_S50x512_S512x512_1_0_0_1_n_n_wf : DotDims.WF S512x50 S50x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x50.size a ≤ S16384x50.size a
  hwx0_1 : ∀ i : grid0.Coords, EltTy.bits .f32 = 32 ∨ (Rect.block (s := S16384x50) S1024x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x50x512.size a ≤ S2x50x512.size a
  hwx0_5 : ∀ i : grid0.Coords, EltTy.bits .f32 = 32 ∨ (Rect.block (s := S2x50x512) S1x50x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x50.size a ≤ S16384x50.size a
  hwx1_2 : ∀ i : grid1.Coords, EltTy.bits .f32 = 32 ∨ (Rect.block (s := S16384x50) S512x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x50.size a ≤ S16384x50.size a
  hwx1_3 : ∀ i : grid1.Coords, EltTy.bits .f32 = 32 ∨ (Rect.block (s := S16384x50) S512x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x512.size a ≤ S50x512.size a
  hwx1_4 : ∀ i : grid1.Coords, EltTy.bits .f32 = 32 ∨ (Rect.block (s := S50x512) S50x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x2176.size a ≤ S512x2176.size a
  hwx1_5 : ∀ i : grid1.Coords, EltTy.bits .bf16 = 32 ∨ (Rect.block (s := S512x2176) S512x2176.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2176.size a ≤ S1x2176.size a
  hwx1_6 : ∀ i : grid1.Coords, EltTy.bits .f32 = 32 ∨ (Rect.block (s := S1x2176) S1x2176.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x512.size a ≤ S2048x512.size a
  hwx1_7 : ∀ i : grid1.Coords, EltTy.bits .bf16 = 32 ∨ (Rect.block (s := S2048x512) S2048x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x16384.size a
  hwx1_9 : ∀ i : grid1.Coords, EltTy.bits .f32 = 32 ∨ (Rect.block (s := S1x16384) S1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x2048.size a ≤ S2x1x2048.size a
  hwx1_10 : ∀ i : grid1.Coords, EltTy.bits .f32 = 32 ∨ (Rect.block (s := S2x1x2048) S1x1x2048.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x512.size a ≤ S2x1x512.size a
  hwx1_11 : ∀ i : grid1.Coords, EltTy.bits .f32 = 32 ∨ (Rect.block (s := S2x1x512) S1x1x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x1.size a ≤ S2x1x1.size a
  hwx1_12 : ∀ i : grid1.Coords, EltTy.bits .f32 = 32 ∨ (Rect.block (s := S2x1x1) S1x1x1.size (cc1_transform_12 i) (hinb1_12 i)).WholeWords (EltTy.packing .f32)

variable [Facts₀]

def scatter_S512x128_S1_S512x50_01_n_1_0 : ScatterDims S512x128 S1 S512x50 where
  updateWindowDims := [0, 1]
  insertedWindowDims := []
  scatterDimsToOperandDims := [1]
  indexVectorDim := 0
  wf := scatter_S512x128_S1_S512x50_01_n_1_0_wf
def scatter_S128_S1_S50_0_n_0_0 : ScatterDims S128 S1 S50 where
  updateWindowDims := [0]
  insertedWindowDims := []
  scatterDimsToOperandDims := [0]
  indexVectorDim := 0
  wf := scatter_S128_S1_S50_0_n_0_0_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x50_S1024x512_S50x512_0_0_1_1_n_n : DotDims S1024x50 S1024x512 S50x512 where
  lhsContracting := [0]
  rhsContracting := [0]
  lhsNonContracting := [1]
  rhsNonContracting := [1]
  lhsBatch := []
  rhsBatch := []
  wf := dot_S1024x50_S1024x512_S50x512_0_0_1_1_n_n_wf
def dot_S512x512_S512x2176_S512x2176_1_0_0_1_n_n : DotDims S512x512 S512x2176 S512x2176 where
  lhsContracting := [1]
  rhsContracting := [0]
  lhsNonContracting := [0]
  rhsNonContracting := [1]
  lhsBatch := []
  rhsBatch := []
  wf := dot_S512x512_S512x2176_S512x2176_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x50_S50x512_S512x512_1_0_0_1_n_n : DotDims S512x50 S50x512 S512x512 where
  lhsContracting := [1]
  rhsContracting := [0]
  lhsNonContracting := [0]
  rhsNonContracting := [1]
  lhsBatch := []
  rhsBatch := []
  wf := dot_S512x50_S50x512_S512x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x50x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x50.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S50x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x2176.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x2176.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S2048x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32_0) S1x512.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v32_1) S1x1x2048.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v32_2) S1x1x512.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v32_3) S1x1x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16384x50 : Shape := ⟨2, ![16384, 50]⟩
abbrev S16384 : Shape := ⟨1, ![16384]⟩
abbrev S2048x512 : Shape := ⟨2, ![2048, 512]⟩
abbrev S512 : Shape := ⟨1, ![512]⟩
abbrev S512x2048 : Shape := ⟨2, ![512, 2048]⟩
abbrev S2048 : Shape := ⟨1, ![2048]⟩
abbrev S512x50 : Shape := ⟨2, ![512, 50]⟩
abbrev S50 : Shape := ⟨1, ![50]⟩
abbrev S16384x512 : Shape := ⟨2, ![16384, 512]⟩
abbrev S1x512 : Shape := ⟨2, ![1, 512]⟩
abbrev S1x2048 : Shape := ⟨2, ![1, 2048]⟩
abbrev S1x50 : Shape := ⟨2, ![1, 50]⟩
abbrev S_ : Shape := ⟨0, ![]⟩
abbrev S16384x1 : Shape := ⟨2, ![16384, 1]⟩
abbrev S50x512 : Shape := ⟨2, ![50, 512]⟩
abbrev S50x1 : Shape := ⟨2, ![50, 1]⟩

abbrev nBuf : Space → Nat
  | .hbm => 151
  | .vmem => 0
  | .smem => 0
  | _ => 0

abbrev hbmTy0_0 (i : Nat) : BufTy := match i % 128 with
  | 0 => ⟨S16384x2048, .f32⟩
  | 1 => ⟨S16384x2048, .f32⟩
  | 2 => ⟨S16384x50, .f32⟩
  | 3 => ⟨S16384, .i32⟩
  | 4 => ⟨S2048x512, .f32⟩
  | 5 => ⟨S512, .f32⟩
  | 6 => ⟨S512x2048, .f32⟩
  | 7 => ⟨S2048, .f32⟩
  | 8 => ⟨S512x50, .f32⟩
  | 9 => ⟨S50, .f32⟩
  | 10 => ⟨S16384x512, .f32⟩
  | 11 => ⟨S1x512, .f32⟩
  | 12 => ⟨S16384x512, .f32⟩
  | 13 => ⟨S16384x512, .f32⟩
  | 14 => ⟨S16384x512, .f32⟩
  | 15 => ⟨S16384x2048, .f32⟩
  | 16 => ⟨S1x2048, .f32⟩
  | 17 => ⟨S16384x2048, .f32⟩
  | 18 => ⟨S16384x2048, .f32⟩
  | 19 => ⟨S16384x50, .f32⟩
  | 20 => ⟨S1x50, .f32⟩
  | 21 => ⟨S16384x50, .f32⟩
  | 22 => ⟨S16384x50, .f32⟩
  | 23 => ⟨S_, .f32⟩
  | 24 => ⟨S16384, .f32⟩
  | 25 => ⟨S_, .f32⟩
  | 26 => ⟨S16384, .f32⟩
  | 27 => ⟨S16384, .f32⟩
  | 28 => ⟨S16384x1, .f32⟩
  | 29 => ⟨S16384x50, .f32⟩
  | 30 => ⟨S16384x50, .f32⟩
  | 31 => ⟨S16384x50, .f32⟩
  | 32 => ⟨S_, .f32⟩
  | 33 => ⟨S16384, .f32⟩
  | 34 => ⟨S16384x1, .f32⟩
  | 35 => ⟨S16384x50, .f32⟩
  | 36 => ⟨S16384x50, .f32⟩
  | 37 => ⟨S16384x512, .f32⟩
  | 38 => ⟨S1x512, .f32⟩
  | 39 => ⟨S16384x512, .f32⟩
  | 40 => ⟨S16384x512, .f32⟩
  | 41 => ⟨S16384x512, .f32⟩
  | 42 => ⟨S_, .f32⟩
  | 43 => ⟨S16384, .f32⟩
  | 44 => ⟨S_, .f32⟩
  | 45 => ⟨S50, .f32⟩
  | 46 => ⟨S16384x1, .i32⟩
  | 47 => ⟨S50, .f32⟩
  | 48 => ⟨S_, .f32⟩
  | 49 => ⟨S50x512, .f32⟩
  | 50 => ⟨S16384x1, .i32⟩
  | 51 => ⟨S50x512, .f32⟩
  | 52 => ⟨S_, .f32⟩
  | 53 => ⟨S50, .f32⟩
  | 54 => ⟨S50, .f32⟩
  | 55 => ⟨S50x1, .f32⟩
  | 56 => ⟨S50x512, .f32⟩
  | 57 => ⟨S50x512, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x512, .f32⟩
  | 67 => ⟨S16384x512, .f32⟩
  | 68 => ⟨S16384x512, .f32⟩
  | 69 => ⟨S16384x2048, .f32⟩
  | 70 => ⟨S16384x512, .f32⟩
  | 71 => ⟨S_, .f32⟩
  | 72 => ⟨S16384x2048, .f32⟩
  | 73 => ⟨S16384x2048, .f32⟩
  | 74 => ⟨S_, .f32⟩
  | 75 => ⟨S16384x2048, .f32⟩
  | 76 => ⟨S16384x2048, .f32⟩
  | 77 => ⟨S16384x2048, .f32⟩
  | 78 => ⟨S_, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S16384x2048, .f32⟩
  | 85 => ⟨S16384x2048, .f32⟩
  | 86 => ⟨S_, .f32⟩
  | 87 => ⟨S2048, .f32⟩
  | 88 => ⟨S_, .f32⟩
  | 89 => ⟨S2048, .f32⟩
  | 90 => ⟨S2048, .f32⟩
  | 91 => ⟨S_, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S16384x512, .f32⟩
  | 105 => ⟨S16384x512, .f32⟩
  | 106 => ⟨S_, .f32⟩
  | 107 => ⟨S512, .f32⟩
  | 108 => ⟨S_, .f32⟩
  | 109 => ⟨S512, .f32⟩
  | 110 => ⟨S512, .f32⟩
  | 111 => ⟨S_, .f32⟩
  | 112 => ⟨S16384, .f32⟩
  | 113 => ⟨S16384x1, .f32⟩
  | 114 => ⟨S16384x50, .f32⟩
  | 115 => ⟨S16384x50, .f32⟩
  | 116 => ⟨S_, .f32⟩
  | 117 => ⟨S_, .f32⟩
  | 118 => ⟨S_, .f32⟩
  | 119 => ⟨S16384x50, .f32⟩
  | 120 => ⟨S16384x50, .f32⟩
  | 121 => ⟨S_, .f32⟩
  | 122 => ⟨S16384x50, .f32⟩
  | 123 => ⟨S16384x50, .f32⟩
  | 124 => ⟨S16384x50, .f32⟩
  | 125 => ⟨S16384x50, .f32⟩
  | 126 => ⟨S_, .f32⟩
  | 127 => ⟨S16384, .f32⟩
  | _ => ⟨S16384x2048, .f32⟩

abbrev hbmTy0_1 (i : Nat) : BufTy := match i % 128 with
  | 0 => ⟨S16384, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S16384, .f32⟩
  | 12 => ⟨S_, .f32⟩
  | 13 => ⟨S16384, .f32⟩
  | 14 => ⟨S16384, .f32⟩
  | 15 => ⟨S16384, .f32⟩
  | 16 => ⟨S16384, .f32⟩
  | 17 => ⟨S_, .f32⟩
  | 18 => ⟨S_, .f32⟩
  | 19 => ⟨S_, .f32⟩
  | 20 => ⟨S_, .f32⟩
  | 21 => ⟨S16384, .f32⟩
  | 22 => ⟨S16384, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_cst_18 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_cst_21 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_22 : Ref sig .tc := ⟨.hbm, 126, rfl⟩
abbrev main_v87 : Ref sig .tc := ⟨.hbm, 127, rfl⟩
abbrev main_v88 : Ref sig .tc := ⟨.hbm, 128, rfl⟩
abbrev main_cst_23 : Ref sig .tc := ⟨.hbm, 129, rfl⟩
abbrev main_v89 : Ref sig .tc := ⟨.hbm, 130, rfl⟩
abbrev main_cst_24 : Ref sig .tc := ⟨.hbm, 131, rfl⟩
abbrev main_v90 : Ref sig .tc := ⟨.hbm, 132, rfl⟩
abbrev main_cst_25 : Ref sig .tc := ⟨.hbm, 133, rfl⟩
abbrev main_v91 : Ref sig .tc := ⟨.hbm, 134, rfl⟩
abbrev main_cst_26 : Ref sig .tc := ⟨.hbm, 135, rfl⟩
abbrev main_v92 : Ref sig .tc := ⟨.hbm, 136, rfl⟩
abbrev main_v93 : Ref sig .tc := ⟨.hbm, 137, rfl⟩
abbrev main_cst_27 : Ref sig .tc := ⟨.hbm, 138, rfl⟩
abbrev main_v94 : Ref sig .tc := ⟨.hbm, 139, rfl⟩
abbrev main_cst_28 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_29 : Ref sig .tc := ⟨.hbm, 145, rfl⟩
abbrev main_v99 : Ref sig .tc := ⟨.hbm, 146, rfl⟩
abbrev main_cst_30 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  reducesTo_S16384x50_S16384_d1 : S16384x50.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x50_0_1 : S16384x1.BroadcastsInDim S16384x50 (![0, 1] : Fin 2 → Fin S16384x50.rank)
  bcast_S_S50 : S_.BroadcastsInDim S50 (![] : Fin 0 → Fin S50.rank)
  bcast_S_S50x512 : S_.BroadcastsInDim S50x512 (![] : Fin 0 → Fin S50x512.rank)
  bcast_S50_S50x1_0 : S50.BroadcastsInDim S50x1 (![0] : Fin 1 → Fin S50x1.rank)
  bcast_S50x1_S50x512_0_1 : S50x1.BroadcastsInDim S50x512 (![0, 1] : Fin 2 → Fin S50x512.rank)
  bcast_S_S16384x2048 : S_.BroadcastsInDim S16384x2048 (![] : Fin 0 → Fin S16384x2048.rank)
  reducesTo_S16384x2048_S2048_d0 : S16384x2048.ReducesTo [0] S2048
  bcast_S_S2048 : S_.BroadcastsInDim S2048 (![] : Fin 0 → Fin S2048.rank)
  bcast_S_S16384x512 : S_.BroadcastsInDim S16384x512 (![] : Fin 0 → Fin S16384x512.rank)
  reducesTo_S16384x512_S512_d0 : S16384x512.ReducesTo [0] S512
  bcast_S_S512 : S_.BroadcastsInDim S512 (![] : Fin 0 → Fin S512.rank)
  bcast_S_S16384x50 : S_.BroadcastsInDim S16384x50 (![] : Fin 0 → Fin S16384x50.rank)
  reducesTo_S2048_S_d0 : S2048.ReducesTo [0] S_
  reducesTo_S512_S_d0 : S512.ReducesTo [0] S_
  reducesTo_S16384x512_S16384_d1 : S16384x512.ReducesTo [1] S16384
  reducesTo_S16384_S_d0 : S16384.ReducesTo [0] S_
  dot_S16384x2048_S2048x512_S16384x512_1_0_0_1_n_n_wf : DotDims.WF S16384x2048 S2048x512 S16384x512 [1] [0] [0] [1] [] []
  dot_S16384x512_S512x2048_S16384x2048_1_0_0_1_n_n_wf : DotDims.WF S16384x512 S512x2048 S16384x2048 [1] [0] [0] [1] [] []
  dot_S16384x512_S512x50_S16384x50_1_0_0_1_n_n_wf : DotDims.WF S16384x512 S512x50 S16384x50 [1] [0] [0] [1] [] []
  scatter_S50_S16384x1_S16384_n_0_0_1_wf : ScatterDims.WF S50 S16384x1 S16384 [] [0] [0] 1
  scatter_S50x512_S16384x1_S16384x512_1_0_0_1_wf : ScatterDims.WF S50x512 S16384x1 S16384x512 [1] [0] [0] 1
  gather_S50x512_S16384x1_S16384x512_1_0_n_n_0_1_1512_wf : GatherDims.WF S50x512 S16384x1 S16384x512 [1] [0] [] [0] [] 1 ![1, 512]

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x512_S512x50_S16384x50_1_0_0_1_n_n : DotDims S16384x512 S512x50 S16384x50 where
  lhsContracting := [1]
  rhsContracting := [0]
  lhsNonContracting := [0]
  rhsNonContracting := [1]
  lhsBatch := []
  rhsBatch := []
  wf := dot_S16384x512_S512x50_S16384x50_1_0_0_1_n_n_wf
def scatter_S50_S16384x1_S16384_n_0_0_1 : ScatterDims S50 S16384x1 S16384 where
  updateWindowDims := []
  insertedWindowDims := [0]
  scatterDimsToOperandDims := [0]
  indexVectorDim := 1
  wf := scatter_S50_S16384x1_S16384_n_0_0_1_wf
def scatter_S50x512_S16384x1_S16384x512_1_0_0_1 : ScatterDims S50x512 S16384x1 S16384x512 where
  updateWindowDims := [1]
  insertedWindowDims := [0]
  scatterDimsToOperandDims := [0]
  indexVectorDim := 1
  wf := scatter_S50x512_S16384x1_S16384x512_1_0_0_1_wf
def gather_S50x512_S16384x1_S16384x512_1_0_n_n_0_1_1512 : GatherDims S50x512 S16384x1 S16384x512 where
  offsetDims := [1]
  collapsedSliceDims := [0]
  operandBatchingDims := []
  startIndicesBatchingDims := []
  startIndexMap := [0]
  indexVectorDim := 1
  sliceSizes := ![1, 512]
  wf := gather_S50x512_S16384x1_S16384x512_1_0_n_n_0_1_1512_wf

class Facts : Prop extends Facts₀ where

variable [Facts]
-- ==== Proof.Spec.lean ====
/-
  The function both programs compute, written once over the extended reals, index by index.

  Ten arguments: x, out : [16384, 2048]; cl : [16384, 50] (the targets of the cross-entropy term); lab : 16384 class
  numbers; We : [2048, 512], be : [512] (encoder); Wd : [512, 2048], bd : [2048] (decoder); Wc : [512, 50], bc : [50]
  (classifier). With

    enc n d    = tanh (∑ k, x n k · We k d + be d)
    dec n t    = ∑ k, enc n k · Wd k t + bd t
    logit n c  = ∑ k, enc n k · Wc k c + bc c
    prob n c   = exp (logit n c − maxᶜ logit n ·) / ∑ c', exp (logit n c' − maxᶜ logit n ·)
    reclat n d = tanh (∑ t, dec n t · We t d + be d)
    oh n c     = 1 if lab n = c, else 0
    cnt c      = ∑ n, oh n c,   sums c d = ∑ n, oh n c · enc n d,   mean c d = sums c d / max (cnt c) 1
    meanRow n d = ∑ c, oh n c · mean c d           (the mean of row n's own class, when lab n is a class)

  the result at row n is

    total n = (∑ d, (enc n d − meanRow n d)²) / 512
              + (( (∑ t, ∑ n', b · |dec n' t − out n' t|) / 2²⁵ + (∑ d, ∑ n', b · |reclat n' d − enc n' d|) / 2²³ )
                 + (∑ n', −∑ c, prob n' c · ly n' c) / 2¹⁴)

  where b is the f32 nearest 0.9 and ly n c = log (clip (cl n c / ∑ c', cl n c')) with the clip's two f32 bounds.
  Float literals are kept as the words both programs carry; only the three divisors of the means are ever evaluated.
-/
import Idealize.ShloMosaic.PureOps.Ideal
import Idealize.ShloMosaic.Lib.ValueIdx

noncomputable section

namespace Cert.Spec

open Idealize.ShloMosaic Idealize.ShloMosaic.ValueIdx

/-- A matrix / a vector of extended reals / the class numbers, as the programs' arrays are: functions of an index. -/
abbrev Mat (a b : Nat) : Type := (⟨2, ![a, b]⟩ : Shape).Idx → EReal
abbrev Vc (a : Nat) : Type := (⟨1, ![a]⟩ : Shape).Idx → EReal
abbrev Lab : Type := (⟨1, ![16384]⟩ : Shape).Idx → BitVec 32

/-- The f32 words the two programs share. -/
abbrev c09 : EReal := Ideal.ofBits .f32 0x3F666666#32      -- the f32 nearest 0.9
abbrev cLo : EReal := Ideal.ofBits .f32 0x33D6BF95#32      -- the f32 nearest 1e-7
abbrev cHi : EReal := Ideal.ofBits .f32 0x3F7FFFFE#32      -- the f32 nearest 1 − 1e-7
abbrev c512 : EReal := Ideal.ofBits .f32 0x44000000#32     -- 512
abbrev c16384 : EReal := Ideal.ofBits .f32 0x46800000#32   -- 2¹⁴
abbrev cNT : EReal := Ideal.ofBits .f32 0x4C000000#32      -- 2²⁵ = 16384 · 2048
abbrev cND : EReal := Ideal.ofBits .f32 0x4B000000#32      -- 2²³ = 16384 · 512

/-- Every class number is one of the 50 classes. -/
def LabOK (lab : Lab) : Prop := ∀ n : Fin 16384, 0 ≤ (lab (ix1 n)).toInt ∧ (lab (ix1 n)).toInt < 50

/-- |z| on the extended reals. -/
def absE (z : EReal) : EReal := max z (-z)

section
variable (x out : Mat 16384 2048) (cl : Mat 16384 50) (lab : Lab) (We : Mat 2048 512) (be : Vc 512)
  (Wd : Mat 512 2048) (bd : Vc 2048) (Wc : Mat 512 50) (bc : Vc 50)

/-- The latent of row n. -/
def enc (n : Fin 16384) (d : Fin 512) : EReal :=
  Ideal.tanh ((∑ k : Fin 2048, x (ix2 n k) * We (ix2 k d)) + be (ix1 d))

/-- The reconstruction of row n. -/
def dec (n : Fin 16384) (t : Fin 2048) : EReal :=
  (∑ k : Fin 512, enc x We be n k * Wd (ix2 k t)) + bd (ix1 t)

/-- The class scores of row n. -/
def logit (n : Fin 16384) (c : Fin 50) : EReal :=
  (∑ k : Fin 512, enc x We be n k * Wc (ix2 k c)) + bc (ix1 c)

/-- The largest class score of row n (from −∞). -/
def rowMax (n : Fin 16384) : EReal := Finset.univ.fold max (⊥ : EReal) fun c : Fin 50 => logit x We be Wc bc n c

/-- exp of a score less the row's largest. -/
def expo (n : Fin 16384) (c : Fin 50) : EReal := Ideal.exp (logit x We be Wc bc n c - rowMax x We be Wc bc n)

/-- The softmax of row n's scores. -/
def prob (n : Fin 16384) (c : Fin 50) : EReal :=
  Ideal.div (expo x We be Wc bc n c) (∑ c' : Fin 50, expo x We be Wc bc n c')

/-- The reconstruction, encoded again. -/
def reclat (n : Fin 16384) (d : Fin 512) : EReal :=
  Ideal.tanh ((∑ t : Fin 2048, dec x We be Wd bd n t * We (ix2 t d)) + be (ix1 d))

/-- 1 where row n is of class c. -/
def oh (n : Fin 16384) (c : Fin 50) : EReal := if lab (ix1 n) = BitVec.ofNat 32 c.val then 1 else 0

/-- How many rows are of class c. -/
def cnt (c : Fin 50) : EReal := ∑ n : Fin 16384, oh lab n c

/-- The latents of class c, summed. -/
def sums (c : Fin 50) (d : Fin 512) : EReal := ∑ n : Fin 16384, oh lab n c * enc x We be n d

/-- The mean latent of class c (of an empty class: the sum over one). -/
def mean (c : Fin 50) (d : Fin 512) : EReal := Ideal.div (sums x lab We be c d) (max (cnt lab c) 1)

/-- The mean latent of row n's class. -/
def meanRow (n : Fin 16384) (d : Fin 512) : EReal := ∑ c : Fin 50, oh lab n c * mean x lab We be c d

/-- Row n's mean squared distance from its class mean. -/
def wg (n : Fin 16384) : EReal :=
  Ideal.div (∑ d : Fin 512, (enc x We be n d - meanRow x lab We be n d) * (enc x We be n d - meanRow x lab We be n d)) c512

/-- The pinball terms of the reconstruction, summed over everything. -/
def recTot : EReal := ∑ t : Fin 2048, ∑ n : Fin 16384, c09 * absE (dec x We be Wd bd n t - out (ix2 n t))

/-- The pinball terms of the re-encoded latents, summed over everything. -/
def latTot : EReal := ∑ d : Fin 512, ∑ n : Fin 16384, c09 * absE (reclat x We be Wd bd n d - enc x We be n d)

/-- The log of the clipped, normalised target. -/
def ly (n : Fin 16384) (c : Fin 50) : EReal :=
  Ideal.log (min cHi (max cLo (Ideal.div (cl (ix2 n c)) (0 + ∑ c' : Fin 50, cl (ix2 n c')))))

/-- Row n's cross-entropy term. -/
def catRow (n : Fin 16384) : EReal := -(∑ c : Fin 50, prob x We be Wc bc n c * ly cl n c)

/-- The three means, added. -/
def scalar : EReal :=
  (Ideal.div (recTot x out We be Wd bd) cNT + Ideal.div (latTot x We be Wd bd) cND)
    + Ideal.div (∑ n : Fin 16384, catRow x cl We be Wc bc n) c16384

/-- The result at row n. -/
def total (n : Fin 16384) : EReal := wg x lab We be n + scalar x out cl We be Wd bd Wc bc

end

end Cert.Spec

end
-- ==== Proof.KDefs.lean ====
/-
  The kernel side's vocabulary: the ten argument arrays of a launch memory, what one grid point of each of the two
  kernel regions computes from the blocks it is handed (as index-by-index functions of those blocks), and the arrays the
  run is shown to leave in its intermediate and result buffers, each an index-by-index function of the arguments
  through Spec.lean's functions.
-/
import proofs.«423489_j79242146611896_3_alg».proof.Proof.Gen.KernelIdeal.Frame
import proofs.«423489_j79242146611896_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-! ## The arguments -/

section Args
variable (m : (ℓ : Loc nD τ sig) → Buf (Elt Ideal) ℓ)

abbrev aX (c : Dev nD) : Spec.Mat 16384 2048 := m ((c : Thread nD τ).loc main_arg0)
abbrev aOut (c : Dev nD) : Spec.Mat 16384 2048 := m ((c : Thread nD τ).loc main_arg1)
abbrev aCl (c : Dev nD) : Spec.Mat 16384 50 := m ((c : Thread nD τ).loc main_arg2)
abbrev aLab (c : Dev nD) : Spec.Lab := m ((c : Thread nD τ).loc main_arg3)
abbrev aWe (c : Dev nD) : Spec.Mat 2048 512 := m ((c : Thread nD τ).loc main_arg4)
abbrev aBe (c : Dev nD) : Spec.Vc 512 := m ((c : Thread nD τ).loc main_arg5)
abbrev aWd (c : Dev nD) : Spec.Mat 512 2048 := m ((c : Thread nD τ).loc main_arg6)
abbrev aBd (c : Dev nD) : Spec.Vc 2048 := m ((c : Thread nD τ).loc main_arg7)
abbrev aWc (c : Dev nD) : Spec.Mat 512 50 := m ((c : Thread nD τ).loc main_arg8)
abbrev aBc (c : Dev nD) : Spec.Vc 50 := m ((c : Thread nD τ).loc main_arg9)

end Args

/-- Row r of core k's half of the 16384 rows. -/
def rowOf (k : Fin 2) (r : Fin 8192) : Fin 16384 := ⟨k.val * 8192 + r.val, by have := k.isLt; have := r.isLt; omega⟩

/-! ## One grid point of the first region: 1024 rows -/

section Block0
variable (x0 : Vec Ideal S1024x2048 .f32) (x1 : Vec Ideal S1024x50 .f32) (x2 : Vec Ideal S2048x512 .bf16) (x3 : Vec Ideal S1x512 .f32)

/-- The latents of the block's rows. -/
def encB (r : Fin 1024) (d : Fin 512) : EReal := Ideal.tanh ((∑ k : Fin 2048, x0 (ix2 r k) * x2 (ix2 k d)) + x3 (ix2 0 d))

/-- The block's contribution to the class sums. -/
def sumB (k : Fin 50) (d : Fin 512) : EReal := ∑ r : Fin 1024, x1 (ix2 r k) * encB x0 x2 x3 r d

end Block0

/-! ## One grid point of the second region: 512 rows -/

section Block1
variable (x0 : Vec Ideal S512x512 .f32) (x1 : Vec Ideal S512x2048 .f32) (x2 : Vec Ideal S512x50 .f32) (x3 : Vec Ideal S512x50 .f32)
  (x4 : Vec Ideal S50x512 .f32) (x5 : Vec Ideal S512x2176 .bf16) (x6 : Vec Ideal S1x2176 .f32) (x7 : Vec Ideal S2048x512 .bf16) (x8 : Vec Ideal S1x512 .f32)

/-- The fused decode-and-classify product of the block's latents. -/
def fusedB (r : Fin 512) (j : Fin 2176) : EReal := (∑ k : Fin 512, x0 (ix2 r k) * x5 (ix2 k j)) + x6 (ix2 0 j)
/-- Its first 2048 columns: the reconstruction. -/
def decB (r : Fin 512) (t : Fin 2048) : EReal := fusedB x0 x5 x6 r ⟨t.val, by have := t.isLt; omega⟩
/-- Its columns 2048 … 2097: the class scores. -/
def logitB (r : Fin 512) (k : Fin 50) : EReal := fusedB x0 x5 x6 r ⟨2048 + k.val, by have := k.isLt; omega⟩
def rowMaxB (r : Fin 512) : EReal := Finset.univ.fold max (⊥ : EReal) fun k : Fin 50 => logitB x0 x5 x6 r k
def expoB (r : Fin 512) (k : Fin 50) : EReal := Ideal.exp (logitB x0 x5 x6 r k - rowMaxB x0 x5 x6 r)
def probB (r : Fin 512) (k : Fin 50) : EReal := Ideal.div (expoB x0 x5 x6 r k) (∑ k' : Fin 50, expoB x0 x5 x6 r k')
/-- The reconstruction encoded again. -/
def reclatB (r : Fin 512) (d : Fin 512) : EReal := Ideal.tanh ((∑ t : Fin 2048, decB x0 x5 x6 r t * x7 (ix2 t d)) + x8 (ix2 0 d))
/-- The class mean the one-hot row selects. -/
def meanRowB (r : Fin 512) (d : Fin 512) : EReal := ∑ k : Fin 50, x2 (ix2 r k) * x4 (ix2 k d)
/-- A row's mean squared distance from it. -/
def wgB (r : Fin 512) : EReal :=
  Ideal.div (∑ d : Fin 512, (x0 (ix2 r d) - meanRowB x2 x4 r d) * (x0 (ix2 r d) - meanRowB x2 x4 r d)) c512
/-- The block's pinball sums, per column. -/
def recColB (t : Fin 2048) : EReal := ∑ r : Fin 512, c09 * absE (decB x0 x5 x6 r t - x1 (ix2 r t))
def latColB (d : Fin 512) : EReal := ∑ r : Fin 512, c09 * absE (reclatB x0 x5 x6 x7 x8 r d - x0 (ix2 r d))
/-- The block's cross-entropy sum. -/
def catB : EReal := ∑ r : Fin 512, (0 - ∑ k : Fin 50, probB x0 x5 x6 r k * x3 (ix2 r k))

end Block1

/-! ## What the buffers hold -/

section Arrays
variable (m : (ℓ : Loc nD τ sig) → Buf (Elt Ideal) ℓ) (c : Dev nD)

/-- The one-hot rows of the class numbers. -/
def ohArr : Buf (Elt Ideal) ((c : Thread nD τ).loc main_v0) := fun j => Spec.oh (aLab m c) (j 0) (j 1)
/-- The log targets. -/
def lyArr : Buf (Elt Ideal) ((c : Thread nD τ).loc main_v6) := fun j => Spec.ly (aCl m c) (j 0) (j 1)
/-- The encoder's bias as one row. -/
def be2Arr : Buf (Elt Ideal) ((c : Thread nD τ).loc main_v7) := fun j => aBe m c (ix1 (j 1))
/-- The encoder's weight (a change of format is the identity). -/
def weArr : Buf (Elt Ideal) ((c : Thread nD τ).loc main_v8) := fun j => aWe m c (ix2 (j 0) (j 1))
/-- Decoder and classifier weights side by side, the classifier's 50 columns padded with zeros to 128. -/
def wfArr : Buf (Elt Ideal) ((c : Thread nD τ).loc main_v18) := fun j =>
  ((if h : (j 1).val < 2048 then aWd m c (ix2 (j 0) ⟨(j 1).val, h⟩)
  else if h' : (j 1).val - 2048 < 50 then aWc m c (ix2 (j 0) ⟨(j 1).val - 2048, h'⟩) else 0) : EReal)
/-- Their biases likewise, as one row. -/
def bfArr : Buf (Elt Ideal) ((c : Thread nD τ).loc main_v17) := fun j =>
  ((if h : (j 1).val < 2048 then aBd m c (ix1 ⟨(j 1).val, h⟩)
  else if h' : (j 1).val - 2048 < 50 then aBc m c (ix1 ⟨(j 1).val - 2048, h'⟩) else 0) : EReal)
/-- The latents. -/
def encArr : Buf (Elt Ideal) ((c : Thread nD τ).loc main_v19_0) := fun j => Spec.enc (aX m c) (aWe m c) (aBe m c) (j 0) (j 1)
/-- Each core's class sums over its half of the rows. -/
def sumsArr : Buf (Elt Ideal) ((c : Thread nD τ).loc main_v19_1) := fun j =>
  ((∑ r : Fin 8192, Spec.oh (aLab m c) (rowOf (j 0) r) (j 1) * Spec.enc (aX m c) (aWe m c) (aBe m c) (rowOf (j 0) r) (j 2)) : EReal)
/-- The class means. -/
def meanArr : Buf (Elt Ideal) ((c : Thread nD τ).loc main_v31) := fun j => Spec.mean (aX m c) (aLab m c) (aWe m c) (aBe m c) (j 0) (j 1)
/-- The rows' mean squared distances, as one row. -/
def rowArr : Buf (Elt Ideal) ((c : Thread nD τ).loc main_v32_0) := fun j => Spec.wg (aX m c) (aLab m c) (aWe m c) (aBe m c) (j 1)
/-- Each core's pinball sums over its half of the rows. -/
def recArr : Buf (Elt Ideal) ((c : Thread nD τ).loc main_v32_1) := fun j =>
  ((∑ r : Fin 8192, c09 * absE (Spec.dec (aX m c) (aWe m c) (aBe m c) (aWd m c) (aBd m c) (rowOf (j 0) r) (j 2) - aOut m c (ix2 (rowOf (j 0) r) (j 2)))) : EReal)
def latArr : Buf (Elt Ideal) ((c : Thread nD τ).loc main_v32_2) := fun j =>
  ((∑ r : Fin 8192, c09 * absE (Spec.reclat (aX m c) (aWe m c) (aBe m c) (aWd m c) (aBd m c) (rowOf (j 0) r) (j 2) - Spec.enc (aX m c) (aWe m c) (aBe m c) (rowOf (j 0) r) (j 2))) : EReal)
/-- Each core's cross-entropy sum over its half of the rows. -/
def catArr : Buf (Elt Ideal) ((c : Thread nD τ).loc main_v32_3) := fun j =>
  ((∑ r : Fin 8192, Spec.catRow (aX m c) (aCl m c) (aWe m c) (aBe m c) (aWc m c) (aBc m c) (rowOf (j 0) r)) : EReal)
/-- The result. -/
def resArr : Buf (Elt Ideal) ((c : Thread nD τ).loc main_v58) := fun j =>
  Spec.total (aX m c) (aOut m c) (aCl m c) (aLab m c) (aWe m c) (aBe m c) (aWd m c) (aBd m c) (aWc m c) (aBc m c) (j 0)

end Arrays

end Cert.KernelIdeal.KV

end
-- ==== Proof.KBody1a.lean ====
/-
  The second region's body, read as values: the rows' mean squared distances and the cross-entropy sum. From the point's 512 rows of latents, targets, one-hot rows and log targets,
  the class means and the resident weights, the body leaves: each row's mean squared distance from its class mean (as one
  row of 512); and, added to what the three accumulators held (alone at a core's first point, which zeroes them first), the
  column sums of the two pinball terms and the sum of the rows' cross-entropy terms.
-/
import proofs.«423489_j79242146611896_3_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

namespace Body1a

/-! ## Layout operations and reductions of a matrix, read at an index given by coordinates -/

section Generic
variable {α : Type}

/-- A vector cast to a one-column matrix reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the lanes of a matrix, at row `r`: the sum of the row's entries. -/
theorem sumAxis1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ d : Fin b, src (ix2 r d) := by
  refine (Ideal.multiReduction_add_single src _ h hφ hacc (ix1 r)).trans ?_
  refine Finset.sum_congr rfl fun d _ => congrArg src ?_
  funext x; apply Fin.ext
  match x with
  | ⟨0, _⟩ => rfl
  | ⟨1, _⟩ => rfl

/-- A sum down the rows of a matrix, at column `d`: the sum of the column's entries. -/
theorem sumAxis0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (d : Fin b) :
    multiReduction .add [0] ⟨1, ![b]⟩ src 0x00000000#32 h hφ hacc (ix1 d) = ∑ r : Fin a, src (ix2 r d) := by
  refine (Ideal.multiReduction_add_single src _ h hφ hacc (ix1 d)).trans ?_
  refine Finset.sum_congr rfl fun r _ => congrArg src ?_
  funext x; apply Fin.ext
  match x with
  | ⟨0, _⟩ => rfl
  | ⟨1, _⟩ => rfl

/-- The f32 word of minus infinity is the least extended real. -/
theorem ofBits_neg_inf_f32 : Ideal.ofBits .f32 0xFF800000#32 = ⊥ := by simp [Ideal.ofBits, Ideal.ieee]

/-- A maximum along the lanes of a matrix, at row `r`: the largest of the row's entries (from minus infinity). -/
theorem maxAxis1_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = Finset.univ.fold max (⊥ : EReal) fun d : Fin b => src (ix2 r d) := by
  refine (Ideal.multiReduction_maximumf_single src _ h hφ hacc (ix1 r)).trans ?_
  have hf : (src ∘ h.lift (ix1 r)) = fun d : Fin b => src (ix2 r d) := funext fun d => congrArg src (by
    funext x; apply Fin.ext
    match x with
    | ⟨0, _⟩ => rfl
    | ⟨1, _⟩ => rfl)
  rw [hf]
  exact congrArg (fun z => Finset.fold max z (fun d : Fin b => src (ix2 r d)) (Finset.univ : Finset (Fin b))) ofBits_neg_inf_f32

end Generic

/-! ## The two products read at an index -/

section Dots

/-! The two products the lemmas below read: the one-hot rows times the class means, and the latents times the fused weights. -/

theorem lhs_mean_0 (i : S512x512.Idx) (q : dot_S512x50_S50x512_S512x512_1_0_0_1_n_n.contr.Idx) :
    (dot_S512x50_S50x512_S512x512_1_0_0_1_n_n.lhsIdx i q 0).val = (i 0).val := by
  unfold DotDims.lhsIdx
  rw [dif_neg (show ¬(0 : Fin S512x50.rank) ∈ dot_S512x50_S50x512_S512x512_1_0_0_1_n_n.lhsBatch by decide), dif_pos (show (0 : Fin S512x50.rank) ∈ dot_S512x50_S50x512_S512x512_1_0_0_1_n_n.lhsNonContracting by decide)]
  rfl
theorem lhs_mean_1 (i : S512x512.Idx) (q : dot_S512x50_S50x512_S512x512_1_0_0_1_n_n.contr.Idx) :
    (dot_S512x50_S50x512_S512x512_1_0_0_1_n_n.lhsIdx i q 1).val = (q ⟨0, by decide⟩).val :=
  dot_S512x50_S50x512_S512x512_1_0_0_1_n_n.lhsIdx_val_of_single rfl i q
theorem rhs_mean_0 (i : S512x512.Idx) (q : dot_S512x50_S50x512_S512x512_1_0_0_1_n_n.contr.Idx) :
    (dot_S512x50_S50x512_S512x512_1_0_0_1_n_n.rhsIdx i q 0).val = (q ⟨0, by decide⟩).val :=
  dot_S512x50_S50x512_S512x512_1_0_0_1_n_n.rhsIdx_val_of_single rfl i q
theorem rhs_mean_1 (i : S512x512.Idx) (q : dot_S512x50_S50x512_S512x512_1_0_0_1_n_n.contr.Idx) :
    (dot_S512x50_S50x512_S512x512_1_0_0_1_n_n.rhsIdx i q 1).val = (i 1).val := by
  unfold DotDims.rhsIdx
  rw [dif_neg (show ¬(1 : Fin S50x512.rank) ∈ dot_S512x50_S50x512_S512x512_1_0_0_1_n_n.rhsBatch by decide), dif_pos (show (1 : Fin S50x512.rank) ∈ dot_S512x50_S50x512_S512x512_1_0_0_1_n_n.rhsNonContracting by decide)]
  rfl

/-- The one-hot block times the class means, at `(r, d)`: the sum over the 50 classes. -/
theorem meanMat_apply (prec : Option ContractPrecision) (x2 : FVec Ideal S512x50 .f32) (x4 : FVec Ideal S50x512 .f32) (r d : Fin 512) :
    matmul dot_S512x50_S50x512_S512x512_1_0_0_1_n_n prec x2 x4 (constant S512x512 .f32 0x00000000#32) (ix2 r d)
      = ∑ k : Fin 50, x2 (ix2 r k) * x4 (ix2 k d) := by
  refine (Ideal.matmul_constant_zero_apply dot_S512x50_S50x512_S512x512_1_0_0_1_n_n prec x2 x4 (ix2 r d)).trans ?_
  rw [← Equiv.sum_comp (contrEquiv1 dot_S512x50_S50x512_S512x512_1_0_0_1_n_n 50 rfl rfl).symm]
  refine Finset.sum_congr rfl fun k _ => ?_
  have hk := contrEquiv1_symm_val dot_S512x50_S50x512_S512x512_1_0_0_1_n_n 50 rfl rfl k
  have el : dot_S512x50_S50x512_S512x512_1_0_0_1_n_n.lhsIdx (ix2 r d) ((contrEquiv1 dot_S512x50_S50x512_S512x512_1_0_0_1_n_n 50 rfl rfl).symm k) = ix2 r k := funext fun a => Fin.ext (by
    match a with
    | ⟨0, _⟩ => exact lhs_mean_0 _ _
    | ⟨1, _⟩ => exact (lhs_mean_1 _ _).trans hk)
  have er : dot_S512x50_S50x512_S512x512_1_0_0_1_n_n.rhsIdx (ix2 r d) ((contrEquiv1 dot_S512x50_S50x512_S512x512_1_0_0_1_n_n 50 rfl rfl).symm k) = ix2 k d := funext fun a => Fin.ext (by
    match a with
    | ⟨0, _⟩ => exact (rhs_mean_0 _ _).trans hk
    | ⟨1, _⟩ => exact rhs_mean_1 _ _)
  rw [el, er]

theorem lhs_fused_0 (i : S512x2176.Idx) (q : dot_S512x512_S512x2176_S512x2176_1_0_0_1_n_n.contr.Idx) :
    (dot_S512x512_S512x2176_S512x2176_1_0_0_1_n_n.lhsIdx i q 0).val = (i 0).val := by
  unfold DotDims.lhsIdx
  rw [dif_neg (show ¬(0 : Fin S512x512.rank) ∈ dot_S512x512_S512x2176_S512x2176_1_0_0_1_n_n.lhsBatch by decide), dif_pos (show (0 : Fin S512x512.rank) ∈ dot_S512x512_S512x2176_S512x2176_1_0_0_1_n_n.lhsNonContracting by decide)]
  rfl
theorem lhs_fused_1 (i : S512x2176.Idx) (q : dot_S512x512_S512x2176_S512x2176_1_0_0_1_n_n.contr.Idx) :
    (dot_S512x512_S512x2176_S512x2176_1_0_0_1_n_n.lhsIdx i q 1).val = (q ⟨0, by decide⟩).val :=
  dot_S512x512_S512x2176_S512x2176_1_0_0_1_n_n.lhsIdx_val_of_single rfl i q
theorem rhs_fused_0 (i : S512x2176.Idx) (q : dot_S512x512_S512x2176_S512x2176_1_0_0_1_n_n.contr.Idx) :
    (dot_S512x512_S512x2176_S512x2176_1_0_0_1_n_n.rhsIdx i q 0).val = (q ⟨0, by decide⟩).val :=
  dot_S512x512_S512x2176_S512x2176_1_0_0_1_n_n.rhsIdx_val_of_single rfl i q
theorem rhs_fused_1 (i : S512x2176.Idx) (q : dot_S512x512_S512x2176_S512x2176_1_0_0_1_n_n.contr.Idx) :
    (dot_S512x512_S512x2176_S512x2176_1_0_0_1_n_n.rhsIdx i q 1).val = (i 1).val := by
  unfold DotDims.rhsIdx
  rw [dif_neg (show ¬(1 : Fin S512x2176.rank) ∈ dot_S512x512_S512x2176_S512x2176_1_0_0_1_n_n.rhsBatch by decide), dif_pos (show (1 : Fin S512x2176.rank) ∈ dot_S512x512_S512x2176_S512x2176_1_0_0_1_n_n.rhsNonContracting by decide)]
  rfl

/-- The latents times the fused weights, at `(r, j)`: the sum over the 512 latent coordinates. -/
theorem fusedMat_apply (prec : Option ContractPrecision) (a : FVec Ideal S512x512 .bf16) (w : FVec Ideal S512x2176 .bf16) (r : Fin 512) (j : Fin 2176) :
    matmul dot_S512x512_S512x2176_S512x2176_1_0_0_1_n_n prec a w (constant S512x2176 .f32 0x00000000#32) (ix2 r j)
      = ∑ k : Fin 512, a (ix2 r k) * w (ix2 k j) := by
  refine (Ideal.matmul_constant_zero_apply dot_S512x512_S512x2176_S512x2176_1_0_0_1_n_n prec a w (ix2 r j)).trans ?_
  rw [← Equiv.sum_comp (contrEquiv1 dot_S512x512_S512x2176_S512x2176_1_0_0_1_n_n 512 rfl rfl).symm]
  refine Finset.sum_congr rfl fun k _ => ?_
  have hk := contrEquiv1_symm_val dot_S512x512_S512x2176_S512x2176_1_0_0_1_n_n 512 rfl rfl k
  have el : dot_S512x512_S512x2176_S512x2176_1_0_0_1_n_n.lhsIdx (ix2 r j) ((contrEquiv1 dot_S512x512_S512x2176_S512x2176_1_0_0_1_n_n 512 rfl rfl).symm k) = ix2 r k := funext fun a => Fin.ext (by
    match a with
    | ⟨0, _⟩ => exact lhs_fused_0 _ _
    | ⟨1, _⟩ => exact (lhs_fused_1 _ _).trans hk)
  have er : dot_S512x512_S512x2176_S512x2176_1_0_0_1_n_n.rhsIdx (ix2 r j) ((contrEquiv1 dot_S512x512_S512x2176_S512x2176_1_0_0_1_n_n 512 rfl rfl).symm k) = ix2 k j := funext fun a => Fin.ext (by
    match a with
    | ⟨0, _⟩ => exact (rhs_fused_0 _ _).trans hk
    | ⟨1, _⟩ => exact rhs_fused_1 _ _)
  rw [el, er]

end Dots

/-! ## The payloads read at an index, over the extended reals -/

section AtIdeal
variable (x0 : Vec Ideal S512x512 .f32) (x2 : Vec Ideal S512x50 .f32) (x3 : Vec Ideal S512x50 .f32) (x4 : Vec Ideal S50x512 .f32)
  (x5 : Vec Ideal S512x2176 .bf16) (x6 : Vec Ideal S1x2176 .f32)

/-- The row of distances, at column `r`: row `r`'s mean squared distance from the mean its one-hot row selects. -/
theorem pay13_apply (u : Fin 1) (r : Fin 512) :
    k1_pay13 (F := Ideal) (k1_pay6 x0) (k1_pay7 x2) x4 (ix2 u r) = wgB x0 x2 x4 r := by
  unfold k1_pay13 k1_pay6 k1_pay7
  simp only [shapeCast_self]
  refine (transpose_ix2_apply _ _ u r).trans ?_
  refine (divf_apply _ _ _).trans ?_
  unfold wgB
  refine congrArg₂ Ideal.div ?_ rfl
  refine (shapeCast_a_a1_apply _ _ r u).trans ?_
  refine (sumAxis1_apply _ _ _ _ r).trans ?_
  refine Finset.sum_congr rfl fun d _ => ?_
  have hM := meanMat_apply (some ContractPrecision.fp32) x2 x4 r d
  exact congrArg (fun z => (x0 (ix2 r d) - z) * (x0 (ix2 r d) - z)) hM

/-- The fused product of the block's latents with the decoder and classifier weights, bias added, at `(r, j)`. -/
theorem pay9_apply (r : Fin 512) (j : Fin 2176) :
    k1_pay9 (F := Ideal) x0 x5 x6 (ix2 r j) = fusedB x0 x5 x6 r j := by
  unfold k1_pay9 k1_pay6
  simp only [shapeCast_self]
  refine (addf_apply _ _ _).trans ?_
  unfold fusedB
  refine congrArg₂ (· + ·) ?_ ?_
  · exact fusedMat_apply none _ x5 r j
  · exact broadcastTo_1b_ab_apply x6 _ r j

/-- Its columns 2048 … 2097 are the class scores. -/
theorem logit_apply (h : S512x2176.Slices ![0, 2048] S512x50) (r : Fin 512) (k : Fin 50) :
    extractStridedSlice S512x50 ![0, 2048] (k1_pay9 (F := Ideal) x0 x5 x6) h (ix2 r k) = logitB x0 x5 x6 r k := by
  refine (slice2_axis1_eq 2048 _ h r k).trans ?_
  exact pay9_apply x0 x5 x6 r _

/-- The softmax of the class scores, at `(r, k)`. -/
theorem pay11_apply (r : Fin 512) (k : Fin 50) :
    k1_pay11 (F := Ideal) x0 x5 x6 (ix2 r k) = probB x0 x5 x6 r k := by
  unfold k1_pay11
  dsimp only
  generalize hL : extractStridedSlice S512x50 ![0, 2048] (k1_pay9 (F := Ideal) x0 x5 x6) _ = L
  have hLa : ∀ (r' : Fin 512) (k' : Fin 50), L (ix2 r' k') = logitB x0 x5 x6 r' k' := fun r' k' => by
    rw [← hL]; exact logit_apply x0 x5 x6 _ r' k'
  generalize hE : exp (subf L _) = E
  have hEa : ∀ k' : Fin 50, E (ix2 r k') = expoB x0 x5 x6 r k' := fun k' => by
    rw [← hE]
    unfold expoB
    refine congrArg Ideal.exp (congrArg₂ (· - ·) (hLa r k') ?_)
    refine (broadcastTo_a1_ab_apply _ _ r k').trans ?_
    refine (shapeCast_a_a1_apply _ _ r 0).trans ?_
    refine (maximumf_apply _ _ _).trans ?_
    refine (congrArg₂ max (show broadcast S512 _ (ix1 r) = (⊥ : EReal) from ofBits_neg_inf_f32) (maxAxis1_apply L _ _ _ r)).trans ?_
    rw [max_bot_left]
    unfold rowMaxB
    exact congrArg (fun f => Finset.fold max (⊥ : EReal) f (Finset.univ : Finset (Fin 50))) (funext fun d => hLa r d)
  refine (divf_apply _ _ _).trans ?_
  unfold probB
  refine congrArg₂ Ideal.div (hEa k) ?_
  refine (broadcastTo_a1_ab_apply _ _ r k).trans ?_
  refine (shapeCast_a_a1_apply _ _ r 0).trans ?_
  refine (sumAxis1_apply E _ _ _ r).trans ?_
  exact Finset.sum_congr rfl fun k' _ => hEa k'

/-- The cross-entropy accumulator after the body: what it held plus the block's sum. -/
theorem pay2_apply (acc : Vec Ideal S1x1x1 .f32) (u v w : Fin 1) :
    k1_pay2 (F := Ideal) (k1_pay8 x3) (k1_pay11 x0 x5 x6) acc (ix3 u v w) = acc (ix3 u v w) + catB x0 x3 x5 x6 := by
  unfold k1_pay2 k1_pay8
  simp only [shapeCast_self]
  refine (shapeCast_ab_1ab_apply _ _ u v w).trans ?_
  refine (addf_apply _ _ _).trans ?_
  refine congrArg₂ (· + ·) ?_ ?_
  · refine (shapeCast_1ab_ab_apply acc _ v w).trans ?_
    obtain rfl : u = 0 := Subsingleton.elim _ _
    rfl
  · refine (shapeCast_a_1a_apply _ _ v w).trans ?_
    refine (sumAxis0_apply _ _ _ _ w).trans ?_
    unfold catB
    refine Finset.sum_congr rfl fun r _ => ?_
    refine (subf_apply _ _ _).trans ?_
    refine congrArg₂ (· - ·) Ideal.ofBits_zero_f32 ?_
    refine (shapeCast_a_a1_apply _ _ r w).trans ?_
    refine (sumAxis1_apply _ _ _ _ r).trans ?_
    refine Finset.sum_congr rfl fun k _ => ?_
    exact congrArg (· * x3 (ix2 r k)) (pay11_apply x0 x5 x6 r k)

/-- The zeroed accumulator is zero. -/
theorem pay5_apply (u v w : Fin 1) : k1_pay5 (F := Ideal) (ix3 u v w) = 0 := by
  unfold k1_pay5
  refine (shapeCast_ab_1ab_apply _ _ u v w).trans ?_
  exact Ideal.ofBits_zero_f32

end AtIdeal

/-! ## What the stores leave: the payloads of the covering stores -/

section Pieces
variable {F : FTy → Type} [FloatOps F]
variable (c : Dev nD) (i : grid1.Coords) (arg2 : Memref sig .tc .vmem S512x512 .f32) (harg2 : arg2.IsWhole) (arg3 : Memref sig .tc .vmem S512x2048 .f32) (harg3 : arg3.IsWhole) (arg4 : Memref sig .tc .vmem S512x50 .f32) (harg4 : arg4.IsWhole) (arg5 : Memref sig .tc .vmem S512x50 .f32) (harg5 : arg5.IsWhole) (arg6 : Memref sig .tc .vmem S50x512 .f32) (harg6 : arg6.IsWhole) (arg7 : Memref sig .tc .vmem S512x2176 .bf16) (harg7 : arg7.IsWhole) (arg8 : Memref sig .tc .vmem S1x2176 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1x2048 .f32) (harg12 : arg12.IsWhole) (arg13 : Memref sig .tc .vmem S1x1x512 .f32) (harg13 : arg13.IsWhole) (arg14 : Memref sig .tc .vmem S1x1x1 .f32) (harg14 : arg14.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- At a core's first point the one store into the row of distances leaves its payload. -/
theorem piece_A_9 (hc0 : cond1_0 i) (x0 : Vec F S512x512 .f32) (x1 : Vec F S512x2048 .f32) (x2 : Vec F S512x50 .f32) (x3 : Vec F S512x50 .f32) (x4 : Vec F S50x512 .f32) (x5 : Vec F S512x2176 .bf16) (x6 : Vec F S1x2176 .f32) (x7 : Vec F S2048x512 .bf16) (x8 : Vec F S1x512 .f32) :
    out1_A_9 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k1_pay13 (k1_pay6 x0) (k1_pay7 x2) x4 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun1_A
  dsimp only
  sl_unfold_words
  rw [View.canon_unit_zero (S := S1x512) hz2]
  simp only [View.readAt_eq_ld, harg2.read_unread, harg4.read_unread, harg6.read_unread,
    View.ld_unit_zero (S := S512x512) hz2, View.ld_unit_zero (S := S512x50) hz2, View.ld_unit_zero (S := S50x512) hz2]

/-- At a later point likewise. -/
theorem piece_B_9 (hc0 : ¬cond1_0 i) (x0 : Vec F S512x512 .f32) (x1 : Vec F S512x2048 .f32) (x2 : Vec F S512x50 .f32) (x3 : Vec F S512x50 .f32) (x4 : Vec F S50x512 .f32) (x5 : Vec F S512x2176 .bf16) (x6 : Vec F S1x2176 .f32) (x7 : Vec F S2048x512 .bf16) (x8 : Vec F S1x512 .f32) (xo10 : Vec F S1x1x2048 .f32) (xo11 : Vec F S1x1x512 .f32) (xo12 : Vec F S1x1x1 .f32) :
    out1_B_9 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = k1_pay13 (k1_pay6 x0) (k1_pay7 x2) x4 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12)]
  unfold kernelRun1_B
  dsimp only
  sl_unfold_words
  rw [View.canon_unit_zero (S := S1x512) hz2]
  simp only [View.readAt_eq_ld, harg2.read_unread, harg4.read_unread, harg6.read_unread,
    View.ld_unit_zero (S := S512x512) hz2, View.ld_unit_zero (S := S512x50) hz2, View.ld_unit_zero (S := S50x512) hz2]

/-- At a core's first point the accumulator is zeroed, read back and added to: the later store covers. -/
theorem piece_A_12 (hc0 : cond1_0 i) (x0 : Vec F S512x512 .f32) (x1 : Vec F S512x2048 .f32) (x2 : Vec F S512x50 .f32) (x3 : Vec F S512x50 .f32) (x4 : Vec F S50x512 .f32) (x5 : Vec F S512x2176 .bf16) (x6 : Vec F S1x2176 .f32) (x7 : Vec F S2048x512 .bf16) (x8 : Vec F S1x512 .f32) :
    out1_A_12 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k1_pay2 (k1_pay8 x3) (k1_pay11 x0 x5 x6) (k1_pay5 (F := F)) := by
  unfold out1_A_12
  rw [View.read_writes_eq_canon _ _ _ (cover1_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun1_A
  dsimp only
  sl_unfold_words
  rw [View.canon_cons_unit_zero (S := S1x1x1) hz3, View.readCov_unit_zero (S := S1x1x1) _ hz3]
  simp only [View.readAt_eq_ld, harg2.read_unread, harg5.read_unread, harg7.read_unread, harg8.read_unread,
    View.ld_unit_zero (S := S512x512) hz2, View.ld_unit_zero (S := S512x50) hz2, View.ld_unit_zero (S := S512x2176) hz2,
    View.ld_unit_zero (S := S1x2176) hz2]

/-- At a later point the carried accumulator is read and added to. -/
theorem piece_B_12 (hc0 : ¬cond1_0 i) (x0 : Vec F S512x512 .f32) (x1 : Vec F S512x2048 .f32) (x2 : Vec F S512x50 .f32) (x3 : Vec F S512x50 .f32) (x4 : Vec F S50x512 .f32) (x5 : Vec F S512x2176 .bf16) (x6 : Vec F S1x2176 .f32) (x7 : Vec F S2048x512 .bf16) (x8 : Vec F S1x512 .f32) (xo10 : Vec F S1x1x2048 .f32) (xo11 : Vec F S1x1x512 .f32) (xo12 : Vec F S1x1x1 .f32) :
    out1_B_12 (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = k1_pay2 (k1_pay8 x3) (k1_pay11 x0 x5 x6) xo12 := by
  unfold out1_B_12
  rw [View.read_writes_eq_canon _ _ _ (cover1_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12)]
  unfold kernelRun1_B
  dsimp only
  sl_unfold_words
  rw [View.canon_unit_zero (S := S1x1x1) hz3]
  simp only [View.readAt_eq_ld, harg2.read_unread, harg5.read_unread, harg7.read_unread, harg8.read_unread, harg14.read_unread,
    View.ld_unit_zero (S := S512x512) hz2, View.ld_unit_zero (S := S512x50) hz2, View.ld_unit_zero (S := S512x2176) hz2,
    View.ld_unit_zero (S := S1x2176) hz2, View.ld_unit_zero (S := S1x1x1) hz3]

end Pieces

end Body1a

open Body1a

section
variable (c : Dev nD) (i : grid1.Coords) (arg2 : Memref sig .tc .vmem S512x512 .f32) (harg2 : arg2.IsWhole) (arg3 : Memref sig .tc .vmem S512x2048 .f32) (harg3 : arg3.IsWhole) (arg4 : Memref sig .tc .vmem S512x50 .f32) (harg4 : arg4.IsWhole) (arg5 : Memref sig .tc .vmem S512x50 .f32) (harg5 : arg5.IsWhole) (arg6 : Memref sig .tc .vmem S50x512 .f32) (harg6 : arg6.IsWhole) (arg7 : Memref sig .tc .vmem S512x2176 .bf16) (harg7 : arg7.IsWhole) (arg8 : Memref sig .tc .vmem S1x2176 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1x2048 .f32) (harg12 : arg12.IsWhole) (arg13 : Memref sig .tc .vmem S1x1x512 .f32) (harg13 : arg13.IsWhole) (arg14 : Memref sig .tc .vmem S1x1x1 .f32) (harg14 : arg14.IsWhole)

theorem out1_A_9_eq (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = fun j => wgB x0 x2 x4 (j 1) := by
  funext j
  obtain ⟨u, r, rfl⟩ : ∃ (u : Fin 1) (r : Fin 512), j = ix2 u r := ⟨j 0, j 1, eq_ix2 j⟩
  refine (congrFun (piece_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8) (ix2 u r)).trans ?_
  exact pay13_apply x0 x2 x4 u r

theorem out1_B_9_eq (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = fun j => wgB x0 x2 x4 (j 1) := by
  funext j
  obtain ⟨u, r, rfl⟩ : ∃ (u : Fin 1) (r : Fin 512), j = ix2 u r := ⟨j 0, j 1, eq_ix2 j⟩
  refine (congrFun (piece_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12) (ix2 u r)).trans ?_
  exact pay13_apply x0 x2 x4 u r

theorem out1_A_12_eq (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = fun _ => catB x0 x3 x5 x6 := by
  funext j
  obtain ⟨u, v, w, rfl⟩ : ∃ (u v w : Fin 1), j = ix3 u v w := ⟨j 0, j 1, j 2, eq_ix3 j⟩
  refine (congrFun (piece_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8) (ix3 u v w)).trans ?_
  refine (pay2_apply x0 x3 x5 x6 (k1_pay5 (F := Ideal)) u v w).trans ?_
  rw [pay5_apply u v w, zero_add]

theorem out1_B_12_eq (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = fun j => xo12 j + catB x0 x3 x5 x6 := by
  funext j
  obtain ⟨u, v, w, rfl⟩ : ∃ (u v w : Fin 1), j = ix3 u v w := ⟨j 0, j 1, j 2, eq_ix3 j⟩
  refine (congrFun (piece_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12) (ix3 u v w)).trans ?_
  exact pay2_apply x0 x3 x5 x6 xo12 u v w

end

end Cert.KernelIdeal.KV

end
-- ==== Proof.KBody1b.lean ====
/-
  The second region's body, read as values: the column sums of the two pinball terms. From the point's 512 rows of latents, targets, one-hot rows and log targets,
  the class means and the resident weights, the body leaves: each row's mean squared distance from its class mean (as one
  row of 512); and, added to what the three accumulators held (alone at a core's first point, which zeroes them first), the
  column sums of the two pinball terms and the sum of the rows' cross-entropy terms.
-/
import proofs.«423489_j79242146611896_3_alg».proof.Proof.KDefs
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

section
variable (c : Dev nD) (i : grid1.Coords) (arg2 : Memref sig .tc .vmem S512x512 .f32) (harg2 : arg2.IsWhole) (arg3 : Memref sig .tc .vmem S512x2048 .f32) (harg3 : arg3.IsWhole) (arg4 : Memref sig .tc .vmem S512x50 .f32) (harg4 : arg4.IsWhole) (arg5 : Memref sig .tc .vmem S512x50 .f32) (harg5 : arg5.IsWhole) (arg6 : Memref sig .tc .vmem S50x512 .f32) (harg6 : arg6.IsWhole) (arg7 : Memref sig .tc .vmem S512x2176 .bf16) (harg7 : arg7.IsWhole) (arg8 : Memref sig .tc .vmem S1x2176 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1x2048 .f32) (harg12 : arg12.IsWhole) (arg13 : Memref sig .tc .vmem S1x1x512 .f32) (harg13 : arg13.IsWhole) (arg14 : Memref sig .tc .vmem S1x1x1 .f32) (harg14 : arg14.IsWhole)

/-! ## Index bookkeeping -/

theorem hz2 : (![0, 0] : Fin 2 → Nat) = fun _ => 0 := funext fun a => by fin_cases a <;> rfl

theorem hz3 : (![0, 0, 0] : Fin 3 → Nat) = fun _ => 0 := funext fun a => by fin_cases a <;> rfl

/-- The first product contracts the latents' 512 columns against the fused weight's 512 rows. -/
abbrev dF : DotDims S512x512 S512x2176 S512x2176 := dot_S512x512_S512x2176_S512x2176_1_0_0_1_n_n

theorem dF_l0 (i : S512x2176.Idx) (q : dF.contr.Idx) : (dF.lhsIdx i q 0).val = (i 0).val := by
  unfold DotDims.lhsIdx
  rw [dif_neg (show ¬(0 : Fin S512x512.rank) ∈ dF.lhsBatch by decide), dif_pos (show (0 : Fin S512x512.rank) ∈ dF.lhsNonContracting by decide)]
  rfl

theorem dF_l1 (i : S512x2176.Idx) (q : dF.contr.Idx) : (dF.lhsIdx i q 1).val = (q ⟨0, by decide⟩).val :=
  dF.lhsIdx_val_of_single rfl i q

theorem dF_r0 (i : S512x2176.Idx) (q : dF.contr.Idx) : (dF.rhsIdx i q 0).val = (q ⟨0, by decide⟩).val :=
  dF.rhsIdx_val_of_single rfl i q

theorem dF_r1 (i : S512x2176.Idx) (q : dF.contr.Idx) : (dF.rhsIdx i q 1).val = (i 1).val := by
  unfold DotDims.rhsIdx
  rw [dif_neg (show ¬(1 : Fin S512x2176.rank) ∈ dF.rhsBatch by decide), dif_pos (show (1 : Fin S512x2176.rank) ∈ dF.rhsNonContracting by decide)]
  rfl

/-- The left operand is read at (the result's row, the contraction index). -/
theorem dF_lhs (r : Fin 512) (j : Fin 2176) (k : Fin 512) :
    dF.lhsIdx (ix2 r j) ((contrEquiv1 dF 512 rfl rfl).symm k) = ix2 r k :=
  funext fun a => Fin.ext (by
    match a with
    | ⟨0, _⟩ => exact dF_l0 _ _
    | ⟨1, _⟩ => exact (dF_l1 _ _).trans (contrEquiv1_symm_val dF 512 rfl rfl k))

/-- The right operand is read at (the contraction index, the result's column). -/
theorem dF_rhs (r : Fin 512) (j : Fin 2176) (k : Fin 512) :
    dF.rhsIdx (ix2 r j) ((contrEquiv1 dF 512 rfl rfl).symm k) = ix2 k j :=
  funext fun a => Fin.ext (by
    match a with
    | ⟨0, _⟩ => exact (dF_r0 _ _).trans (contrEquiv1_symm_val dF 512 rfl rfl k)
    | ⟨1, _⟩ => exact dF_r1 _ _)

/-- The second contracts the reconstruction's 2048 columns against the encoder weight's 2048 rows. -/
abbrev dE : DotDims S512x2048 S2048x512 S512x512 := dot_S512x2048_S2048x512_S512x512_1_0_0_1_n_n

theorem dE_l0 (i : S512x512.Idx) (q : dE.contr.Idx) : (dE.lhsIdx i q 0).val = (i 0).val := by
  unfold DotDims.lhsIdx
  rw [dif_neg (show ¬(0 : Fin S512x2048.rank) ∈ dE.lhsBatch by decide), dif_pos (show (0 : Fin S512x2048.rank) ∈ dE.lhsNonContracting by decide)]
  rfl

theorem dE_l1 (i : S512x512.Idx) (q : dE.contr.Idx) : (dE.lhsIdx i q 1).val = (q ⟨0, by decide⟩).val :=
  dE.lhsIdx_val_of_single rfl i q

theorem dE_r0 (i : S512x512.Idx) (q : dE.contr.Idx) : (dE.rhsIdx i q 0).val = (q ⟨0, by decide⟩).val :=
  dE.rhsIdx_val_of_single rfl i q

theorem dE_r1 (i : S512x512.Idx) (q : dE.contr.Idx) : (dE.rhsIdx i q 1).val = (i 1).val := by
  unfold DotDims.rhsIdx
  rw [dif_neg (show ¬(1 : Fin S2048x512.rank) ∈ dE.rhsBatch by decide), dif_pos (show (1 : Fin S2048x512.rank) ∈ dE.rhsNonContracting by decide)]
  rfl

/-- The left operand is read at (the result's row, the contraction index). -/
theorem dE_lhs (r : Fin 512) (j : Fin 512) (k : Fin 2048) :
    dE.lhsIdx (ix2 r j) ((contrEquiv1 dE 2048 rfl rfl).symm k) = ix2 r k :=
  funext fun a => Fin.ext (by
    match a with
    | ⟨0, _⟩ => exact dE_l0 _ _
    | ⟨1, _⟩ => exact (dE_l1 _ _).trans (contrEquiv1_symm_val dE 2048 rfl rfl k))

/-- The right operand is read at (the contraction index, the result's column). -/
theorem dE_rhs (r : Fin 512) (j : Fin 512) (k : Fin 2048) :
    dE.rhsIdx (ix2 r j) ((contrEquiv1 dE 2048 rfl rfl).symm k) = ix2 k j :=
  funext fun a => Fin.ext (by
    match a with
    | ⟨0, _⟩ => exact (dE_r0 _ _).trans (contrEquiv1_symm_val dE 2048 rfl rfl k)
    | ⟨1, _⟩ => exact dE_r1 _ _)

/-! ## The payloads at an index -/

/-- The fused product's value at row r, column j: the latents' row against the fused weight's column, plus the fused bias. -/
theorem pay9_apply (x0 : Vec Ideal S512x512 .f32) (x5 : Vec Ideal S512x2176 .bf16) (x6 : Vec Ideal S1x2176 .f32) (r : Fin 512) (j : Fin 2176) :
    k1_pay9 (F := Ideal) x0 x5 x6 (ix2 r j) = fusedB x0 x5 x6 r j := by
  unfold k1_pay9 k1_pay6 fusedB
  simp only [shapeCast_self]
  refine (addf_apply _ _ _).trans ?_
  refine congrArg₂ (· + ·) ?_ ?_
  · refine (Ideal.matmul_constant_zero_apply (φ₁ := .bf16) (φ₂ := .bf16) dF none (truncf .bf16 x0 bitsLt_bf16_f32) x5 (ix2 r j)).trans ?_
    rw [← Equiv.sum_comp (contrEquiv1 dF 512 rfl rfl).symm]
    refine Finset.sum_congr rfl fun k _ => ?_
    rw [dF_lhs, dF_rhs]
    rfl
  · exact broadcastTo_1b_ab_apply x6 broadcasts_S1x2176_S512x2176 r j

/-- The reconstruction block is the fused product's first 2048 columns. -/
theorem pay10_apply (x0 : Vec Ideal S512x512 .f32) (x5 : Vec Ideal S512x2176 .bf16) (x6 : Vec Ideal S1x2176 .f32) (r : Fin 512) (t : Fin 2048) :
    k1_pay10 (F := Ideal) x0 x5 x6 (ix2 r t) = decB x0 x5 x6 r t := by
  unfold k1_pay10 decB
  refine (slice2_axis1_apply (n0 := 512) (n1 := 2176) (m := 2048) 0 (k1_pay9 x0 x5 x6) slices_S512x2176_o0_0_S512x2048 r t
    ⟨t.val, by have := t.isLt; omega⟩ (Nat.zero_add _).symm).trans ?_
  exact pay9_apply x0 x5 x6 r _

/-- Summing a [512, 2048] block over its rows: the index inserted over column t at row k is (k, t). -/
theorem lift_rows_2048 (t : Fin 2048) (k : Fin 512) : reduces_S512x2048_S2048.lift (ix1 t) k = ix2 k t :=
  funext fun a => Fin.ext (by
    match a with
    | ⟨0, _⟩ => rfl
    | ⟨1, _⟩ => rfl)

/-- The first accumulator's update at column t: what it held there, plus the 512 rows' pinball terms
    0.9 · |reconstruction − target| of that column. -/
theorem pay14_apply (v5 : Vec Ideal S512x2048 .f32) (v18 : FVec Ideal S512x2048 .f32) (v59 : Vec Ideal S1x1x2048 .f32) (t : Fin 2048) :
    k1_pay14 (F := Ideal) v5 v18 v59 (ix3 0 0 t)
      = v59 (ix3 0 0 t) + ∑ r : Fin 512, c09 * absE (v18 (ix2 r t) - v5 (ix2 r t)) := by
  unfold k1_pay14
  dsimp only
  refine (shapeCast_ab_1ab_apply _ shapeCasts_S1x2048_S1x1x2048 0 0 t).trans ?_
  refine (addf_apply _ _ _).trans ?_
  refine congrArg₂ (· + ·) ?_ ?_
  · exact shapeCast_1ab_ab_apply v59 shapeCasts_S1x1x2048_S1x2048 0 t
  · refine (shapeCast_a_1a_apply _ shapeCasts_S2048_S1x2048 0 t).trans ?_
    refine (Ideal.multiReduction_add_single _ _ reduces_S512x2048_S2048 _ _ (ix1 t)).trans ?_
    refine Finset.sum_congr rfl fun (k : Fin 512) _ => ?_
    exact congrArg (mulf (broadcast S512x2048 (FloatOps.ofBits FTy.f32 0x3F666666#32)) (absf (subf v18 v5))) (lift_rows_2048 t k)

/-! ## Output 10: the reconstruction term's column sums -/

/-- An index of a [1, 1, n] block is its last coordinate under two zeros. -/
theorem idx_11n {n : Nat} (j : (⟨3, ![1, 1, n]⟩ : Shape).Idx) : j = ix3 (0 : Fin 1) (0 : Fin 1) (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- The zero the first point of a core stores into the first accumulator. -/
theorem pay3_apply (t : Fin 2048) : k1_pay3 (F := Ideal) (ix3 0 0 t) = 0 := by
  unfold k1_pay3
  refine (shapeCast_ab_1ab_apply _ shapeCasts_S1x2048_S1x1x2048 0 0 t).trans ?_
  exact Ideal.ofBits_zero_f32

/-- At a core's first point the body leaves in output 10 the update of the zero it has just stored. -/
theorem piece_A_10 (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k1_pay14 x1 (k1_pay10 x0 x5 x6) (k1_pay3 (F := Ideal)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun1_A
  dsimp only
  sl_unfold_words
  rw [View.canon_cons_unit_zero (S := S1x1x2048) hz3, View.readCov_unit_zero (S := S1x1x2048) _ hz3]
  simp only [View.readAt_eq_ld, harg2.read_unread, harg3.read_unread, harg7.read_unread, harg8.read_unread,
    View.ld_unit_zero (S := S512x512) hz2, View.ld_unit_zero (S := S512x2048) hz2,
    View.ld_unit_zero (S := S512x2176) hz2, View.ld_unit_zero (S := S1x2176) hz2]

/-- At a later point it leaves the update of what output 10 held. -/
theorem piece_B_10 (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = k1_pay14 x1 (k1_pay10 x0 x5 x6) xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12)]
  unfold kernelRun1_B
  dsimp only
  sl_unfold_words
  rw [View.canon_unit_zero (S := S1x1x2048) hz3]
  simp only [View.readAt_eq_ld, harg2.read_unread, harg3.read_unread, harg7.read_unread, harg8.read_unread, harg12.read_unread,
    View.ld_unit_zero (S := S512x512) hz2, View.ld_unit_zero (S := S512x2048) hz2,
    View.ld_unit_zero (S := S512x2176) hz2, View.ld_unit_zero (S := S1x2176) hz2, View.ld_unit_zero (S := S1x1x2048) hz3]

/-- The update's sum over the block's rows is the block's column sum of the reconstruction term. -/
theorem colsum_10 (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (t : Fin 2048) :
    (∑ r : Fin 512, c09 * absE (k1_pay10 (F := Ideal) x0 x5 x6 (ix2 r t) - x1 (ix2 r t))) = recColB x0 x1 x5 x6 t := by
  unfold recColB
  exact Finset.sum_congr rfl fun r _ => by rw [pay10_apply]

/-! ## Output 11: the re-encoded latents' column sums -/

/-- The second product at row r, latent d: the reconstruction's row against the encoder weight's column. -/
theorem pay12_apply (x0 : Vec Ideal S512x512 .f32) (x5 : Vec Ideal S512x2176 .bf16) (x6 : Vec Ideal S1x2176 .f32) (x7 : Vec Ideal S2048x512 .bf16) (r : Fin 512) (d : Fin 512) :
    k1_pay12 (F := Ideal) x0 x5 x6 x7 (ix2 r d) = ∑ t : Fin 2048, decB x0 x5 x6 r t * x7 (ix2 t d) := by
  unfold k1_pay12
  simp only [shapeCast_self]
  refine (Ideal.matmul_constant_zero_apply (φ₁ := .bf16) (φ₂ := .bf16) dE none
    (truncf .bf16 (k1_pay10 x0 x5 x6) bitsLt_bf16_f32) x7 (ix2 r d)).trans ?_
  rw [← Equiv.sum_comp (contrEquiv1 dE 2048 rfl rfl).symm]
  refine Finset.sum_congr rfl fun k _ => ?_
  rw [dE_lhs, dE_rhs]
  exact congrArg (· * x7 (ix2 k d)) (pay10_apply x0 x5 x6 r k)

/-- Summing a [512, 512] block over its rows: the index inserted over column d at row k is (k, d). -/
theorem lift_rows_512 (d : Fin 512) (k : Fin 512) : reduces_S512x512_S512_2.lift (ix1 d) k = ix2 k d :=
  funext fun a => Fin.ext (by
    match a with
    | ⟨0, _⟩ => rfl
    | ⟨1, _⟩ => rfl)

/-- The second accumulator's update at latent d: what it held there, plus the 512 rows' pinball terms
    0.9 · |tanh (second product + bias) − latent| of that column. -/
theorem pay15_apply (v4 v34 : FVec Ideal S512x512 .f32) (v35 : Vec Ideal S1x512 .f32) (v67 : Vec Ideal S1x1x512 .f32) (d : Fin 512) :
    k1_pay15 (F := Ideal) v4 v34 v35 v67 (ix2 0 d)
      = v67 (ix3 0 0 d) + ∑ r : Fin 512, c09 * absE (Ideal.tanh (v34 (ix2 r d) + v35 (ix2 0 d)) - v4 (ix2 r d)) := by
  unfold k1_pay15
  simp only [shapeCast_self]
  refine (addf_apply _ _ _).trans ?_
  refine congrArg₂ (· + ·) ?_ ?_
  · exact shapeCast_1ab_ab_apply v67 shapeCasts_S1x1x512_S1x512 0 d
  · refine (shapeCast_a_1a_apply _ shapeCasts_S512_S1x512 0 d).trans ?_
    refine (Ideal.multiReduction_add_single _ _ reduces_S512x512_S512_2 _ _ (ix1 d)).trans ?_
    refine Finset.sum_congr rfl fun (k : Fin 512) _ => ?_
    refine (congrArg (mulf (broadcast S512x512 (FloatOps.ofBits FTy.f32 0x3F666666#32))
      (absf (subf (tanh (addf v34 (broadcastTo S512x512 v35 broadcasts_S1x512_S512x512))) v4))) (lift_rows_512 d k)).trans ?_
    show c09 * absE (Ideal.tanh (v34 (ix2 k d) + broadcastTo S512x512 v35 broadcasts_S1x512_S512x512 (ix2 k d)) - v4 (ix2 k d)) = _
    rw [broadcastTo_1b_ab_apply]

/-- The second accumulator's payload is that update, given its leading unit axis back. -/
theorem pay1_apply (v71 : FVec Ideal S1x512 .f32) (d : Fin 512) : k1_pay1 (F := Ideal) v71 (ix3 0 0 d) = v71 (ix2 0 d) := by
  unfold k1_pay1
  exact shapeCast_ab_1ab_apply v71 shapeCasts_S1x512_S1x1x512 0 0 d

/-- The zero the first point of a core stores into the second accumulator. -/
theorem pay4_apply (d : Fin 512) : k1_pay4 (F := Ideal) (ix3 0 0 d) = 0 := by
  unfold k1_pay4
  refine (shapeCast_ab_1ab_apply _ shapeCasts_S1x512_S1x1x512 0 0 d).trans ?_
  exact Ideal.ofBits_zero_f32

/-- At a core's first point the body leaves in output 11 the update of the zero it has just stored. -/
theorem piece_A_11 (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = k1_pay1 (k1_pay15 (k1_pay6 x0) (k1_pay12 x0 x5 x6 x7) x8 (k1_pay4 (F := Ideal))) := by
  unfold out1_A_11
  rw [View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun1_A
  dsimp only
  sl_unfold_words
  rw [View.canon_cons_unit_zero (S := S1x1x512) hz3, View.readCov_unit_zero (S := S1x1x512) _ hz3]
  simp only [View.readAt_eq_ld, harg2.read_unread, harg7.read_unread, harg8.read_unread, harg9.read_unread, harg10.read_unread,
    View.ld_unit_zero (S := S512x512) hz2, View.ld_unit_zero (S := S512x2176) hz2, View.ld_unit_zero (S := S1x2176) hz2,
    View.ld_unit_zero (S := S2048x512) hz2, View.ld_unit_zero (S := S1x512) hz2]

/-- At a later point it leaves the update of what output 11 held. -/
theorem piece_B_11 (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12
      = k1_pay1 (k1_pay15 (k1_pay6 x0) (k1_pay12 x0 x5 x6 x7) x8 xo11) := by
  unfold out1_B_11
  rw [View.read_writes_eq_canon _ _ _ (cover1_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12)]
  unfold kernelRun1_B
  dsimp only
  sl_unfold_words
  rw [View.canon_unit_zero (S := S1x1x512) hz3]
  simp only [View.readAt_eq_ld, harg2.read_unread, harg7.read_unread, harg8.read_unread, harg9.read_unread, harg10.read_unread,
    harg13.read_unread,
    View.ld_unit_zero (S := S512x512) hz2, View.ld_unit_zero (S := S512x2176) hz2, View.ld_unit_zero (S := S1x2176) hz2,
    View.ld_unit_zero (S := S2048x512) hz2, View.ld_unit_zero (S := S1x512) hz2, View.ld_unit_zero (S := S1x1x512) hz3]

/-- The update's sum over the block's rows is the block's column sum of the re-encoded latents' term. -/
theorem colsum_11 (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (d : Fin 512) :
    (∑ r : Fin 512, c09 * absE (Ideal.tanh (k1_pay12 (F := Ideal) x0 x5 x6 x7 (ix2 r d) + x8 (ix2 0 d)) - k1_pay6 (F := Ideal) x0 (ix2 r d)))
      = latColB x0 x5 x6 x7 x8 d := by
  unfold latColB reclatB k1_pay6
  exact Finset.sum_congr rfl fun r _ => by rw [pay12_apply, shapeCast_self]

/-! ## The four facts -/

theorem out1_A_10_eq (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = fun j => recColB x0 x1 x5 x6 (j 2) := by
  refine (piece_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).trans ?_
  funext j
  obtain ⟨t, rfl⟩ : ∃ t : Fin 2048, j = ix3 (0 : Fin 1) (0 : Fin 1) t := ⟨j 2, idx_11n j⟩
  refine (pay14_apply x1 (k1_pay10 x0 x5 x6) (k1_pay3 (F := Ideal)) t).trans ?_
  rw [pay3_apply, zero_add]
  exact colsum_10 x0 x1 x2 x3 x4 x5 x6 x7 x8 t

theorem out1_B_10_eq (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = fun j => xo10 j + recColB x0 x1 x5 x6 (j 2) := by
  refine (piece_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).trans ?_
  funext j
  obtain ⟨t, rfl⟩ : ∃ t : Fin 2048, j = ix3 (0 : Fin 1) (0 : Fin 1) t := ⟨j 2, idx_11n j⟩
  refine (pay14_apply x1 (k1_pay10 x0 x5 x6) xo10 t).trans ?_
  exact congrArg (xo10 (ix3 0 0 t) + ·) (colsum_10 x0 x1 x2 x3 x4 x5 x6 x7 x8 t)

theorem out1_A_11_eq (hc0 : cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) :
    out1_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = fun j => latColB x0 x5 x6 x7 x8 (j 2) := by
  refine (piece_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).trans ?_
  funext j
  obtain ⟨d, rfl⟩ : ∃ d : Fin 512, j = ix3 (0 : Fin 1) (0 : Fin 1) d := ⟨j 2, idx_11n j⟩
  refine (pay1_apply _ d).trans ?_
  refine (pay15_apply (k1_pay6 x0) (k1_pay12 x0 x5 x6 x7) x8 (k1_pay4 (F := Ideal)) d).trans ?_
  rw [pay4_apply, zero_add]
  exact colsum_11 x0 x1 x2 x3 x4 x5 x6 x7 x8 d

theorem out1_B_11_eq (hc0 : ¬cond1_0 i) (x0 : Vec Ideal S512x512 .f32) (x1 : Vec Ideal S512x2048 .f32) (x2 : Vec Ideal S512x50 .f32) (x3 : Vec Ideal S512x50 .f32) (x4 : Vec Ideal S50x512 .f32) (x5 : Vec Ideal S512x2176 .bf16) (x6 : Vec Ideal S1x2176 .f32) (x7 : Vec Ideal S2048x512 .bf16) (x8 : Vec Ideal S1x512 .f32) (xo10 : Vec Ideal S1x1x2048 .f32) (xo11 : Vec Ideal S1x1x512 .f32) (xo12 : Vec Ideal S1x1x1 .f32) :
    out1_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = fun j => xo11 j + latColB x0 x5 x6 x7 x8 (j 2) := by
  refine (piece_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12).trans ?_
  funext j
  obtain ⟨d, rfl⟩ : ∃ d : Fin 512, j = ix3 (0 : Fin 1) (0 : Fin 1) d := ⟨j 2, idx_11n j⟩
  refine (pay1_apply _ d).trans ?_
  refine (pay15_apply (k1_pay6 x0) (k1_pay12 x0 x5 x6 x7) x8 xo11 d).trans ?_
  exact congrArg (xo11 (ix3 0 0 d) + ·) (colsum_11 x0 x1 x2 x3 x4 x5 x6 x7 x8 d)

end

end Cert.KernelIdeal.KV

end
-- ==== Proof.KBody0.lean ====
/-
  The first region's body, read as values. Whatever staging memrefs the point is handed, the body leaves in the latents'
  buffer tanh (x·We + be) of the point's 1024 rows, and in the class sums' buffer the one-hot block's transpose times
  those latents — alone at a core's first point (the buffer is zeroed first), added to what the buffer held at the others.
-/
import proofs.«423489_j79242146611896_3_alg».proof.Proof.KDefs
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

namespace Body0

/-! ## The two products and the payloads, index by index -/

/-! The first product's operand indices: row r of the left block against column d of the right. -/
/-- Rows times columns: the block's rows against the encoder's weight. -/
abbrev dotEnc := dot_S1024x2048_S2048x512_S1024x512_1_0_0_1_n_n
/-- Rows against rows: the one-hot block transposed against the latents. -/
abbrev dotSum := dot_S1024x50_S1024x512_S50x512_0_0_1_1_n_n

theorem d1_lhs_0 (j : S1024x512.Idx) (q : dotEnc.contr.Idx) : (dotEnc.lhsIdx j q 0).val = (j 0).val := by
  unfold DotDims.lhsIdx
  rw [dif_neg (show ¬(0 : Fin S1024x2048.rank) ∈ dotEnc.lhsBatch by decide), dif_pos (show (0 : Fin S1024x2048.rank) ∈ dotEnc.lhsNonContracting by decide)]
  rfl
theorem d1_lhs_1 (j : S1024x512.Idx) (q : dotEnc.contr.Idx) : (dotEnc.lhsIdx j q 1).val = (q ⟨0, by decide⟩).val :=
  dotEnc.lhsIdx_val_of_single rfl j q
theorem d1_rhs_0 (j : S1024x512.Idx) (q : dotEnc.contr.Idx) : (dotEnc.rhsIdx j q 0).val = (q ⟨0, by decide⟩).val :=
  dotEnc.rhsIdx_val_of_single rfl j q
theorem d1_rhs_1 (j : S1024x512.Idx) (q : dotEnc.contr.Idx) : (dotEnc.rhsIdx j q 1).val = (j 1).val := by
  unfold DotDims.rhsIdx
  rw [dif_neg (show ¬(1 : Fin S2048x512.rank) ∈ dotEnc.rhsBatch by decide), dif_pos (show (1 : Fin S2048x512.rank) ∈ dotEnc.rhsNonContracting by decide)]
  rfl

/-- The latents' payload at row r, column d. -/
theorem k0_pay2_apply (x0 : Vec Ideal S1024x2048 .f32) (x2 : Vec Ideal S2048x512 .bf16) (x3 : Vec Ideal S1x512 .f32) (r : Fin 1024) (d : Fin 512) :
    k0_pay2 x0 x2 x3 (ix2 r d) = encB x0 x2 x3 r d := by
  unfold k0_pay2 encB
  simp only [shapeCast_self]
  show Ideal.tanh (FloatOps.matmul (F := Ideal) dotEnc none (truncf .bf16 x0 bitsLt_bf16_f32) x2 (constant S1024x512 .f32 0x00000000#32) (ix2 r d)
    + broadcastTo S1024x512 x3 broadcasts_S1x512_S1024x512 (ix2 r d)) = _
  rw [Ideal.matmul_constant_zero_apply, broadcastTo_apply x3 broadcasts_S1x512_S1024x512 (ix2 r d) (ix2 0 d) (fun a => match a with
    | ⟨0, _⟩ => by show 0 = if (1 : Nat) = 1 then 0 else r.val; rw [if_pos rfl]
    | ⟨1, _⟩ => by show d.val = if (512 : Nat) = 1 then 0 else d.val; rw [if_neg (by decide)]),
    ← Equiv.sum_comp (contrEquiv1 dotEnc 2048 rfl rfl).symm]
  refine congrArg (fun z => Ideal.tanh (z + x3 (ix2 0 d))) (Finset.sum_congr rfl fun k _ => ?_)
  have hk := contrEquiv1_symm_val dotEnc 2048 rfl rfl k
  have el : dotEnc.lhsIdx (ix2 r d) ((contrEquiv1 dotEnc 2048 rfl rfl).symm k) = ix2 r k := funext fun a => Fin.ext (by
    match a with
    | ⟨0, _⟩ => exact d1_lhs_0 _ _
    | ⟨1, _⟩ => exact (d1_lhs_1 _ _).trans hk)
  have er : dotEnc.rhsIdx (ix2 r d) ((contrEquiv1 dotEnc 2048 rfl rfl).symm k) = ix2 k d := funext fun a => Fin.ext (by
    match a with
    | ⟨0, _⟩ => exact (d1_rhs_0 _ _).trans hk
    | ⟨1, _⟩ => exact d1_rhs_1 _ _)
  rw [el, er]
  rfl

/-! The second product contracts the rows of BOTH blocks: class k of the left against column d of the right. -/
theorem d2_lhs_0 (j : S50x512.Idx) (q : dotSum.contr.Idx) : (dotSum.lhsIdx j q 0).val = (q ⟨0, by decide⟩).val :=
  dotSum.lhsIdx_val_of_single rfl j q
theorem d2_lhs_1 (j : S50x512.Idx) (q : dotSum.contr.Idx) : (dotSum.lhsIdx j q 1).val = (j 0).val := by
  unfold DotDims.lhsIdx
  rw [dif_neg (show ¬(1 : Fin S1024x50.rank) ∈ dotSum.lhsBatch by decide), dif_pos (show (1 : Fin S1024x50.rank) ∈ dotSum.lhsNonContracting by decide)]
  rfl
theorem d2_rhs_0 (j : S50x512.Idx) (q : dotSum.contr.Idx) : (dotSum.rhsIdx j q 0).val = (q ⟨0, by decide⟩).val :=
  dotSum.rhsIdx_val_of_single rfl j q
theorem d2_rhs_1 (j : S50x512.Idx) (q : dotSum.contr.Idx) : (dotSum.rhsIdx j q 1).val = (j 1).val := by
  unfold DotDims.rhsIdx
  rw [dif_neg (show ¬(1 : Fin S1024x512.rank) ∈ dotSum.rhsBatch by decide), dif_pos (show (1 : Fin S1024x512.rank) ∈ dotSum.rhsNonContracting by decide)]
  rfl

/-- The transposed product into the zero constant, at class k and column d: the sum over the block's rows. -/
theorem d2_matmul_apply (x1 : FVec Ideal S1024x50 .f32) (E : FVec Ideal S1024x512 .f32) (k : Fin 50) (d : Fin 512) :
    FloatOps.matmul (F := Ideal) dotSum (some .fp32) x1 E (constant S50x512 .f32 0x00000000#32) (ix2 k d)
      = ∑ r : Fin 1024, x1 (ix2 r k) * E (ix2 r d) := by
  rw [Ideal.matmul_constant_zero_apply, ← Equiv.sum_comp (contrEquiv1 dotSum 1024 rfl rfl).symm]
  refine Finset.sum_congr rfl fun r _ => ?_
  have hr := contrEquiv1_symm_val dotSum 1024 rfl rfl r
  have el : dotSum.lhsIdx (ix2 k d) ((contrEquiv1 dotSum 1024 rfl rfl).symm r) = ix2 r k := funext fun a => Fin.ext (by
    match a with
    | ⟨0, _⟩ => exact (d2_lhs_0 _ _).trans hr
    | ⟨1, _⟩ => exact d2_lhs_1 _ _)
  have er : dotSum.rhsIdx (ix2 k d) ((contrEquiv1 dotSum 1024 rfl rfl).symm r) = ix2 r d := funext fun a => Fin.ext (by
    match a with
    | ⟨0, _⟩ => exact (d2_rhs_0 _ _).trans hr
    | ⟨1, _⟩ => exact d2_rhs_1 _ _)
  rw [el, er]

/-- Dropping the unit axis of (a, k, d) leaves (k, d); putting it back in front of (k, d) gives (a, k, d). -/
theorem tail_ix3 (a : Fin 1) (k : Fin 50) (d : Fin 512) :
    (fun b : Fin 2 => (ix3 a k d : S1x50x512.Idx) b.succ) = (ix2 k d : S50x512.Idx) :=
  funext fun b => match b with | ⟨0, _⟩ => rfl | ⟨1, _⟩ => rfl
theorem cons_ix2 (a : Fin 1) (k : Fin 50) (d : Fin 512) :
    (Fin.cons ⟨0, Nat.one_pos⟩ (ix2 k d : S50x512.Idx) : S1x50x512.Idx) = ix3 a k d := by
  obtain rfl : a = ⟨0, Nat.one_pos⟩ := Subsingleton.elim _ _
  exact funext fun b => match b with | ⟨0, _⟩ => rfl | ⟨1, _⟩ => rfl | ⟨2, _⟩ => rfl

/-- The class sums' payload over ANY latents E and running contents v: v plus the block's one-hot columns against E. -/
theorem pay3_gen (x1 : FVec Ideal S1024x50 .f32) (E : FVec Ideal S1024x512 .f32) (v : FVec Ideal S1x50x512 .f32)
    (a : Fin 1) (k : Fin 50) (d : Fin 512) :
    shapeCast S1x50x512 (addf (shapeCast S50x512 v shapeCasts_S1x50x512_S50x512)
      (matmul dotSum (some .fp32) x1 E (constant S50x512 .f32 0x00000000#32))) shapeCasts_S50x512_S1x50x512 (ix3 a k d)
      = v (ix3 a k d) + ∑ r : Fin 1024, x1 (ix2 r k) * E (ix2 r d) := by
  refine (shapeCast_addUnit_apply ![50, 512] _ shapeCasts_S50x512_S1x50x512 (ix3 a k d)).trans ?_
  rw [tail_ix3, addf_apply]
  refine congrArg₂ (· + ·) ?_ (d2_matmul_apply x1 E k d)
  refine (shapeCast_dropUnit_apply ![50, 512] v shapeCasts_S1x50x512_S50x512 (ix2 k d)).trans ?_
  rw [cons_ix2 a]

theorem k0_pay3_apply (x0 : Vec Ideal S1024x2048 .f32) (x1 : Vec Ideal S1024x50 .f32) (x2 : Vec Ideal S2048x512 .bf16) (x3 : Vec Ideal S1x512 .f32)
    (v : Vec Ideal S1x50x512 .f32) (a : Fin 1) (k : Fin 50) (d : Fin 512) :
    k0_pay3 x0 x2 x3 x1 v (ix3 a k d) = v (ix3 a k d) + sumB x0 x1 x2 x3 k d := by
  unfold k0_pay3 sumB
  simp only [shapeCast_self]
  refine (pay3_gen x1 (k0_pay2 x0 x2 x3) v a k d).trans ?_
  simp only [k0_pay2_apply]

/-- The block the reset stores is zero everywhere. -/
theorem k0_pay1_apply (j : S1x50x512.Idx) : k0_pay1 (F := Ideal) j = 0 := by
  unfold k0_pay1
  show Ideal.ofBits .f32 0x00000000#32 = 0
  exact Ideal.ofBits_zero_f32

/-! ## What the stores leave: each output's last covering store, its loads reading whole buffers -/

/-- All-zero offsets, of rank 2 and of rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x50 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x50x512 .f32) (harg7 : arg7.IsWhole)

/-- The latents' buffer after a core's first point: the one store's payload over the input blocks. -/
theorem pay_A_4 (hc0 : cond0_0 i) (x0 : Vec Ideal S1024x2048 .f32) (x1 : Vec Ideal S1024x50 .f32) (x2 : Vec Ideal S2048x512 .bf16) (x3 : Vec Ideal S1x512 .f32) :
    out0_A_4 (F := Ideal) c i arg2 harg2 arg3 harg3 arg4 harg4 arg5 harg5 arg6 harg6 arg7 harg7 hc0 x0 x1 x2 x3 = k0_pay2 x0 x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  rw [View.canon_unit_zero (S := S1024x512) hz2]
  simp only [View.readAt_eq_ld, harg2.read_unread, harg4.read_unread, harg5.read_unread, View.ld_unit_zero (S := S1024x2048) hz2, View.ld_unit_zero (S := S2048x512) hz2, View.ld_unit_zero (S := S1x512) hz2]

/-- The same at every other point. -/
theorem pay_B_4 (hc0 : ¬cond0_0 i) (x0 : Vec Ideal S1024x2048 .f32) (x1 : Vec Ideal S1024x50 .f32) (x2 : Vec Ideal S2048x512 .bf16) (x3 : Vec Ideal S1x512 .f32) (xo5 : Vec Ideal S1x50x512 .f32) :
    out0_B_4 (F := Ideal) c i arg2 harg2 arg3 harg3 arg4 harg4 arg5 harg5 arg6 harg6 arg7 harg7 hc0 x0 x1 x2 x3 xo5 = k0_pay2 x0 x2 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  rw [View.canon_unit_zero (S := S1024x512) hz2]
  simp only [View.readAt_eq_ld, harg2.read_unread, harg4.read_unread, harg5.read_unread, View.ld_unit_zero (S := S1024x2048) hz2, View.ld_unit_zero (S := S2048x512) hz2, View.ld_unit_zero (S := S1x512) hz2]

/-- The class sums' buffer after a core's first point: the zero block is stored, read back, and the second store's
    payload over it covers the buffer. -/
theorem pay_A_5 (hc0 : cond0_0 i) (x0 : Vec Ideal S1024x2048 .f32) (x1 : Vec Ideal S1024x50 .f32) (x2 : Vec Ideal S2048x512 .bf16) (x3 : Vec Ideal S1x512 .f32) :
    out0_A_5 (F := Ideal) c i arg2 harg2 arg3 harg3 arg4 harg4 arg5 harg5 arg6 harg6 arg7 harg7 hc0 x0 x1 x2 x3 = k0_pay3 x0 x2 x3 x1 (k0_pay1 (F := Ideal)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x50x512) hz3, View.readCov_unit_zero (S := S1x50x512) _ hz3]
  simp only [View.readAt_eq_ld, harg2.read_unread, harg3.read_unread, harg4.read_unread, harg5.read_unread, View.ld_unit_zero (S := S1024x2048) hz2, View.ld_unit_zero (S := S2048x512) hz2, View.ld_unit_zero (S := S1x512) hz2, View.ld_unit_zero (S := S1024x50) hz2]

/-- At every other point the one store's payload is over the buffer's running contents. -/
theorem pay_B_5 (hc0 : ¬cond0_0 i) (x0 : Vec Ideal S1024x2048 .f32) (x1 : Vec Ideal S1024x50 .f32) (x2 : Vec Ideal S2048x512 .bf16) (x3 : Vec Ideal S1x512 .f32) (xo5 : Vec Ideal S1x50x512 .f32) :
    out0_B_5 (F := Ideal) c i arg2 harg2 arg3 harg3 arg4 harg4 arg5 harg5 arg6 harg6 arg7 harg7 hc0 x0 x1 x2 x3 xo5 = k0_pay3 x0 x2 x3 x1 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  rw [View.canon_unit_zero (S := S1x50x512) hz3]
  simp only [View.readAt_eq_ld, harg2.read_unread, harg3.read_unread, harg4.read_unread, harg5.read_unread, harg7.read_unread, View.ld_unit_zero (S := S1024x2048) hz2, View.ld_unit_zero (S := S2048x512) hz2, View.ld_unit_zero (S := S1x512) hz2, View.ld_unit_zero (S := S1024x50) hz2, View.ld_unit_zero (S := S1x50x512) hz3]

end

end Body0

open Body0

/-! ## The four facts -/

section
variable (c : Dev nD) (i : grid0.Coords) (arg2 : Memref sig .tc .vmem S1024x2048 .f32) (harg2 : arg2.IsWhole) (arg3 : Memref sig .tc .vmem S1024x50 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x50x512 .f32) (harg7 : arg7.IsWhole)

theorem out0_A_4_eq (hc0 : cond0_0 i) (x0 : Vec Ideal S1024x2048 .f32) (x1 : Vec Ideal S1024x50 .f32) (x2 : Vec Ideal S2048x512 .bf16) (x3 : Vec Ideal S1x512 .f32) :
    out0_A_4 (F := Ideal) c i arg2 harg2 arg3 harg3 arg4 harg4 arg5 harg5 arg6 harg6 arg7 harg7 hc0 x0 x1 x2 x3 = fun j => encB x0 x2 x3 (j 0) (j 1) := by
  rw [pay_A_4]
  funext j
  obtain ⟨r, d, rfl⟩ : ∃ r d, j = ix2 r d := ⟨j 0, j 1, eq_ix2 j⟩
  exact k0_pay2_apply x0 x2 x3 r d

theorem out0_B_4_eq (hc0 : ¬cond0_0 i) (x0 : Vec Ideal S1024x2048 .f32) (x1 : Vec Ideal S1024x50 .f32) (x2 : Vec Ideal S2048x512 .bf16) (x3 : Vec Ideal S1x512 .f32) (xo5 : Vec Ideal S1x50x512 .f32) :
    out0_B_4 (F := Ideal) c i arg2 harg2 arg3 harg3 arg4 harg4 arg5 harg5 arg6 harg6 arg7 harg7 hc0 x0 x1 x2 x3 xo5 = fun j => encB x0 x2 x3 (j 0) (j 1) := by
  rw [pay_B_4]
  funext j
  obtain ⟨r, d, rfl⟩ : ∃ r d, j = ix2 r d := ⟨j 0, j 1, eq_ix2 j⟩
  exact k0_pay2_apply x0 x2 x3 r d

theorem out0_A_5_eq (hc0 : cond0_0 i) (x0 : Vec Ideal S1024x2048 .f32) (x1 : Vec Ideal S1024x50 .f32) (x2 : Vec Ideal S2048x512 .bf16) (x3 : Vec Ideal S1x512 .f32) :
    out0_A_5 (F := Ideal) c i arg2 harg2 arg3 harg3 arg4 harg4 arg5 harg5 arg6 harg6 arg7 harg7 hc0 x0 x1 x2 x3 = fun j => sumB x0 x1 x2 x3 (j 1) (j 2) := by
  rw [pay_A_5]
  funext j
  obtain ⟨a, k, d, rfl⟩ : ∃ a k d, j = ix3 a k d := ⟨j 0, j 1, j 2, eq_ix3 j⟩
  refine (k0_pay3_apply x0 x1 x2 x3 (k0_pay1 (F := Ideal)) a k d).trans ?_
  rw [k0_pay1_apply, zero_add]

theorem out0_B_5_eq (hc0 : ¬cond0_0 i) (x0 : Vec Ideal S1024x2048 .f32) (x1 : Vec Ideal S1024x50 .f32) (x2 : Vec Ideal S2048x512 .bf16) (x3 : Vec Ideal S1x512 .f32) (xo5 : Vec Ideal S1x50x512 .f32) :
    out0_B_5 (F := Ideal) c i arg2 harg2 arg3 harg3 arg4 harg4 arg5 harg5 arg6 harg6 arg7 harg7 hc0 x0 x1 x2 x3 xo5 = fun j => xo5 j + sumB x0 x1 x2 x3 (j 1) (j 2) := by
  rw [pay_B_5]
  funext j
  obtain ⟨a, k, d, rfl⟩ : ∃ a k d, j = ix3 a k d := ⟨j 0, j 1, j 2, eq_ix3 j⟩
  exact k0_pay3_apply x0 x1 x2 x3 xo5 a k d

end

end Cert.KernelIdeal.KV

end
-- ==== Proof.KHostA.lean ====
/-
  The host operations before the first region, read as values: when that region is entered the buffers it and the second
  region read hold — the arguments as launched; the one-hot rows of the class numbers (a compare against an iota, widened);
  the log of the clipped, normalised targets; the encoder's bias as one row and its weight (a change of format is the
  identity over the extended reals); decoder and classifier weights, and their biases, side by side with the classifier's
  50 columns padded by zeros to 128.
-/
import proofs.«423489_j79242146611896_3_alg».proof.Proof.KDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-! ## Reading the operations at an index -/

/-- A column broadcast across the columns: a vector as one column, then that column repeated. -/
private theorem bcast_col_apply {α : Type} (h1 : (⟨1, ![16384]⟩ : Shape).BroadcastsInDim ⟨2, ![16384, 1]⟩ ![0])
    (h2 : (⟨2, ![16384, 1]⟩ : Shape).BroadcastsInDim ⟨2, ![16384, 50]⟩ ![0, 1]) (x : (⟨1, ![16384]⟩ : Shape).Idx → α)
    (n : Fin 16384) (k : Fin 50) :
    broadcastInDim ⟨2, ![16384, 50]⟩ ![0, 1] h2 (broadcastInDim ⟨2, ![16384, 1]⟩ ![0] h1 x) (ix2 n k) = x (ix1 n) := by
  refine (broadcastInDim_apply ![0, 1] h2 _ (ix2 n k) (ix2 n (0 : Fin 1)) ?_).trans
    (broadcastInDim_apply ![0] h1 x (ix2 n (0 : Fin 1)) (ix1 n) ?_)
  · intro a
    fin_cases a
    · show n.val = if (16384 : ℕ) = 1 then 0 else n.val
      rw [if_neg (by decide)]
    · show (0 : ℕ) = if (1 : ℕ) = 1 then 0 else _
      rw [if_pos rfl]
  · intro a
    fin_cases a
    show n.val = if (16384 : ℕ) = 1 then 0 else n.val
    rw [if_neg (by decide)]

/-- A row broadcast down the rows. -/
private theorem bcast_row_apply {α : Type} (h : (⟨2, ![1, 50]⟩ : Shape).BroadcastsInDim ⟨2, ![16384, 50]⟩ ![0, 1])
    (y : (⟨2, ![1, 50]⟩ : Shape).Idx → α) (n : Fin 16384) (k : Fin 50) :
    broadcastInDim ⟨2, ![16384, 50]⟩ ![0, 1] h y (ix2 n k) = y (ix2 (0 : Fin 1) k) := by
  refine broadcastInDim_apply ![0, 1] h y (ix2 n k) (ix2 (0 : Fin 1) k) ?_
  intro a
  fin_cases a
  · show (0 : ℕ) = if (1 : ℕ) = 1 then 0 else _
    rw [if_pos rfl]
  · show k.val = if (50 : ℕ) = 1 then 0 else k.val
    rw [if_neg (by decide)]

/-- The 1-bit word of an equality test, widened: one where the words agree, zero where they differ. -/
private theorem uitofp_cmpi_eq (a b : BitVec 32) :
    (FloatOps.uitofp (F := Ideal) .f32 (IntOp.cmpi .eq a b) : EReal) = if a = b then 1 else 0 := by
  show (((BitVec.ofBool (a == b)).toNat : ℝ) : EReal) = _
  by_cases h : a = b
  · rw [if_pos h, h]; simp
  · rw [if_neg h]
    have : (a == b) = false := by simpa using h
    rw [this]; simp

/-- Two rank-2 arrays that agree at every pair of coordinates are equal. -/
private theorem funext_ix2 {n0 n1 : ℕ} {α : Type} {f g : (⟨2, ![n0, n1]⟩ : Shape).Idx → α}
    (h : ∀ (a : Fin n0) (b : Fin n1), f (ix2 a b) = g (ix2 a b)) : f = g :=
  funext fun j => by rw [eq_ix2 j]; exact h _ _

/-- The widened compare of the labels' column against the iota's row, at (n, k): one exactly where row n is of class k. -/
private theorem oh_point (lab : (⟨1, ![16384]⟩ : Shape).Idx → BitVec 32)
    (h1 : (⟨1, ![16384]⟩ : Shape).BroadcastsInDim ⟨2, ![16384, 1]⟩ ![0])
    (h2 : (⟨2, ![16384, 1]⟩ : Shape).BroadcastsInDim ⟨2, ![16384, 50]⟩ ![0, 1])
    (h3 : (⟨2, ![1, 50]⟩ : Shape).BroadcastsInDim ⟨2, ![16384, 50]⟩ ![0, 1]) (n : Fin 16384) (k : Fin 50) :
    (uitofp (F := Ideal) .f32 (cmpi .eq
        (broadcastInDim ⟨2, ![16384, 50]⟩ ![0, 1] h2 (broadcastInDim ⟨2, ![16384, 1]⟩ ![0] h1 lab))
        (broadcastInDim ⟨2, ![16384, 50]⟩ ![0, 1] h3 (iotaInDim ⟨2, ![1, 50]⟩ 32 1))) : FVec Ideal ⟨2, ![16384, 50]⟩ .f32) (ix2 n k)
      = Spec.oh lab n k := by
  show (FloatOps.uitofp (F := Ideal) .f32 (IntOp.cmpi .eq
      (broadcastInDim ⟨2, ![16384, 50]⟩ ![0, 1] h2 (broadcastInDim ⟨2, ![16384, 1]⟩ ![0] h1 lab) (ix2 n k))
      (broadcastInDim ⟨2, ![16384, 50]⟩ ![0, 1] h3 (iotaInDim ⟨2, ![1, 50]⟩ 32 1) (ix2 n k))) : EReal) = _
  rw [bcast_col_apply, bcast_row_apply, uitofp_cmpi_eq]
  rfl

/-- The host's sum along the columns of a [16384, 50] array, at row n. -/
private theorem rowsum_apply (x : (⟨2, ![16384, 50]⟩ : Shape).Idx → EReal) (init : EReal)
    (h' : (⟨2, ![16384, 50]⟩ : Shape).ReducesTo [1] ⟨1, ![16384]⟩) (n : Fin 16384) :
    Ideal.hostReduceAdd h' x init (ix1 n) = init + ∑ k : Fin 50, x (ix2 n k) := by
  have h : (⟨2, ![16384, 50]⟩ : Shape).Reduces [1] ⟨1, ![16384]⟩ := by decide
  rw [Ideal.hostReduceAdd_single h' h]
  show init + ∑ k : Fin 50, x (h.lift (ix1 n) k) = _
  congr 1
  refine Finset.sum_congr rfl fun k _ => congrArg x ?_
  funext a
  fin_cases a <;> rfl

private theorem hostLog_apply {s : Shape} {φ : FTy} (x : FVec Ideal s φ) (i : s.Idx) : Host.log x i = Ideal.log (x i) := rfl

/-- The log of the clipped quotient by the row sum, at (n, k). -/
private theorem ly_point (cl : (⟨2, ![16384, 50]⟩ : Shape).Idx → EReal)
    (h1 : (⟨1, ![16384]⟩ : Shape).BroadcastsInDim ⟨2, ![16384, 1]⟩ ![0])
    (h2 : (⟨2, ![16384, 1]⟩ : Shape).BroadcastsInDim ⟨2, ![16384, 50]⟩ ![0, 1])
    (hs : (⟨0, ![]⟩ : Shape).BroadcastsInDim ⟨2, ![16384, 50]⟩ ![])
    (hr : (⟨2, ![16384, 50]⟩ : Shape).ReducesTo [1] ⟨1, ![16384]⟩) (hu : 0 < (⟨0, ![]⟩ : Shape).numel)
    (n : Fin 16384) (k : Fin 50) :
    (Host.log (minimumf
        (broadcastInDim ⟨2, ![16384, 50]⟩ ![] hs (constant (F := Ideal) ⟨0, ![]⟩ .f32 0x3F7FFFFE#32))
        (maximumf (broadcastInDim ⟨2, ![16384, 50]⟩ ![] hs (constant (F := Ideal) ⟨0, ![]⟩ .f32 0x33D6BF95#32))
          (Host.divf cl (broadcastInDim ⟨2, ![16384, 50]⟩ ![0, 1] h2 (broadcastInDim ⟨2, ![16384, 1]⟩ ![0] h1
            (Host.reduceAdd cl (constant (F := Ideal) ⟨0, ![]⟩ .f32 0x00000000#32) hr hu)))))) : FVec Ideal ⟨2, ![16384, 50]⟩ .f32) (ix2 n k)
      = Spec.ly cl n k := by
  rw [hostLog_apply, minimumf_apply, maximumf_apply, hostDivf_apply, broadcastInDim_scalar_apply, broadcastInDim_scalar_apply,
    bcast_col_apply, hostReduceAdd_apply, rowsum_apply, constant_apply, constant_apply, constant_apply, Ideal.ofBits_zero_f32]
  rfl

/-! ### A scatter that overwrites, read at an index -/

/-- A fold whose step at `n` either leaves the array or overwrites the one index `g n` names with `v n`: an index no
    step names keeps its first value. -/
private theorem foldl_set_of_not_hit {ι β α : Type} (g : ι → Option β) (v : ι → α) (step : (β → α) → ι → (β → α))
    (hnone : ∀ r n, g n = none → step r n = r)
    (hne : ∀ r n i i', g n = some i → i' ≠ i → step r n i' = r i')
    (i' : β) : ∀ (l : List ι) (x : β → α), (∀ n ∈ l, g n ≠ some i') → l.foldl step x i' = x i'
  | [], _, _ => rfl
  | n :: l, x, h => by
    rw [List.foldl_cons, foldl_set_of_not_hit g v step hnone hne i' l _ fun k hk => h k (List.mem_cons_of_mem _ hk)]
    cases hg : g n with
    | none => rw [hnone _ _ hg]
    | some i => exact hne _ _ _ _ hg fun e => h n List.mem_cons_self (by rw [hg, e])

/-- … and an index exactly one step of the list names ends at that step's value. -/
private theorem foldl_set_of_hit {ι β α : Type} (g : ι → Option β) (v : ι → α) (step : (β → α) → ι → (β → α))
    (hnone : ∀ r n, g n = none → step r n = r)
    (hne : ∀ r n i i', g n = some i → i' ≠ i → step r n i' = r i')
    (heq : ∀ r n i, g n = some i → step r n i = v n)
    (i' : β) (n₀ : ι) (h₀ : g n₀ = some i') :
    ∀ (l : List ι) (x : β → α), l.Nodup → n₀ ∈ l → (∀ n ∈ l, g n = some i' → n = n₀) → l.foldl step x i' = v n₀
  | [], _, _, hm, _ => absurd hm List.not_mem_nil
  | n :: l, x, hnd, hm, hu => by
    rw [List.foldl_cons]
    rcases List.mem_cons.mp hm with e | hm'
    · subst e
      have hnot : ∀ k ∈ l, g k ≠ some i' := fun k hk hgk => by
        have e' := hu k (List.mem_cons_of_mem _ hk) hgk
        subst e'
        exact (List.nodup_cons.mp hnd).1 hk
      rw [foldl_set_of_not_hit g v step hnone hne i' l _ hnot]
      exact heq _ _ _ h₀
    · exact foldl_set_of_hit g v step hnone hne heq i' n₀ h₀ l _ (List.nodup_cons.mp hnd).2 hm'
        fun k hk => hu k (List.mem_cons_of_mem _ hk)

section Scatter
variable {s si u : Shape} {w : ℕ} {α : Type} (d : ScatterDims s si u) (x : s.Idx → α) (idx : IVec si w) (upd : u.Idx → α)

/-- An overwriting scatter at an index no update lands on: the operand's element. -/
private theorem scatter_set_of_not_hit (i' : s.Idx) (h : ∀ j, d.resultIdx? j idx ≠ some i') :
    Host.scatter d (fun _ b => b) x idx upd i' = x i' := by
  unfold Host.scatter
  refine foldl_set_of_not_hit (fun n => d.resultIdx? (u.rowMajor.symm n) idx) (fun n => upd (u.rowMajor.symm n)) _
    ?_ ?_ i' _ x fun n _ => h _
  · intro r n hg
    simp only [hg]
  · intro r n i i'' hg hne
    simp only [hg]
    exact if_neg hne

/-- An overwriting scatter at the index exactly one update lands on: that update's element. -/
private theorem scatter_set_of_hit (i' : s.Idx) (j₀ : u.Idx) (h₀ : d.resultIdx? j₀ idx = some i')
    (hu : ∀ j, d.resultIdx? j idx = some i' → j = j₀) :
    Host.scatter d (fun _ b => b) x idx upd i' = upd j₀ := by
  unfold Host.scatter
  refine (foldl_set_of_hit (fun n => d.resultIdx? (u.rowMajor.symm n) idx) (fun n => upd (u.rowMajor.symm n)) _
    ?_ ?_ ?_ i' (u.rowMajor j₀) (by simp only [Equiv.symm_apply_apply]; exact h₀) (List.finRange u.numel) x
    (List.nodup_finRange _) (List.mem_finRange _) (fun n _ hn => by
      have := hu _ hn
      rw [← this, Equiv.apply_symm_apply])).trans ?_
  · intro r n hg
    simp only [hg]
  · intro r n i i'' hg hne
    simp only [hg]
    exact if_neg hne
  · intro r n i hg
    simp only [hg]
    first | exact if_pos rfl | exact if_pos trivial | rfl
  · rw [Equiv.symm_apply_apply]

/-- Where an update lands, from the start and window coordinates on every axis. -/
private theorem resultIdx?_eq_some (j : u.Idx) (i : s.Idx)
    (h : ∀ a, d.start j idx a + (d.window j a : ℤ) = ((i a).val : ℤ)) : d.resultIdx? j idx = some i := by
  unfold ScatterDims.resultIdx?
  have hb : ∀ a, 0 ≤ d.start j idx a + (d.window j a : ℤ) ∧ d.start j idx a + (d.window j a : ℤ) < s.size a := fun a => by
    rw [h a]; exact ⟨Int.natCast_nonneg _, by exact_mod_cast (i a).isLt⟩
  rw [dif_pos hb]
  congr 1
  funext a
  apply Fin.ext
  show (d.start j idx a + (d.window j a : ℤ)).toNat = (i a).val
  rw [h a, Int.toNat_natCast]

/-- With every scatter index the zero word every window starts at the origin. -/
private theorem start_of_zero (j : u.Idx) (hidx : ∀ k, idx k = 0#w) (a : Fin s.rank) : d.start j idx a = 0 := by
  unfold ScatterDims.start
  split
  · rw [hidx]; exact BitVec.toInt_zero
  · rfl

end Scatter

/-- A [512, 50] array written over the first 50 columns of a [512, 128] array, every scatter index the zero word. -/
private theorem pad_cols_apply (z : (⟨2, ![512, 128]⟩ : Shape).Idx → EReal) (idx : IVec ⟨1, ![1]⟩ 32)
    (hidx : ∀ k, idx k = 0#32) (upd : (⟨2, ![512, 50]⟩ : Shape).Idx → EReal) (r : Fin 512) (q : Fin 128) :
    Host.scatter scatter_S512x128_S1_S512x50_01_n_1_0 (fun _ b => b) z idx upd (ix2 r q)
      = if h : q.val < 50 then upd (ix2 r ⟨q.val, h⟩) else z (ix2 r q) := by
  have hres : ∀ j : (⟨2, ![512, 50]⟩ : Shape).Idx, scatter_S512x128_S1_S512x50_01_n_1_0.resultIdx? j idx
      = some (ix2 (j 0) ⟨(j 1).val, Nat.lt_trans (show (j 1).val < 50 from (j 1).isLt) (by decide)⟩) := fun j =>
    resultIdx?_eq_some _ idx j _ fun a => by
      rw [start_of_zero _ idx j hidx a, zero_add]
      fin_cases a <;> rfl
  by_cases h : q.val < 50
  · rw [dif_pos h]
    refine scatter_set_of_hit _ z idx upd (ix2 r q) (ix2 r ⟨q.val, h⟩) ((hres _).trans (congrArg some ?_)) fun j hj => ?_
    · funext a
      fin_cases a <;> rfl
    · have e := Option.some.inj ((hres j).symm.trans hj)
      have e0 := congrFun e 0
      have e1 := congrArg Fin.val (congrFun e 1)
      funext a
      fin_cases a
      · exact e0
      · exact Fin.ext e1
  · rw [dif_neg h]
    refine scatter_set_of_not_hit _ z idx upd (ix2 r q) fun j hj => h ?_
    have e := Option.some.inj ((hres j).symm.trans hj)
    have e1 : (j 1).val = q.val := congrArg Fin.val (congrFun e 1)
    have h1 : (j 1).val < 50 := (j 1).isLt
    omega

/-- A [50] vector written over the first 50 entries of a [128] vector, every scatter index the zero word. -/
private theorem pad_vec_apply (z : (⟨1, ![128]⟩ : Shape).Idx → EReal) (idx : IVec ⟨1, ![1]⟩ 32)
    (hidx : ∀ k, idx k = 0#32) (upd : (⟨1, ![50]⟩ : Shape).Idx → EReal) (q : Fin 128) :
    Host.scatter scatter_S128_S1_S50_0_n_0_0 (fun _ b => b) z idx upd (ix1 q)
      = if h : q.val < 50 then upd (ix1 ⟨q.val, h⟩) else z (ix1 q) := by
  have hres : ∀ j : (⟨1, ![50]⟩ : Shape).Idx, scatter_S128_S1_S50_0_n_0_0.resultIdx? j idx
      = some (ix1 ⟨(j 0).val, Nat.lt_trans (show (j 0).val < 50 from (j 0).isLt) (by decide)⟩) := fun j =>
    resultIdx?_eq_some _ idx j _ fun a => by
      rw [start_of_zero _ idx j hidx a, zero_add]
      fin_cases a; rfl
  by_cases h : q.val < 50
  · rw [dif_pos h]
    refine scatter_set_of_hit _ z idx upd (ix1 q) (ix1 ⟨q.val, h⟩) ((hres _).trans (congrArg some ?_)) fun j hj => ?_
    · funext a
      fin_cases a; rfl
    · have e := Option.some.inj ((hres j).symm.trans hj)
      have e0 := congrArg Fin.val (congrFun e 0)
      funext a
      fin_cases a
      exact Fin.ext e0
  · rw [dif_neg h]
    refine scatter_set_of_not_hit _ z idx upd (ix1 q) fun j hj => h ?_
    have e := Option.some.inj ((hres j).symm.trans hj)
    have e0 : (j 0).val = q.val := congrArg Fin.val (congrFun e 0)
    have h1 : (j 0).val < 50 := (j 0).isLt
    omega

/-- Two arrays side by side along the columns, at (r, t): the first below its width, the second past it. -/
private theorem concat_cols_apply {α : Type} (x₁ : (⟨2, ![512, 2048]⟩ : Shape).Idx → α) (x₂ : (⟨2, ![512, 128]⟩ : Shape).Idx → α)
    (hc : Shape.Concatenates [(⟨2, ![512, 2048]⟩ : Shape), ⟨2, ![512, 128]⟩] ⟨2, ![512, 2176]⟩ 1) (r : Fin 512) (t : Fin 2176) :
    concatenate ⟨2, ![512, 2176]⟩ 1 [⟨⟨2, ![512, 2048]⟩, x₁⟩, ⟨⟨2, ![512, 128]⟩, x₂⟩] hc (ix2 r t)
      = if h : t.val < 2048 then x₁ (ix2 r ⟨t.val, h⟩) else x₂ (ix2 r ⟨t.val - 2048, by have := t.isLt; omega⟩) := by
  by_cases h : t.val < 2048
  · rw [dif_pos h]
    refine concatenate_pair_apply_left (1 : Fin 2) x₁ x₂ hc (ix2 r t) rfl (ix2 r ⟨t.val, h⟩) fun b => ?_
    fin_cases b <;> rfl
  · rw [dif_neg h]
    refine concatenate_pair_apply_right (1 : Fin 2) x₁ x₂ hc (ix2 r t) rfl rfl (ix2 r ⟨t.val - 2048, by have := t.isLt; omega⟩)
      (fun b hb => ?_) ?_
    · fin_cases b
      · rfl
      · exact absurd rfl hb
    · show (t.val - 2048) + 2048 = t.val
      omega

/-- Two vectors end to end, at t. -/
private theorem concat_vec_apply {α : Type} (x₁ : (⟨1, ![2048]⟩ : Shape).Idx → α) (x₂ : (⟨1, ![128]⟩ : Shape).Idx → α)
    (hc : Shape.Concatenates [(⟨1, ![2048]⟩ : Shape), ⟨1, ![128]⟩] ⟨1, ![2176]⟩ 0) (t : Fin 2176) :
    concatenate ⟨1, ![2176]⟩ 0 [⟨⟨1, ![2048]⟩, x₁⟩, ⟨⟨1, ![128]⟩, x₂⟩] hc (ix1 t)
      = if h : t.val < 2048 then x₁ (ix1 ⟨t.val, h⟩) else x₂ (ix1 ⟨t.val - 2048, by have := t.isLt; omega⟩) := by
  by_cases h : t.val < 2048
  · rw [dif_pos h]
    refine concatenate_pair_apply_left (0 : Fin 1) x₁ x₂ hc (ix1 t) rfl (ix1 ⟨t.val, h⟩) fun b => ?_
    fin_cases b; rfl
  · rw [dif_neg h]
    refine concatenate_pair_apply_right (0 : Fin 1) x₁ x₂ hc (ix1 t) rfl rfl (ix1 ⟨t.val - 2048, by have := t.isLt; omega⟩)
      (fun b hb => ?_) ?_
    · fin_cases b
      exact absurd rfl hb
    · show (t.val - 2048) + 2048 = t.val
      omega

/-- The scatter indices of a padding: the zero word broadcast. -/
private theorem zero_idx (h : (⟨0, ![]⟩ : Shape).BroadcastsInDim ⟨1, ![1]⟩ ![]) (k : (⟨1, ![1]⟩ : Shape).Idx) :
    broadcastInDim ⟨1, ![1]⟩ ![] h (constantI ⟨0, ![]⟩ 32 0#32) k = 0#32 :=
  broadcastInDim_scalar_apply h _ k

/-- The padded weights at (r, t). -/
private theorem wf_point (wd : (⟨2, ![512, 2048]⟩ : Shape).Idx → EReal) (wc : (⟨2, ![512, 50]⟩ : Shape).Idx → EReal)
    (hz : (⟨0, ![]⟩ : Shape).BroadcastsInDim ⟨2, ![512, 128]⟩ ![]) (h1 : (⟨0, ![]⟩ : Shape).BroadcastsInDim ⟨1, ![1]⟩ ![])
    (hc : Shape.Concatenates [(⟨2, ![512, 2048]⟩ : Shape), ⟨2, ![512, 128]⟩] ⟨2, ![512, 2176]⟩ 1)
    (hlt : FTy.bits .bf16 < FTy.bits .f32) (r : Fin 512) (t : Fin 2176) :
    (truncf .bf16 (concatenate ⟨2, ![512, 2176]⟩ 1 [⟨⟨2, ![512, 2048]⟩, wd⟩, ⟨⟨2, ![512, 128]⟩,
      Host.scatter scatter_S512x128_S1_S512x50_01_n_1_0 (fun _ b => b)
        (broadcastInDim ⟨2, ![512, 128]⟩ ![] hz (constant (F := Ideal) ⟨0, ![]⟩ .f32 0x00000000#32))
        (broadcastInDim ⟨1, ![1]⟩ ![] h1 (constantI ⟨0, ![]⟩ 32 0#32)) wc⟩] hc) hlt : FVec Ideal ⟨2, ![512, 2176]⟩ .bf16) (ix2 r t)
      = ((if h : t.val < 2048 then wd (ix2 r ⟨t.val, h⟩)
          else if h' : t.val - 2048 < 50 then wc (ix2 r ⟨t.val - 2048, h'⟩) else 0) : EReal) := by
  rw [truncf_apply, concat_cols_apply]
  by_cases h : t.val < 2048
  · rw [dif_pos h, dif_pos h]
  · rw [dif_neg h, dif_neg h, pad_cols_apply _ _ (zero_idx h1)]
    by_cases h' : t.val - 2048 < 50
    · rw [dif_pos h', dif_pos h']
    · rw [dif_neg h', dif_neg h', broadcastInDim_scalar_apply, constant_apply, Ideal.ofBits_zero_f32]

/-- The padded biases at (u, t). -/
private theorem bf_point (bd : (⟨1, ![2048]⟩ : Shape).Idx → EReal) (bc : (⟨1, ![50]⟩ : Shape).Idx → EReal)
    (hz : (⟨0, ![]⟩ : Shape).BroadcastsInDim ⟨1, ![128]⟩ ![]) (h1 : (⟨0, ![]⟩ : Shape).BroadcastsInDim ⟨1, ![1]⟩ ![])
    (hc : Shape.Concatenates [(⟨1, ![2048]⟩ : Shape), ⟨1, ![128]⟩] ⟨1, ![2176]⟩ 0)
    (hs : (⟨1, ![2176]⟩ : Shape).ShapeCasts ⟨2, ![1, 2176]⟩) (u : Fin 1) (t : Fin 2176) :
    shapeCast ⟨2, ![1, 2176]⟩ (concatenate ⟨1, ![2176]⟩ 0 [⟨⟨1, ![2048]⟩, bd⟩, ⟨⟨1, ![128]⟩,
      Host.scatter scatter_S128_S1_S50_0_n_0_0 (fun _ b => b)
        (broadcastInDim ⟨1, ![128]⟩ ![] hz (constant (F := Ideal) ⟨0, ![]⟩ .f32 0x00000000#32))
        (broadcastInDim ⟨1, ![1]⟩ ![] h1 (constantI ⟨0, ![]⟩ 32 0#32)) bc⟩] hc) hs (ix2 u t)
      = ((if h : t.val < 2048 then bd (ix1 ⟨t.val, h⟩)
          else if h' : t.val - 2048 < 50 then bc (ix1 ⟨t.val - 2048, h'⟩) else 0) : EReal) := by
  rw [shapeCast_a_1a_apply, concat_vec_apply]
  by_cases h : t.val < 2048
  · rw [dif_pos h, dif_pos h]
  · rw [dif_neg h, dif_neg h, pad_vec_apply _ _ (zero_idx h1)]
    by_cases h' : t.val - 2048 < 50
    · rw [dif_pos h', dif_pos h']
    · rw [dif_neg h', dif_neg h', broadcastInDim_scalar_apply, constant_apply, Ideal.ofBits_zero_f32]

/-! ## The last stretch of host operations, from any contents -/

/-- The last stretch of host operations at the padded weights' buffer, from any contents: the decoder's weight
    beside the classifier's written into a zero [512, 128] array, in the narrower format. -/
private theorem stage3_v18 (X : Valuation τ sig (Elt Ideal)) :
    @Eq (FVec Ideal S512x2176 .bf16) (StableHlo.after hostOps0_3 X (Proc.devRef .tc main_v18))
    (truncf .bf16 (concatenate S512x2176 1 [⟨S512x2048, X (Proc.devRef .tc main_arg6)⟩, ⟨S512x128,
      Host.scatter scatter_S512x128_S1_S512x50_01_n_1_0 (fun _ b => b)
        (broadcastInDim S512x128 ![] Facts₀.bcast_S_S512x128 (constant (F := Ideal) S_ .f32 0x00000000#32))
        (broadcastInDim S1 ![] Facts₀.bcast_S_S1 (constantI S_ 32 0#32)) (X (Proc.devRef .tc main_arg8))⟩]
      Facts₀.concatenates_S512x2048_S512x128_S512x2176_d1) Facts₀.bitsLt_bf16_f32) := by
  simp only [StableHlo.after_cons, StableHlo.after_nil]
  rw [StableHlo.unary_result (x := main_v15) (y := main_v18)]
  rw [StableHlo.reshape_result_ne (x := main_v16) (y := main_v17) (r := main_v15) (h := by decide)]
  rw [StableHlo.binary_result_ne (a := main_arg7) (b := main_v14) (y := main_v16) (r := main_v15) (h := by decide)]
  rw [StableHlo.binary_result (a := main_arg6) (b := main_v11) (y := main_v15)]
  rw [StableHlo.ternary_result_ne (c := main_v12) (a := main_v13) (b := main_arg9) (y := main_v14) (r := main_arg6) (h := by decide)]
  rw [StableHlo.ternary_result_ne (c := main_v12) (a := main_v13) (b := main_arg9) (y := main_v14) (r := main_v11) (h := by decide)]
  rw [StableHlo.unary_result_ne (x := main_c_4) (y := main_v13) (r := main_arg6) (h := by decide)]
  rw [StableHlo.unary_result_ne (x := main_c_4) (y := main_v13) (r := main_v11) (h := by decide)]
  rw [StableHlo.nullary_result_ne  (y := main_c_4) (r := main_arg6) (h := by decide)]
  rw [StableHlo.nullary_result_ne  (y := main_c_4) (r := main_v11) (h := by decide)]
  rw [StableHlo.unary_result_ne (x := main_cst_3) (y := main_v12) (r := main_arg6) (h := by decide)]
  rw [StableHlo.unary_result_ne (x := main_cst_3) (y := main_v12) (r := main_v11) (h := by decide)]
  rw [StableHlo.nullary_result_ne  (y := main_cst_3) (r := main_arg6) (h := by decide)]
  rw [StableHlo.nullary_result_ne  (y := main_cst_3) (r := main_v11) (h := by decide)]
  rw [StableHlo.ternary_result (c := main_v9) (a := main_v10) (b := main_arg8) (y := main_v11)]
  rw [StableHlo.ternary_result_ne (c := main_v9) (a := main_v10) (b := main_arg8) (y := main_v11) (r := main_arg6) (h := by decide)]
  rw [StableHlo.unary_result (x := main_c) (y := main_v10)]
  rw [StableHlo.unary_result_ne (x := main_c) (y := main_v10) (r := main_arg6) (h := by decide)]
  rw [StableHlo.unary_result_ne (x := main_c) (y := main_v10) (r := main_v9) (h := by decide)]
  rw [StableHlo.unary_result_ne (x := main_c) (y := main_v10) (r := main_arg8) (h := by decide)]
  rw [StableHlo.nullary_result  (y := main_c)]
  rw [StableHlo.nullary_result_ne  (y := main_c) (r := main_arg6) (h := by decide)]
  rw [StableHlo.nullary_result_ne  (y := main_c) (r := main_v9) (h := by decide)]
  rw [StableHlo.nullary_result_ne  (y := main_c) (r := main_arg8) (h := by decide)]
  rw [StableHlo.unary_result (x := main_cst_2) (y := main_v9)]
  rw [StableHlo.unary_result_ne (x := main_cst_2) (y := main_v9) (r := main_arg6) (h := by decide)]
  rw [StableHlo.unary_result_ne (x := main_cst_2) (y := main_v9) (r := main_arg8) (h := by decide)]
  rw [StableHlo.nullary_result  (y := main_cst_2)]
  rw [StableHlo.nullary_result_ne  (y := main_cst_2) (r := main_arg6) (h := by decide)]
  rw [StableHlo.nullary_result_ne  (y := main_cst_2) (r := main_arg8) (h := by decide)]
  rw [StableHlo.unary_result_ne (x := main_arg4) (y := main_v8) (r := main_arg6) (h := by decide)]
  rw [StableHlo.unary_result_ne (x := main_arg4) (y := main_v8) (r := main_arg8) (h := by decide)]
  rw [StableHlo.reshape_result_ne (x := main_arg5) (y := main_v7) (r := main_arg6) (h := by decide)]
  rw [StableHlo.reshape_result_ne (x := main_arg5) (y := main_v7) (r := main_arg8) (h := by decide)]
  rw [StableHlo.unary_result_ne (x := main_v5) (y := main_v6) (r := main_arg6) (h := by decide)]
  rw [StableHlo.unary_result_ne (x := main_v5) (y := main_v6) (r := main_arg8) (h := by decide)]

/-- The same stretch at the padded biases' buffer. -/
private theorem stage3_v17 (X : Valuation τ sig (Elt Ideal)) :
    @Eq (FVec Ideal S1x2176 .f32) (StableHlo.after hostOps0_3 X (Proc.devRef .tc main_v17))
    (shapeCast S1x2176 (concatenate S2176 0 [⟨S2048, X (Proc.devRef .tc main_arg7)⟩, ⟨S128,
      Host.scatter scatter_S128_S1_S50_0_n_0_0 (fun _ b => b)
        (broadcastInDim S128 ![] Facts₀.bcast_S_S128 (constant (F := Ideal) S_ .f32 0x00000000#32))
        (broadcastInDim S1 ![] Facts₀.bcast_S_S1 (constantI S_ 32 0#32)) (X (Proc.devRef .tc main_arg9))⟩]
      Facts₀.concatenates_S2048_S128_S2176_d0) Facts₀.shapeCasts_S2176_S1x2176) := by
  simp only [StableHlo.after_cons, StableHlo.after_nil]
  rw [StableHlo.unary_result_ne (x := main_v15) (y := main_v18) (r := main_v17) (h := by decide)]
  rw [StableHlo.reshape_result (x := main_v16) (y := main_v17)]
  rw [StableHlo.binary_result (a := main_arg7) (b := main_v14) (y := main_v16)]
  rw [StableHlo.binary_result_ne (a := main_arg6) (b := main_v11) (y := main_v15) (r := main_arg7) (h := by decide)]
  rw [StableHlo.binary_result_ne (a := main_arg6) (b := main_v11) (y := main_v15) (r := main_v14) (h := by decide)]
  rw [StableHlo.ternary_result (c := main_v12) (a := main_v13) (b := main_arg9) (y := main_v14)]
  rw [StableHlo.ternary_result_ne (c := main_v12) (a := main_v13) (b := main_arg9) (y := main_v14) (r := main_arg7) (h := by decide)]
  rw [StableHlo.unary_result (x := main_c_4) (y := main_v13)]
  rw [StableHlo.unary_result_ne (x := main_c_4) (y := main_v13) (r := main_arg7) (h := by decide)]
  rw [StableHlo.unary_result_ne (x := main_c_4) (y := main_v13) (r := main_v12) (h := by decide)]
  rw [StableHlo.unary_result_ne (x := main_c_4) (y := main_v13) (r := main_arg9) (h := by decide)]
  rw [StableHlo.nullary_result  (y := main_c_4)]
  rw [StableHlo.nullary_result_ne  (y := main_c_4) (r := main_arg7) (h := by decide)]
  rw [StableHlo.nullary_result_ne  (y := main_c_4) (r := main_v12) (h := by decide)]
  rw [StableHlo.nullary_result_ne  (y := main_c_4) (r := main_arg9) (h := by decide)]
  rw [StableHlo.unary_result (x := main_cst_3) (y := main_v12)]
  rw [StableHlo.unary_result_ne (x := main_cst_3) (y := main_v12) (r := main_arg7) (h := by decide)]
  rw [StableHlo.unary_result_ne (x := main_cst_3) (y := main_v12) (r := main_arg9) (h := by decide)]
  rw [StableHlo.nullary_result  (y := main_cst_3)]
  rw [StableHlo.nullary_result_ne  (y := main_cst_3) (r := main_arg7) (h := by decide)]
  rw [StableHlo.nullary_result_ne  (y := main_cst_3) (r := main_arg9) (h := by decide)]
  rw [StableHlo.ternary_result_ne (c := main_v9) (a := main_v10) (b := main_arg8) (y := main_v11) (r := main_arg7) (h := by decide)]
  rw [StableHlo.ternary_result_ne (c := main_v9) (a := main_v10) (b := main_arg8) (y := main_v11) (r := main_arg9) (h := by decide)]
  rw [StableHlo.unary_result_ne (x := main_c) (y := main_v10) (r := main_arg7) (h := by decide)]
  rw [StableHlo.unary_result_ne (x := main_c) (y := main_v10) (r := main_arg9) (h := by decide)]
  rw [StableHlo.nullary_result_ne  (y := main_c) (r := main_arg7) (h := by decide)]
  rw [StableHlo.nullary_result_ne  (y := main_c) (r := main_arg9) (h := by decide)]
  rw [StableHlo.unary_result_ne (x := main_cst_2) (y := main_v9) (r := main_arg7) (h := by decide)]
  rw [StableHlo.unary_result_ne (x := main_cst_2) (y := main_v9) (r := main_arg9) (h := by decide)]
  rw [StableHlo.nullary_result_ne  (y := main_cst_2) (r := main_arg7) (h := by decide)]
  rw [StableHlo.nullary_result_ne  (y := main_cst_2) (r := main_arg9) (h := by decide)]
  rw [StableHlo.unary_result_ne (x := main_arg4) (y := main_v8) (r := main_arg7) (h := by decide)]
  rw [StableHlo.unary_result_ne (x := main_arg4) (y := main_v8) (r := main_arg9) (h := by decide)]
  rw [StableHlo.reshape_result_ne (x := main_arg5) (y := main_v7) (r := main_arg7) (h := by decide)]
  rw [StableHlo.reshape_result_ne (x := main_arg5) (y := main_v7) (r := main_arg9) (h := by decide)]
  rw [StableHlo.unary_result_ne (x := main_v5) (y := main_v6) (r := main_arg7) (h := by decide)]
  rw [StableHlo.unary_result_ne (x := main_v5) (y := main_v6) (r := main_arg9) (h := by decide)]
  rfl

/-! ## What the buffers hold when the first region is entered -/

section
variable (m : (ℓ : Loc nD τ sig) → Buf (Elt Ideal) ℓ) (ρ : Dev nD → PrngReg) (c : Dev nD)

theorem V4_arg0 : V4 m ρ c main_arg0 = aX m c :=
  calc V4 m ρ c main_arg0
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aX m c := rfl

theorem V4_arg1 : V4 m ρ c main_arg1 = aOut m c :=
  calc V4 m ρ c main_arg1
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aOut m c := rfl

/-- Until the last stretch no operation writes the decoder's and the classifier's arguments. -/
private theorem W3_main_arg6 : W3 m ρ c (Proc.devRef .tc main_arg6) = aWd m c :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aWd m c := rfl

private theorem W3_main_arg7 : W3 m ρ c (Proc.devRef .tc main_arg7) = aBd m c :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aBd m c := rfl

private theorem W3_main_arg8 : W3 m ρ c (Proc.devRef .tc main_arg8) = aWc m c :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aWc m c := rfl

private theorem W3_main_arg9 : W3 m ρ c (Proc.devRef .tc main_arg9) = aBc m c :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = aBc m c := rfl

theorem V4_v0 : V4 m ρ c main_v0 = ohArr m c := by
  have e : @Eq (FVec Ideal S16384x50 .f32) (V4 m ρ c main_v0)
      (uitofp .f32 (cmpi .eq
          (broadcastInDim S16384x50 ![0, 1] Facts₀.bcast_S16384x1_S16384x50_0_1
            (broadcastInDim S16384x1 ![0] Facts₀.bcast_S16384_S16384x1_0 (aLab m c)))
          (broadcastInDim S16384x50 ![0, 1] Facts₀.bcast_S1x50_S16384x50_0_1 (iotaInDim S1x50 32 1)))) := by
    dsimp only [V4, W4, W3, W2, W1, W0]
    after_results
    rfl
  exact e.trans (funext_ix2 (n0 := 16384) (n1 := 50) (α := EReal) fun n k => oh_point (aLab m c) _ _ _ n k)

theorem V4_v6 : V4 m ρ c main_v6 = lyArr m c := by
  have e : @Eq (FVec Ideal S16384x50 .f32) (V4 m ρ c main_v6)
      (Host.log (minimumf
        (broadcastInDim S16384x50 ![] Facts₀.bcast_S_S16384x50 (constant (F := Ideal) S_ .f32 0x3F7FFFFE#32))
        (maximumf (broadcastInDim S16384x50 ![] Facts₀.bcast_S_S16384x50 (constant (F := Ideal) S_ .f32 0x33D6BF95#32))
          (Host.divf (aCl m c) (broadcastInDim S16384x50 ![0, 1] Facts₀.bcast_S16384x1_S16384x50_0_1
            (broadcastInDim S16384x1 ![0] Facts₀.bcast_S16384_S16384x1_0
              (Host.reduceAdd (aCl m c) (constant (F := Ideal) S_ .f32 0x00000000#32) Facts₀.reducesTo_S16384x50_S16384_d1 Facts₀.h_S_))))))) := by
    dsimp only [V4, W4, W3, W2, W1, W0]
    after_results <;> rfl
  exact e.trans (funext_ix2 (n0 := 16384) (n1 := 50) (α := EReal) fun n k => ly_point (aCl m c) _ _ _ _ _ n k)

theorem V4_v7 : V4 m ρ c main_v7 = be2Arr m c := by
  have e : @Eq (FVec Ideal S1x512 .f32) (V4 m ρ c main_v7)
      (shapeCast S1x512 (aBe m c) Facts₀.shapeCasts_S512_S1x512) := by
    dsimp only [V4, W4, W3, W2, W1, W0]
    after_results <;> rfl
  exact e.trans (funext_ix2 (n0 := 1) (n1 := 512) (α := EReal) fun u d => shapeCast_a_1a_apply (aBe m c) _ u d)

theorem V4_v8 : V4 m ρ c main_v8 = weArr m c := by
  have e : @Eq (FVec Ideal S2048x512 .bf16) (V4 m ρ c main_v8)
      (truncf .bf16 (aWe m c) Facts₀.bitsLt_bf16_f32) := by
    dsimp only [V4, W4, W3, W2, W1, W0]
    after_results <;> rfl
  exact e.trans (funext_ix2 (n0 := 2048) (n1 := 512) (α := EReal) fun a b => rfl)

theorem V4_v17 : V4 m ρ c main_v17 = bfArr m c := by
  have e : @Eq (FVec Ideal S1x2176 .f32) (V4 m ρ c main_v17) _ := stage3_v17 (W3 m ρ c)
  rw [W3_main_arg7, W3_main_arg9] at e
  exact e.trans (funext_ix2 (n0 := 1) (n1 := 2176) (α := EReal) fun u t => bf_point (aBd m c) (aBc m c) _ _ _ _ u t)

theorem V4_v18 : V4 m ρ c main_v18 = wfArr m c := by
  have e : @Eq (FVec Ideal S512x2176 .bf16) (V4 m ρ c main_v18) _ := stage3_v18 (W3 m ρ c)
  rw [W3_main_arg6, W3_main_arg8] at e
  exact e.trans (funext_ix2 (n0 := 512) (n1 := 2176) (α := EReal) fun r t => wf_point (aWd m c) (aWc m c) _ _ _ _ r t)

end

end Cert.KernelIdeal.KV

end
-- ==== Proof.KReg0.lean ====
/-
  The first region, read as values. Its 16 grid points are 2 cores × 8 steps; point (k, i) is handed rows
  (8k + i)·1024 … of x and of the one-hot rows. Each point writes its rows' latents back, so the latents' array ends as
  tanh (x·We + be) row by row. The class sums' block is the core's own and stays in place over the core's 8 points: by
  induction on the point it holds the sum over the rows seen so far, and after the core's last point its slab is the sum
  over the core's 8192 rows.
-/
import proofs.«423489_j79242146611896_3_alg».proof.Proof.KBody0
import proofs.«423489_j79242146611896_3_alg».proof.Proof.KHostA
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-! ## Where each window's block sits -/

/-- The block indices of the six windows at point `t`: the row windows (x, the one-hot rows, the latents) are at row
    block `t`, the weight and the bias are whole, the class sums' block is the core's slab `t / 8`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 8 ∧ win0_5.index t (1 : Fin 3) = 0 ∧ win0_5.index t (2 : Fin 3) = 0 :=
  (by decide +kernel : ∀ t : Fin grid0.N, _)

/-- Row `r` of point `t`'s 1024 rows, among the 16384. -/
def rowAt (t : Fin cfg0.N) (r : Fin 1024) : Fin 16384 :=
  ⟨t.val * 1024 + r.val, by have := lt_of_lt_of_eq t.isLt (show cfg0.N = 16 from N_0); have := r.isLt; omega⟩

section
variable (m : (ℓ : Loc nD τ sig) → Buf (Elt Ideal) ℓ) (ρ : Dev nD → PrngReg) (c : Dev nD)

/-- The blocks point `t` is handed: its rows of x, its one-hot rows, the encoder's weight and its bias row. -/
abbrev xb (t : Fin cfg0.N) : Vec Ideal S1024x2048 .f32 := iblk0 (V4 m ρ) c 0 t
abbrev ob (t : Fin cfg0.N) : Vec Ideal S1024x50 .f32 := iblk0 (V4 m ρ) c 1 t
abbrev wb (t : Fin cfg0.N) : Vec Ideal S2048x512 .bf16 := iblk0 (V4 m ρ) c 2 t
abbrev bb (t : Fin cfg0.N) : Vec Ideal S1x512 .f32 := iblk0 (V4 m ρ) c 3 t

/-- Entry (r, k) of point `t`'s block of x is x at row `t·1024 + r`. -/
theorem xb_apply (t : Fin cfg0.N) (r : Fin 1024) (k : Fin 2048) :
    xb m ρ c t (ix2 r k) = aX m c (ix2 (rowAt t r) k) := by
  obtain ⟨e0, e1, -⟩ := idx_facts0 t
  show iblk0 (V4 m ρ) c 0 t (ix2 r k) = _
  unfold iblk0
  rw [View.read_apply]
  show V4 m ρ c main_arg0 _ = _
  rw [V4_arg0]
  congr 1
  funext a
  apply Fin.ext
  match a with
  | ⟨0, _⟩ => show win0_0.index t (0 : Fin 2) * 1024 + 1 * r.val = t.val * 1024 + r.val; rw [e0]; omega
  | ⟨1, _⟩ => show win0_0.index t (1 : Fin 2) * 2048 + 1 * k.val = k.val; rw [e1]; omega

/-- Entry (r, k) of point `t`'s block of one-hot rows is the one-hot entry of row `t·1024 + r` at class `k`. -/
theorem ob_apply (t : Fin cfg0.N) (r : Fin 1024) (k : Fin 50) :
    ob m ρ c t (ix2 r k) = Spec.oh (aLab m c) (rowAt t r) k := by
  obtain ⟨-, -, e0, e1, -⟩ := idx_facts0 t
  show iblk0 (V4 m ρ) c 1 t (ix2 r k) = _
  unfold iblk0
  rw [View.read_apply]
  show V4 m ρ c main_v0 _ = ohArr m c (ix2 (rowAt t r) k)
  rw [V4_v0]
  congr 1
  funext a
  apply Fin.ext
  match a with
  | ⟨0, _⟩ => show win0_1.index t (0 : Fin 2) * 1024 + 1 * r.val = t.val * 1024 + r.val; rw [e0]; omega
  | ⟨1, _⟩ => show win0_1.index t (1 : Fin 2) * 50 + 1 * k.val = k.val; rw [e1]; omega

/-- The weight's block is the whole weight. -/
theorem wb_apply (t : Fin cfg0.N) (k : Fin 2048) (d : Fin 512) :
    wb m ρ c t (ix2 k d) = aWe m c (ix2 k d) := by
  obtain ⟨-, -, -, -, e0, e1, -⟩ := idx_facts0 t
  show iblk0 (V4 m ρ) c 2 t (ix2 k d) = _
  unfold iblk0
  rw [View.read_apply]
  show V4 m ρ c main_v8 _ = weArr m c (ix2 k d)
  rw [V4_v8]
  congr 1
  funext a
  apply Fin.ext
  match a with
  | ⟨0, _⟩ => show win0_2.index t (0 : Fin 2) * 2048 + 1 * k.val = k.val; rw [e0]; omega
  | ⟨1, _⟩ => show win0_2.index t (1 : Fin 2) * 512 + 1 * d.val = d.val; rw [e1]; omega

/-- The bias row's block is the whole bias. -/
theorem bb_apply (t : Fin cfg0.N) (z : Fin 1) (d : Fin 512) :
    bb m ρ c t (ix2 z d) = aBe m c (ix1 d) := by
  obtain ⟨-, -, -, -, -, -, e0, e1, -⟩ := idx_facts0 t
  show iblk0 (V4 m ρ) c 3 t (ix2 z d) = _
  unfold iblk0
  rw [View.read_apply]
  show V4 m ρ c main_v7 _ = be2Arr m c (ix2 z d)
  rw [V4_v7]
  congr 1
  refine Shape.idx_ext₂ ?_ ?_
  · show win0_3.index t (0 : Fin 2) * 1 + 1 * z.val = z.val; rw [e0]; omega
  · show win0_3.index t (1 : Fin 2) * 512 + 1 * d.val = d.val; rw [e1]; omega

/-- So the latents a point computes from its blocks are the latents of its rows. -/
theorem encB_blk (t : Fin cfg0.N) (r : Fin 1024) (d : Fin 512) :
    encB (xb m ρ c t) (wb m ρ c t) (bb m ρ c t) r d = Spec.enc (aX m c) (aWe m c) (aBe m c) (rowAt t r) d := by
  unfold encB Spec.enc
  rw [bb_apply]
  refine congrArg (fun s : EReal => Ideal.tanh (s + aBe m c (ix1 d))) ?_
  exact Finset.sum_congr rfl fun k _ => by rw [xb_apply, wb_apply]

/-- and its contribution to the class sums is the sum over its rows. -/
theorem sumB_blk (t : Fin cfg0.N) (k : Fin 50) (d : Fin 512) :
    sumB (xb m ρ c t) (ob m ρ c t) (wb m ρ c t) (bb m ρ c t) k d
      = ∑ r : Fin 1024, Spec.oh (aLab m c) (rowAt t r) k * Spec.enc (aX m c) (aWe m c) (aBe m c) (rowAt t r) d := by
  unfold sumB
  exact Finset.sum_congr rfl fun r _ => by rw [ob_apply, encB_blk]

end

/-! ## The latents' array -/

section
variable (m : (ℓ : Loc nD τ sig) → Buf (Elt Ideal) ℓ) (ρ : Dev nD → PrngReg) (c : Dev nD)

/-- After point `t` the latents' buffer holds the latents of the point's rows, at a core's first point and at the others. -/
theorem outs4_eq (t : Fin cfg0.N) :
    (outsAt0 (V4 m ρ) c t.val t.isLt).1 = fun j => encB (xb m ρ c t) (wb m ρ c t) (bb m ρ c t) (j 0) (j 1) := by
  by_cases h0 : t.val % 8 = 0
  · rw [outsAt0_A (V4 m ρ) c t h0]
    dsimp only
    exact out0_A_4_eq c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (xb m ρ c t) (ob m ρ c t) (wb m ρ c t) (bb m ρ c t)
  · rw [outsAt0_B (V4 m ρ) c t h0]
    dsimp only
    exact out0_B_4_eq c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (xb m ρ c t) (ob m ρ c t) (wb m ρ c t) (bb m ρ c t)
      (outsAt0 (V4 m ρ) c (t.val - 1) (Nat.lt_of_le_of_lt (Nat.sub_le _ _) t.isLt)).2

/-- What point `t` writes back is block `t` of the latents: rows `t·1024 …`, every column. -/
theorem flushed4_eq (t : Fin cfg0.N) :
    (dat0 (V4 m ρ) c).flushed 4 t = ((cfg0.win 4).blk t).view.read (Elt Ideal) (encArr m c) := by
  obtain ⟨-, -, -, -, -, -, -, -, e0, e1, -⟩ := idx_facts0 t
  show (cfg0.win 4).cut (grid0.coords t) ((dat0 (V4 m ρ) c).after 4 t) = _
  rw [after0_4, outs4_eq]
  funext j
  show encB (xb m ρ c t) (wb m ρ c t) (bb m ρ c t) (j 0) (j 1) = encArr m c (((cfg0.win 4).blk t).view.emb j)
  refine (encB_blk m ρ c t (j 0) (j 1)).trans ?_
  show encArr m c (ix2 (rowAt t (j 0)) (j 1)) = _
  congr 1
  refine Shape.idx_ext₂ ?_ ?_
  · show t.val * 1024 + (j 0).val = win0_4.index t (0 : Fin 2) * 1024 + 1 * (j 0).val; rw [e0]; omega
  · show (j 1).val = win0_4.index t (1 : Fin 2) * 512 + 1 * (j 1).val; rw [e1]; omega

/-- Every row of the latents' array is in the block of the point that holds it. -/
theorem cover4 (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, -, -, -, -, e0, e1, -⟩ := idx_facts0 t
  refine ⟨t, flush0_4 t, ?_⟩
  show i ∈ ((View.whole main_v19_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024
              rw [e0]; omega
  | ⟨1, _⟩ => show win0_4.index t (1 : Fin 2) * 512 ≤ (i 1).val ∧ (i 1).val < win0_4.index t (1 : Fin 2) * 512 + 512
              rw [e1]; omega

theorem arr0_4 : (dat0 (V4 m ρ) c).arrAt 4 cfg0.N = encArr m c :=
  (dat0 (V4 m ρ) c).arrAt_eq_of_cover 4 (encArr m c) (fun t _ => flushed4_eq m ρ c t) (fun i => cover4 i)

end

/-! ## Sums over stretches of rows -/

/-- A function of the 16384 rows as a function of every natural (zero past the rows), so that a stretch of rows is an
    interval of naturals and two adjacent stretches add up to their union. -/
def rowF (g : Fin 16384 → EReal) (r : ℕ) : EReal := if h : r < 16384 then g ⟨r, h⟩ else 0

/-- The sum over point `t`'s 1024 rows is the sum over the interval `[t·1024, (t+1)·1024)`. -/
theorem sum_rows_point (g : Fin 16384 → EReal) (t : Fin cfg0.N) :
    ∑ r : Fin 1024, g (rowAt t r) = ∑ r ∈ Finset.Ico (t.val * 1024) ((t.val + 1) * 1024), rowF g r := by
  have hN : t.val < 16 := lt_of_lt_of_eq t.isLt (show cfg0.N = 16 from N_0)
  rw [Finset.sum_Ico_eq_sum_range, show (t.val + 1) * 1024 - t.val * 1024 = 1024 by omega, Finset.sum_range]
  refine Finset.sum_congr rfl fun r _ => ?_
  have hr : r.val < 1024 := r.isLt
  unfold rowF
  rw [dif_pos (show t.val * 1024 + r.val < 16384 by omega)]
  rfl

/-- The sum over the interval `[k·8192, (k+1)·8192)` is the sum over core `k`'s 8192 rows. -/
theorem sum_rows_core (g : Fin 16384 → EReal) (k : Fin 2) :
    ∑ r ∈ Finset.Ico (k.val * 8192) ((k.val + 1) * 8192), rowF g r = ∑ r : Fin 8192, g (rowOf k r) := by
  have hk : k.val < 2 := k.isLt
  rw [Finset.sum_Ico_eq_sum_range, show (k.val + 1) * 8192 - k.val * 8192 = 8192 by omega, Finset.sum_range]
  refine Finset.sum_congr rfl fun r _ => ?_
  have hr : r.val < 8192 := r.isLt
  unfold rowF
  rw [dif_pos (show k.val * 8192 + r.val < 16384 by omega)]
  rfl

/-! ## The class sums' array -/

section
variable (m : (ℓ : Loc nD τ sig) → Buf (Elt Ideal) ℓ) (ρ : Dev nD → PrngReg) (c : Dev nD)

/-- Row `n`'s term of the class sum at class `k`, column `d`. -/
abbrev term (k : Fin 50) (d : Fin 512) (n : Fin 16384) : EReal :=
  Spec.oh (aLab m c) n k * Spec.enc (aX m c) (aWe m c) (aBe m c) n d

/-- A point's contribution to the class sums, as a sum over its interval of rows. -/
theorem sumB_rows (t : Fin cfg0.N) (k : Fin 50) (d : Fin 512) :
    sumB (xb m ρ c t) (ob m ρ c t) (wb m ρ c t) (bb m ρ c t) k d
      = ∑ r ∈ Finset.Ico (t.val * 1024) ((t.val + 1) * 1024), rowF (term m c k d) r := by
  rw [sumB_blk]
  exact sum_rows_point (term m c k d) t

/-- THE ACCUMULATION. After point `n` the class sums' buffer holds, at (class, column), the sum of the terms of the rows
    from the first row of the point's core up to the point's last row: a core's first point starts the sum over its own
    rows, every other point adds its rows to the stretch before it. -/
theorem outs5_eq : ∀ (n : ℕ) (hn : n < cfg0.N), (outsAt0 (V4 m ρ) c n hn).2
    = fun j => ∑ r ∈ Finset.Ico (n / 8 * 8192) ((n + 1) * 1024), rowF (term m c (j 1) (j 2)) r
  | 0, hn => by
    rw [outsAt0_A (V4 m ρ) c ⟨0, hn⟩ (Nat.zero_mod _)]
    dsimp only
    refine (out0_A_5_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _))
      (xb m ρ c ⟨0, hn⟩) (ob m ρ c ⟨0, hn⟩) (wb m ρ c ⟨0, hn⟩) (bb m ρ c ⟨0, hn⟩)).trans ?_
    funext j
    exact sumB_rows m ρ c ⟨0, hn⟩ (j 1) (j 2)
  | n + 1, hn => by
    have hN : n + 1 < 16 := lt_of_lt_of_eq hn (show cfg0.N = 16 from N_0)
    by_cases h0 : (n + 1) % 8 = 0
    · rw [outsAt0_A (V4 m ρ) c ⟨n + 1, hn⟩ h0]
      dsimp only
      refine (out0_A_5_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0)
        (xb m ρ c ⟨n + 1, hn⟩) (ob m ρ c ⟨n + 1, hn⟩) (wb m ρ c ⟨n + 1, hn⟩) (bb m ρ c ⟨n + 1, hn⟩)).trans ?_
      funext j
      refine (sumB_rows m ρ c ⟨n + 1, hn⟩ (j 1) (j 2)).trans ?_
      show ∑ r ∈ Finset.Ico ((n + 1) * 1024) ((n + 1 + 1) * 1024), rowF (term m c (j 1) (j 2)) r = _
      rw [show (n + 1) / 8 * 8192 = (n + 1) * 1024 by omega]
    · rw [outsAt0_B (V4 m ρ) c ⟨n + 1, hn⟩ h0]
      dsimp only
      refine (out0_B_5_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h))
        (xb m ρ c ⟨n + 1, hn⟩) (ob m ρ c ⟨n + 1, hn⟩) (wb m ρ c ⟨n + 1, hn⟩) (bb m ρ c ⟨n + 1, hn⟩)
        (outsAt0 (V4 m ρ) c (n + 1 - 1) (Nat.lt_of_le_of_lt (Nat.sub_le _ _) hn)).2).trans ?_
      funext j
      show (outsAt0 (V4 m ρ) c n (Nat.lt_of_succ_lt hn)).2 j + sumB (xb m ρ c ⟨n + 1, hn⟩) (ob m ρ c ⟨n + 1, hn⟩) (wb m ρ c ⟨n + 1, hn⟩) (bb m ρ c ⟨n + 1, hn⟩) (j 1) (j 2) = _
      refine (congrArg₂ (fun a b : EReal => a + b) (congrFun (outs5_eq n (Nat.lt_of_succ_lt hn)) j)
        (sumB_rows m ρ c ⟨n + 1, hn⟩ (j 1) (j 2))).trans ?_
      show ∑ r ∈ Finset.Ico (n / 8 * 8192) ((n + 1) * 1024), rowF (term m c (j 1) (j 2)) r
        + ∑ r ∈ Finset.Ico ((n + 1) * 1024) ((n + 1 + 1) * 1024), rowF (term m c (j 1) (j 2)) r
        = ∑ r ∈ Finset.Ico ((n + 1) / 8 * 8192) ((n + 1 + 1) * 1024), rowF (term m c (j 1) (j 2)) r
      rw [show (n + 1) / 8 = n / 8 by omega]
      exact Finset.sum_Ico_consecutive _ (by omega) (by omega)

/-- The write-back at a core's last point writes the core's slab of the class sums: by then the stretch is the core's
    8192 rows. -/
theorem flushed5_eq (t : Fin cfg0.N) (hf : (cfg0.win 5).flush t = true) :
    (dat0 (V4 m ρ) c).flushed 5 t = ((cfg0.win 5).blk t).view.read (Elt Ideal) (sumsArr m c) := by
  have hN : t.val < 16 := lt_of_lt_of_eq t.isLt (show cfg0.N = 16 from N_0)
  have h7 : t.val % 8 = 7 := (flush0_5 t).mp hf
  obtain ⟨-, -, -, -, -, -, -, -, -, -, e0, e1, e2⟩ := idx_facts0 t
  show (cfg0.win 5).cut (grid0.coords t) ((dat0 (V4 m ρ) c).after 5 t) = _
  rw [after0_5, outs5_eq]
  funext j
  have hj0 : (j 0).val < 1 := (j 0).isLt
  show ∑ r ∈ Finset.Ico (t.val / 8 * 8192) ((t.val + 1) * 1024), rowF (term m c (j 1) (j 2)) r
    = sumsArr m c (((cfg0.win 5).blk t).view.emb j)
  have e : ((cfg0.win 5).blk t).view.emb j = (ix3 (⟨t.val / 8, by omega⟩ : Fin 2) (j 1) (j 2) : S2x50x512.Idx) := by
    funext a
    apply Fin.ext
    match a with
    | ⟨0, _⟩ => show win0_5.index t (0 : Fin 3) * 1 + 1 * (j 0).val = t.val / 8; rw [e0]; omega
    | ⟨1, _⟩ => show win0_5.index t (1 : Fin 3) * 50 + 1 * (j 1).val = (j 1).val; rw [e1]; omega
    | ⟨2, _⟩ => show win0_5.index t (2 : Fin 3) * 512 + 1 * (j 2).val = (j 2).val; rw [e2]; omega
  refine Eq.trans ?_ (congrArg (sumsArr m c) e).symm
  show _ = ∑ r : Fin 8192, term m c (j 1) (j 2) (rowOf (⟨t.val / 8, by omega⟩ : Fin 2) r)
  rw [← sum_rows_core (term m c (j 1) (j 2)) (⟨t.val / 8, by omega⟩ : Fin 2)]
  show _ = ∑ r ∈ Finset.Ico (t.val / 8 * 8192) ((t.val / 8 + 1) * 8192), rowF (term m c (j 1) (j 2)) r
  rw [show (t.val + 1) * 1024 = (t.val / 8 + 1) * 8192 by omega]

/-- Every entry of the class sums' array is in the slab its core's last point writes back. -/
theorem cover5 (i : S2x50x512.Idx) :
    ∃ t : Fin cfg0.N, (cfg0.win 5).flush t = true ∧ i ∈ ((cfg0.win 5).blk t).view.set := by
  have hi0 : (i 0).val < 2 := (i 0).isLt
  have hi1 : (i 1).val < 50 := (i 1).isLt
  have hi2 : (i 2).val < 512 := (i 2).isLt
  obtain ⟨t, ht⟩ : ∃ t : Fin cfg0.N, t.val = 8 * (i 0).val + 7 :=
    ⟨⟨8 * (i 0).val + 7, by rw [show cfg0.N = 16 from N_0]; omega⟩, rfl⟩
  obtain ⟨-, -, -, -, -, -, -, -, -, -, e0, e1, e2⟩ := idx_facts0 t
  refine ⟨t, (flush0_5 t).mpr (by omega), ?_⟩
  show i ∈ ((View.whole main_v19_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1
              rw [e0]; omega
  | ⟨1, _⟩ => show win0_5.index t (1 : Fin 3) * 50 ≤ (i 1).val ∧ (i 1).val < win0_5.index t (1 : Fin 3) * 50 + 50
              rw [e1]; omega
  | ⟨2, _⟩ => show win0_5.index t (2 : Fin 3) * 512 ≤ (i 2).val ∧ (i 2).val < win0_5.index t (2 : Fin 3) * 512 + 512
              rw [e2]; omega

theorem arr0_5 : (dat0 (V4 m ρ) c).arrAt 5 cfg0.N = sumsArr m c :=
  (dat0 (V4 m ρ) c).arrAt_eq_of_cover 5 (sumsArr m c) (flushed5_eq m ρ c) (fun i => cover5 i)

end

end Cert.KernelIdeal.KV

end
-- ==== Proof.KSum.lean ====
/-
  A sum over the 16384 rows is the sum over the first core's 8192 rows plus the sum over the second's.
-/
import proofs.«423489_j79242146611896_3_alg».proof.Proof.KDefs
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-- A sum over a + b = n indices is the sum over the first a plus the sum over the remaining b. -/
private theorem sum_fin_split {a b n : Nat} (h : a + b = n) (f : Fin n → EReal) :
    ∑ i : Fin n, f i = (∑ i : Fin a, f ⟨i.val, by have := i.isLt; omega⟩) + ∑ i : Fin b, f ⟨a + i.val, by have := i.isLt; omega⟩ := by
  subst h
  exact Fin.sum_univ_add f

theorem sum_rowOf (f : Fin 16384 → EReal) : ∑ n : Fin 16384, f n = (∑ r : Fin 8192, f (rowOf 0 r)) + ∑ r : Fin 8192, f (rowOf 1 r) := by
  have h0 : 8192 + 8192 = 16384 := rfl
  have h1 := sum_fin_split h0 f
  rw [h1]
  have e0 : ∀ r : Fin 8192, rowOf 0 r = ⟨r.val, by have := r.isLt; omega⟩ := fun r => Fin.ext (by
    show 0 * 8192 + r.val = r.val
    omega)
  have e1 : ∀ r : Fin 8192, rowOf 1 r = ⟨8192 + r.val, by have := r.isLt; omega⟩ := fun r => Fin.ext (by
    show 1 * 8192 + r.val = 8192 + r.val
    omega)
  simp only [e0, e1]

end Cert.KernelIdeal.KV

end
-- ==== Proof.KHostB.lean ====
/-
  Between the two regions: the two cores' class sums are added, the class counts are the column sums of the one-hot rows,
  and the class means are the quotient by max(count, 1). Everything else the second region reads is as the first region
  found or left it.
-/
import proofs.«423489_j79242146611896_3_alg».proof.Proof.KReg0
import proofs.«423489_j79242146611896_3_alg».proof.Proof.KSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-- The operations between the regions that end in the class means, as one function of the two arrays they read: the
    cores' class sums and the one-hot rows. -/
private def meanTerm (s : Vec Ideal S2x50x512 .f32) (o : Vec Ideal S16384x50 .f32) : Vec Ideal S50x512 .f32 :=
  Host.divf
    (addf (shapeCast S50x512 (extractStridedSlice S1x50x512 ![0, 0, 0] s slices_S2x50x512_S1x50x512_0_0_0) shapeCasts_S1x50x512_S50x512)
          (shapeCast S50x512 (extractStridedSlice S1x50x512 ![1, 0, 0] s slices_S2x50x512_S1x50x512_1_0_0) shapeCasts_S1x50x512_S50x512))
    (broadcastInDim S50x512 ![0, 1] bcast_S50x1_S50x512_0_1
      (maximumf (transpose S50x1 [1, 0] (broadcastInDim S1x50 ![1] bcast_S50_S1x50_1 (Host.reduceAdd o (constant (F := Ideal) S_ .f32 0x00000000#32) reducesTo_S16384x50_S50_d0 h_S_)) transposes_S1x50_S50x1_1_0)
                (broadcastInDim S50x1 ![] bcast_S_S50x1 (constant (F := Ideal) S_ .f32 0x3F800000#32))))

/-- Slab 0 of the class sums, as a [50, 512] array, at (k, d). -/
private theorem slab0_apply (s : Vec Ideal S2x50x512 .f32) (k : Fin 50) (d : Fin 512) :
    shapeCast S50x512 (extractStridedSlice S1x50x512 ![0, 0, 0] s slices_S2x50x512_S1x50x512_0_0_0) shapeCasts_S1x50x512_S50x512 (ix2 k d)
      = s (ix3 0 k d) := by
  refine (shapeCast_apply _ shapeCasts_S1x50x512_S50x512 (ix2 k d) (ix3 (0 : Fin 1) k d) ?_).trans ?_
  · rw [Shape.rowMajor_val_three, Shape.rowMajor_val_two]
    show (0 * 50 + k.val) * 512 + d.val = k.val * 512 + d.val
    omega
  · exact extractStridedSlice_apply _ s slices_S2x50x512_S1x50x512_0_0_0 (ix3 (0 : Fin 1) k d) (ix3 (0 : Fin 2) k d) (fun a => by
      match a with
      | ⟨0, _⟩ => rfl
      | ⟨1, _⟩ => exact (Nat.zero_add _).symm
      | ⟨2, _⟩ => exact (Nat.zero_add _).symm)

/-- Slab 1 likewise. -/
private theorem slab1_apply (s : Vec Ideal S2x50x512 .f32) (k : Fin 50) (d : Fin 512) :
    shapeCast S50x512 (extractStridedSlice S1x50x512 ![1, 0, 0] s slices_S2x50x512_S1x50x512_1_0_0) shapeCasts_S1x50x512_S50x512 (ix2 k d)
      = s (ix3 1 k d) := by
  refine (shapeCast_apply _ shapeCasts_S1x50x512_S50x512 (ix2 k d) (ix3 (0 : Fin 1) k d) ?_).trans ?_
  · rw [Shape.rowMajor_val_three, Shape.rowMajor_val_two]
    show (0 * 50 + k.val) * 512 + d.val = k.val * 512 + d.val
    omega
  · exact extractStridedSlice_apply _ s slices_S2x50x512_S1x50x512_1_0_0 (ix3 (0 : Fin 1) k d) (ix3 (1 : Fin 2) k d) (fun a => by
      match a with
      | ⟨0, _⟩ => rfl
      | ⟨1, _⟩ => exact (Nat.zero_add _).symm
      | ⟨2, _⟩ => exact (Nat.zero_add _).symm)

/-- The column sums of the one-hot rows, as a row, turned into a column: at (k, 0) the sum of column k. -/
private theorem cntCol_apply (o : Vec Ideal S16384x50 .f32) (k : Fin 50) :
    transpose S50x1 [1, 0] (broadcastInDim S1x50 ![1] bcast_S50_S1x50_1 (Host.reduceAdd o (constant (F := Ideal) S_ .f32 0x00000000#32) reducesTo_S16384x50_S50_d0 h_S_)) transposes_S1x50_S50x1_1_0 (ix2 k (0 : Fin 1))
      = ∑ n : Fin 16384, o (ix2 n k) := by
  refine (transpose_apply [1, 0] _ transposes_S1x50_S50x1_1_0 (ix2 k (0 : Fin 1)) (ix2 (0 : Fin 1) k) (fun b => by
    match b with
    | ⟨0, _⟩ => rfl
    | ⟨1, _⟩ => rfl)).trans ?_
  refine (broadcastInDim_apply _ bcast_S50_S1x50_1 _ (ix2 (0 : Fin 1) k) (ix1 k) (fun a => by
    match a with
    | ⟨0, _⟩ => show k.val = if (50 : Nat) = 1 then 0 else k.val; rw [if_neg (by decide)])).trans ?_
  refine (hostReduceAdd_apply o _ reducesTo_S16384x50_S50_d0 h_S_ (ix1 k)).trans ?_
  rw [Ideal.hostReduceAdd_single reducesTo_S16384x50_S50_d0 (by decide)]
  rw [constant_apply, Ideal.ofBits_zero_f32, zero_add]
  refine Finset.sum_congr rfl fun n _ => ?_
  exact congrArg o (funext fun a => Fin.ext (by match a with | ⟨0, _⟩ => rfl | ⟨1, _⟩ => rfl))

/-- The class means' term at (k, d): the two slabs of the class sums added, over max(column sum of the one-hot rows, 1). -/
private theorem meanTerm_apply (s : Vec Ideal S2x50x512 .f32) (o : Vec Ideal S16384x50 .f32) (k : Fin 50) (d : Fin 512) :
    meanTerm s o (ix2 k d) = Ideal.div (s (ix3 0 k d) + s (ix3 1 k d)) (max (∑ n : Fin 16384, o (ix2 n k)) 1) := by
  unfold meanTerm
  refine (hostDivf_apply _ _ _).trans ?_
  rw [addf_apply, slab0_apply, slab1_apply]
  refine congrArg (Ideal.div _) ?_
  refine (broadcastInDim_apply _ bcast_S50x1_S50x512_0_1 _ (ix2 k d) (ix2 k (0 : Fin 1)) (fun a => by
    match a with
    | ⟨0, _⟩ => show k.val = if (50 : Nat) = 1 then 0 else k.val; rw [if_neg (by decide)]
    | ⟨1, _⟩ => show (0 : Nat) = if (1 : Nat) = 1 then 0 else d.val; rw [if_pos rfl])).trans ?_
  rw [maximumf_apply, cntCol_apply, broadcastInDim_scalar_apply, constant_apply, Ideal.ofBits_one_f32]

section
variable (m : (ℓ : Loc nD τ sig) → Buf (Elt Ideal) ℓ) (ρ : Dev nD → PrngReg) (c : Dev nD)

/-- A buffer the operations between the regions do not write holds what the first region left. -/
private theorem W6_keep (b : Ref sig .tc)
    (hb : ∀ r ∈ [main_v20, main_v21, main_v22, main_v23, main_v24, main_cst_5, main_v25, main_v26, main_v27, main_cst_6, main_v28, main_v29, main_v30, main_v31], b ≠ r) :
    W6 m ρ c (Proc.devRef .tc b) = W5 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (hb _ (by decide))))

/-- The one-hot rows are an input of the first region: it leaves them as it found them. -/
private theorem V5_v0 : V5 m ρ c main_v0 = ohArr m c :=
  (W5_arr m ρ c 1).trans (((dat0 (V4 m ρ) c).arrAt_in 1 rfl _).trans ((A_eq0 (V4 m ρ) c 1).trans (V4_v0 m ρ c)))

theorem V6_arg1 : V6 m ρ c main_arg1 = aOut m c :=
  (W6_keep m ρ c main_arg1 (by decide)).trans ((W5_of_ne m ρ c main_arg1 (by decide)).trans (V4_arg1 m ρ c))

theorem V6_v0 : V6 m ρ c main_v0 = ohArr m c :=
  (W6_keep m ρ c main_v0 (by decide)).trans (V5_v0 m ρ c)

theorem V6_v6 : V6 m ρ c main_v6 = lyArr m c :=
  (W6_keep m ρ c main_v6 (by decide)).trans ((W5_of_ne m ρ c main_v6 (by decide)).trans (V4_v6 m ρ c))

theorem V6_v7 : V6 m ρ c main_v7 = be2Arr m c :=
  (W6_keep m ρ c main_v7 (by decide)).trans ((W5_arr m ρ c 3).trans
    (((dat0 (V4 m ρ) c).arrAt_in 3 rfl _).trans ((A_eq0 (V4 m ρ) c 3).trans (V4_v7 m ρ c))))

theorem V6_v8 : V6 m ρ c main_v8 = weArr m c :=
  (W6_keep m ρ c main_v8 (by decide)).trans ((W5_arr m ρ c 2).trans
    (((dat0 (V4 m ρ) c).arrAt_in 2 rfl _).trans ((A_eq0 (V4 m ρ) c 2).trans (V4_v8 m ρ c))))

theorem V6_v17 : V6 m ρ c main_v17 = bfArr m c :=
  (W6_keep m ρ c main_v17 (by decide)).trans ((W5_of_ne m ρ c main_v17 (by decide)).trans (V4_v17 m ρ c))

theorem V6_v18 : V6 m ρ c main_v18 = wfArr m c :=
  (W6_keep m ρ c main_v18 (by decide)).trans ((W5_of_ne m ρ c main_v18 (by decide)).trans (V4_v18 m ρ c))

theorem V6_v19_0 : V6 m ρ c main_v19_0 = encArr m c :=
  (W6_keep m ρ c main_v19_0 (by decide)).trans ((W5_arr m ρ c 4).trans (arr0_4 m ρ c))

/-- The class means' buffer holds the operations' term at what the first region left of the class sums and the one-hot rows. -/
private theorem V6_v31_term : V6 m ρ c main_v31 = meanTerm (V5 m ρ c main_v19_1) (V5 m ρ c main_v0) := by
  show StableHlo.after hostOps1 (W5 m ρ c) (Proc.devRef .tc main_v31) = _
  after_results
  rfl

theorem V6_v31 : V6 m ρ c main_v31 = meanArr m c := by
  refine (V6_v31_term m ρ c).trans ?_
  have es : V5 m ρ c main_v19_1 = sumsArr m c := (W5_arr m ρ c 5).trans (arr0_5 m ρ c)
  rw [es, V5_v0 m ρ c]
  refine funext fun (j : S50x512.Idx) => ?_
  obtain ⟨k, d, rfl⟩ : ∃ (k : Fin 50) (d : Fin 512), j = ix2 k d := ⟨j 0, j 1, eq_ix2 j⟩
  refine (meanTerm_apply (sumsArr m c) (ohArr m c) k d).trans ?_
  show Ideal.div
      ((∑ r : Fin 8192, Spec.oh (aLab m c) (rowOf 0 r) k * Spec.enc (aX m c) (aWe m c) (aBe m c) (rowOf 0 r) d)
        + ∑ r : Fin 8192, Spec.oh (aLab m c) (rowOf 1 r) k * Spec.enc (aX m c) (aWe m c) (aBe m c) (rowOf 1 r) d)
      (max (∑ n : Fin 16384, Spec.oh (aLab m c) n k) 1)
    = Ideal.div (∑ n : Fin 16384, Spec.oh (aLab m c) n k * Spec.enc (aX m c) (aWe m c) (aBe m c) n d)
      (max (∑ n : Fin 16384, Spec.oh (aLab m c) n k) 1)
  rw [sum_rowOf (fun n => Spec.oh (aLab m c) n k * Spec.enc (aX m c) (aWe m c) (aBe m c) n d)]

end

end Cert.KernelIdeal.KV

end
-- ==== Proof.KReg1Row.lean ====
/-
  The second region's first result, read as values: the one-row array of the rows' mean squared distances. Point t of
  the 32 is handed rows 512·t … 512·t + 511 of the latents and of the one-hot rows, and the class means whole; it writes
  the 512 distances of its rows into columns 512·t … of the row, the same in either control case, so no induction over
  the points is needed. Every point writes back, and column j lies in the stretch of point j / 512.
-/
import proofs.«423489_j79242146611896_3_alg».proof.Proof.KBody1a
import proofs.«423489_j79242146611896_3_alg».proof.Proof.KBody1b
import proofs.«423489_j79242146611896_3_alg».proof.Proof.KHostB
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

namespace Row9

/-- The block indices of the windows this result reads and of its own, at every point: the latents' and the one-hot
    rows' blocks go down the rows with the point, the means' block is the whole array, the result's goes along the row. -/
theorem rowIdx_facts : ∀ t : Fin cfg1.N,
    win1_0.index t (0 : Fin 2) = t.val ∧ win1_0.index t (1 : Fin 2) = 0
    ∧ win1_2.index t (0 : Fin 2) = t.val ∧ win1_2.index t (1 : Fin 2) = 0
    ∧ win1_4.index t (0 : Fin 2) = 0 ∧ win1_4.index t (1 : Fin 2) = 0
    ∧ win1_9.index t (0 : Fin 2) = 0 ∧ win1_9.index t (1 : Fin 2) = t.val :=
  (by decide +kernel : ∀ t : Fin grid1.N, _)

/-- Row r of point t's 512 rows. -/
def rowAt (t : Fin cfg1.N) (r : Fin 512) : Fin 16384 :=
  ⟨512 * t.val + r.val, by have := lt_of_lt_of_eq t.isLt (show cfg1.N = 32 from N_1); have := r.isLt; omega⟩

/-- A row's mean squared distance from the mean its one-hot row selects, when the row's latents, its one-hot row and
    the means are known entry by entry. -/
theorem wgB_of_rows (x0 : Vec Ideal S512x512 .f32) (x2 : Vec Ideal S512x50 .f32) (x4 : Vec Ideal S50x512 .f32) (r : Fin 512)
    (e : Fin 512 → EReal) (o : Fin 50 → EReal) (mn : Fin 50 → Fin 512 → EReal)
    (h0 : ∀ d, x0 (ix2 r d) = e d) (h2 : ∀ k, x2 (ix2 r k) = o k) (h4 : ∀ k d, x4 (ix2 k d) = mn k d) :
    wgB x0 x2 x4 r
      = Ideal.div (∑ d : Fin 512, (e d - ∑ k : Fin 50, o k * mn k d) * (e d - ∑ k : Fin 50, o k * mn k d)) c512 := by
  unfold wgB meanRowB
  simp only [h0, h2, h4]

section
variable (m : (ℓ : Loc nD τ sig) → Buf (Elt Ideal) ℓ) (ρ : Dev nD → PrngReg) (c : Dev nD)

/-- Point t's block of latents, of one-hot rows, and the class means it is handed. -/
abbrev encBlk (t : Fin cfg1.N) : Vec Ideal S512x512 .f32 := iblk1 (V6 m ρ) c 0 t
abbrev ohBlk (t : Fin cfg1.N) : Vec Ideal S512x50 .f32 := iblk1 (V6 m ρ) c 2 t
abbrev meanBlk (t : Fin cfg1.N) : Vec Ideal S50x512 .f32 := iblk1 (V6 m ρ) c 4 t

/-- The latents' block at point t is rows 512·t … of the latents. -/
theorem encBlk_apply (t : Fin cfg1.N) (r : Fin 512) (d : Fin 512) :
    encBlk m ρ c t (ix2 r d) = Spec.enc (aX m c) (aWe m c) (aBe m c) (rowAt t r) d := by
  obtain ⟨e0, e1, -⟩ := rowIdx_facts t
  unfold encBlk iblk1
  rw [View.read_apply]
  show V6 m ρ c main_v19_0 _ = _
  rw [V6_v19_0]
  unfold encArr
  congr 1 <;> apply Fin.ext
  · show win1_0.index t 0 * 512 + 1 * r.val = 512 * t.val + r.val; omega
  · show win1_0.index t 1 * 512 + 1 * d.val = d.val; omega

/-- The one-hot block at point t is rows 512·t … of the one-hot rows. -/
theorem ohBlk_apply (t : Fin cfg1.N) (r : Fin 512) (k : Fin 50) :
    ohBlk m ρ c t (ix2 r k) = Spec.oh (aLab m c) (rowAt t r) k := by
  obtain ⟨-, -, e0, e1, -⟩ := rowIdx_facts t
  unfold ohBlk iblk1
  rw [View.read_apply]
  show V6 m ρ c main_v0 _ = _
  rw [V6_v0]
  unfold ohArr
  congr 1 <;> apply Fin.ext
  · show win1_2.index t 0 * 512 + 1 * r.val = 512 * t.val + r.val; omega
  · show win1_2.index t 1 * 50 + 1 * k.val = k.val; omega

/-- The means' block at every point is the class means whole. -/
theorem meanBlk_apply (t : Fin cfg1.N) (k : Fin 50) (d : Fin 512) :
    meanBlk m ρ c t (ix2 k d) = Spec.mean (aX m c) (aLab m c) (aWe m c) (aBe m c) k d := by
  obtain ⟨-, -, -, -, e0, e1, -⟩ := rowIdx_facts t
  unfold meanBlk iblk1
  rw [View.read_apply]
  show V6 m ρ c main_v31 _ = _
  rw [V6_v31]
  unfold meanArr
  congr 1 <;> apply Fin.ext
  · show win1_4.index t 0 * 50 + 1 * k.val = k.val; omega
  · show win1_4.index t 1 * 512 + 1 * d.val = d.val; omega

/-- So what point t computes for its row r is the mean squared distance of row 512·t + r. -/
theorem wgB_blk (t : Fin cfg1.N) (r : Fin 512) :
    wgB (encBlk m ρ c t) (ohBlk m ρ c t) (meanBlk m ρ c t) r
      = Spec.wg (aX m c) (aLab m c) (aWe m c) (aBe m c) (rowAt t r) := by
  unfold Spec.wg Spec.meanRow
  exact wgB_of_rows _ _ _ r _ _ _ (fun d => encBlk_apply m ρ c t r d) (fun k => ohBlk_apply m ρ c t r k)
    (fun k d => meanBlk_apply m ρ c t k d)

/-- What the result's staging buffer holds after point t, in either control case: the distances of the point's rows. -/
theorem after9_eq (t : Fin cfg1.N) :
    (outsAt1 (V6 m ρ) c t.val t.isLt).1 = fun j => wgB (encBlk m ρ c t) (ohBlk m ρ c t) (meanBlk m ρ c t) (j 1) := by
  by_cases h0 : t.val % 16 = 0
  · rw [outsAt1_A (V6 m ρ) c t h0]
    dsimp only
    exact out1_A_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t) (iblk1 (V6 m ρ) c 7 t) (iblk1 (V6 m ρ) c 8 t)
  · rw [outsAt1_B (V6 m ρ) c t h0]
    dsimp only
    exact out1_B_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t) (iblk1 (V6 m ρ) c 7 t) (iblk1 (V6 m ρ) c 8 t) (outsAt1 (V6 m ρ) c (t.val - 1) (Nat.lt_of_le_of_lt (Nat.sub_le _ _) t.isLt)).2.1 (outsAt1 (V6 m ρ) c (t.val - 1) (Nat.lt_of_le_of_lt (Nat.sub_le _ _) t.isLt)).2.2.1 (outsAt1 (V6 m ρ) c (t.val - 1) (Nat.lt_of_le_of_lt (Nat.sub_le _ _) t.isLt)).2.2.2

/-- What point t writes back is its stretch of the row of distances. -/
theorem flushed9_eq (t : Fin cfg1.N) :
    (dat1 (V6 m ρ) c).flushed 9 t = ((cfg1.win 9).blk t).view.read (Elt Ideal) (rowArr m c) := by
  obtain ⟨-, -, -, -, -, -, e0, e1⟩ := rowIdx_facts t
  show (cfg1.win 9).cut (grid1.coords t) ((dat1 (V6 m ρ) c).after 9 t) = _
  rw [after1_9, after9_eq]
  funext j
  rw [View.read_apply]
  have hj : (j 1).val < 512 := (j 1).isLt
  show wgB (encBlk m ρ c t) (ohBlk m ρ c t) (meanBlk m ρ c t) ⟨(j 1).val, hj⟩
    = rowArr m c (((cfg1.win 9).blk t).view.emb j)
  rw [wgB_blk]
  unfold rowArr
  congr 1
  apply Fin.ext
  show 512 * t.val + (j 1).val = win1_9.index t 1 * 512 + 1 * (j 1).val
  omega

/-- A column of the row is in point t's stretch iff it is one of the 512 from 512·t on. -/
theorem mem_blk9 (t : Fin cfg1.N) (i : S1x16384.Idx) :
    i ∈ ((cfg1.win 9).blk t).view.set
      ↔ ∀ a : Fin 2, win1_9.index t a * S1x512.size a ≤ (i a).val
          ∧ (i a).val < win1_9.index t a * S1x512.size a + S1x512.size a := by
  show i ∈ ((View.whole main_v32_0).slice (win1_9.rect t)).set ↔ _
  rw [View.set_slice_whole, Rect.mem_set_unit]
  exact Iff.rfl

end

end Row9

section
variable (m : (ℓ : Loc nD τ sig) → Buf (Elt Ideal) ℓ) (ρ : Dev nD → PrngReg) (c : Dev nD)

open Row9

/-- The row of distances after the region: every point writes its stretch back, and column j is in the stretch of
    point j / 512. -/
theorem arr1_9' : (dat1 (V6 m ρ) c).arrAt 9 cfg1.N = rowArr m c :=
  (dat1 (V6 m ρ) c).arrAt_eq_of_cover 9 (rowArr m c) (fun t _ => flushed9_eq m ρ c t) fun i => by
    have hi0 : (i 0).val < 1 := (i 0).isLt
    have hi1 : (i 1).val < 16384 := (i 1).isLt
    have hN : cfg1.N = 32 := N_1
    have hq : (i 1).val / 512 < cfg1.N := by rw [hN]; omega
    obtain ⟨-, -, -, -, -, -, e0, e1⟩ := rowIdx_facts ⟨(i 1).val / 512, hq⟩
    refine ⟨⟨(i 1).val / 512, hq⟩, flush1_9 _, ?_⟩
    rw [mem_blk9]
    intro a
    match a with
    | ⟨0, _⟩ =>
      show win1_9.index ⟨(i 1).val / 512, hq⟩ 0 * 1 ≤ (i 0).val
        ∧ (i 0).val < win1_9.index ⟨(i 1).val / 512, hq⟩ 0 * 1 + 1
      omega
    | ⟨1, _⟩ =>
      show win1_9.index ⟨(i 1).val / 512, hq⟩ 1 * 512 ≤ (i 1).val
        ∧ (i 1).val < win1_9.index ⟨(i 1).val / 512, hq⟩ 1 * 512 + 512
      have e1' : win1_9.index ⟨(i 1).val / 512, hq⟩ 1 = (i 1).val / 512 := e1
      omega

end

end Cert.KernelIdeal.KV

end
-- ==== Proof.KReg1Acc.lean ====
/-
  The three accumulators of the second region. Each is the core's own block, carried over the core's 16 points: at the
  core's first point it holds the sums over that point's 512 rows alone, every later point adds its own rows' sums, and the
  block is written back after the core's last point. By induction on the point each accumulator is the sum over the rows
  seen so far; after the core's last point it is the sum over the core's 8192 rows. The blocks' functions are the
  specification's functions of the arguments at row 512·t + r.
-/
import proofs.«423489_j79242146611896_3_alg».proof.Proof.KBody1a
import proofs.«423489_j79242146611896_3_alg».proof.Proof.KBody1b
import proofs.«423489_j79242146611896_3_alg».proof.Proof.KHostB
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

/-- The printed index maps of the second region's windows, decided over the grid. -/
theorem idxAcc1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_3.index t (0 : Fin 2) = t.val ∧ win1_3.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_10.index t (0 : Fin 3) = t.val / 16 ∧ win1_10.index t (1 : Fin 3) = 0 ∧ win1_10.index t (2 : Fin 3) = 0
    ∧ win1_11.index t (0 : Fin 3) = t.val / 16 ∧ win1_11.index t (1 : Fin 3) = 0 ∧ win1_11.index t (2 : Fin 3) = 0
    ∧ win1_12.index t (0 : Fin 3) = t.val / 16 ∧ win1_12.index t (1 : Fin 3) = 0 ∧ win1_12.index t (2 : Fin 3) = 0 :=
  (by decide +kernel : ∀ t : Fin grid1.N, _)

theorem N1_eq : cfg1.N = 32 := by decide

/-- Row n of the 16384 rows (read modulo the number of rows, so that it is a function of every natural). -/
def rowN (n : ℕ) : Fin 16384 := ⟨n % 16384, Nat.mod_lt _ (by decide)⟩

/-- The fused weight's first 2048 columns are the decoder's. -/
theorem fused_dec {a : Nat} (Wd : Spec.Mat a 2048) (Wc : Spec.Mat a 50) (k : Fin a) (q : Fin 2048) (j : Fin 2176) (hj : j.val = q.val) :
    ((if h : j.val < 2048 then Wd (ix2 k ⟨j.val, h⟩)
      else if h' : j.val - 2048 < 50 then Wc (ix2 k ⟨j.val - 2048, h'⟩) else 0) : EReal) = Wd (ix2 k q) := by
  have hq := q.isLt
  rw [dif_pos (show j.val < 2048 by omega)]
  exact congrArg (fun z => Wd (ix2 k z)) (Fin.ext hj)

/-- Its columns 2048 … 2097 are the classifier's. -/
theorem fused_cls {a : Nat} (Wd : Spec.Mat a 2048) (Wc : Spec.Mat a 50) (k : Fin a) (q : Fin 50) (j : Fin 2176) (hj : j.val = 2048 + q.val) :
    ((if h : j.val < 2048 then Wd (ix2 k ⟨j.val, h⟩)
      else if h' : j.val - 2048 < 50 then Wc (ix2 k ⟨j.val - 2048, h'⟩) else 0) : EReal) = Wc (ix2 k q) := by
  have hq := q.isLt
  rw [dif_neg (show ¬j.val < 2048 by omega), dif_pos (show j.val - 2048 < 50 by omega)]
  exact congrArg (fun z => Wc (ix2 k z)) (Fin.ext (by show j.val - 2048 = q.val; omega))

/-- The same for the fused bias. -/
theorem fusedb_dec (bd : Spec.Vc 2048) (bc : Spec.Vc 50) (q : Fin 2048) (j : Fin 2176) (hj : j.val = q.val) :
    ((if h : j.val < 2048 then bd (ix1 ⟨j.val, h⟩)
      else if h' : j.val - 2048 < 50 then bc (ix1 ⟨j.val - 2048, h'⟩) else 0) : EReal) = bd (ix1 q) := by
  have hq := q.isLt
  rw [dif_pos (show j.val < 2048 by omega)]
  exact congrArg (fun z => bd (ix1 z)) (Fin.ext hj)

theorem fusedb_cls (bd : Spec.Vc 2048) (bc : Spec.Vc 50) (q : Fin 50) (j : Fin 2176) (hj : j.val = 2048 + q.val) :
    ((if h : j.val < 2048 then bd (ix1 ⟨j.val, h⟩)
      else if h' : j.val - 2048 < 50 then bc (ix1 ⟨j.val - 2048, h'⟩) else 0) : EReal) = bc (ix1 q) := by
  have hq := q.isLt
  rw [dif_neg (show ¬j.val < 2048 by omega), dif_pos (show j.val - 2048 < 50 by omega)]
  exact congrArg (fun z => bc (ix1 z)) (Fin.ext (by show j.val - 2048 = q.val; omega))

section
variable (m : (ℓ : Loc nD τ sig) → Buf (Elt Ideal) ℓ) (ρ : Dev nD → PrngReg) (c : Dev nD)

/-- The blocks the second region's point t is handed, by their literal types. -/
abbrev bEnc (t : Fin cfg1.N) : Vec Ideal S512x512 .f32 := iblk1 (V6 m ρ) c 0 t
abbrev bOut (t : Fin cfg1.N) : Vec Ideal S512x2048 .f32 := iblk1 (V6 m ρ) c 1 t
abbrev bOh (t : Fin cfg1.N) : Vec Ideal S512x50 .f32 := iblk1 (V6 m ρ) c 2 t
abbrev bLy (t : Fin cfg1.N) : Vec Ideal S512x50 .f32 := iblk1 (V6 m ρ) c 3 t
abbrev bMean (t : Fin cfg1.N) : Vec Ideal S50x512 .f32 := iblk1 (V6 m ρ) c 4 t
abbrev bWf (t : Fin cfg1.N) : Vec Ideal S512x2176 .bf16 := iblk1 (V6 m ρ) c 5 t
abbrev bBf (t : Fin cfg1.N) : Vec Ideal S1x2176 .f32 := iblk1 (V6 m ρ) c 6 t
abbrev bWe (t : Fin cfg1.N) : Vec Ideal S2048x512 .bf16 := iblk1 (V6 m ρ) c 7 t
abbrev bBe (t : Fin cfg1.N) : Vec Ideal S1x512 .f32 := iblk1 (V6 m ρ) c 8 t

/-- The latents' block at point t holds the latents of rows 512·t … 512·t + 511. -/
theorem bEnc_apply (t : Fin cfg1.N) (r d : Fin 512) :
    bEnc m ρ c t (ix2 r d) = Spec.enc (aX m c) (aWe m c) (aBe m c) (rowN (512 * t.val + r.val)) d := by
  obtain ⟨e0, e1, -⟩ := idxAcc1 t
  have hN : cfg1.N = 32 := N1_eq
  have ht := t.isLt
  unfold bEnc iblk1
  rw [View.read_apply]
  show V6 m ρ c main_v19_0 _ = _
  rw [V6_v19_0]
  unfold encArr
  dsimp only
  have h0 : ((View.whole main_v19_0).slice ((win1 0).rect t)).emb (ix2 r d) 0 = rowN (512 * t.val + r.val) := by
    apply Fin.ext
    show win1_0.index t 0 * 512 + 1 * r.val = (512 * t.val + r.val) % 16384
    rw [e0]; have := r.isLt; omega
  have h1 : ((View.whole main_v19_0).slice ((win1 0).rect t)).emb (ix2 r d) 1 = d := by
    apply Fin.ext
    show win1_0.index t 1 * 512 + 1 * d.val = d.val
    rw [e1]; omega
  exact congrArg₂ (Spec.enc (aX m c) (aWe m c) (aBe m c)) h0 h1

/-- The targets' block at point t holds the targets' rows 512·t … . -/
theorem bOut_apply (t : Fin cfg1.N) (r : Fin 512) (q : Fin 2048) :
    bOut m ρ c t (ix2 r q) = aOut m c (ix2 (rowN (512 * t.val + r.val)) q) := by
  obtain ⟨-, -, e0, e1, -⟩ := idxAcc1 t
  have hN : cfg1.N = 32 := N1_eq
  have ht := t.isLt
  unfold bOut iblk1
  rw [View.read_apply]
  show V6 m ρ c main_arg1 _ = _
  rw [V6_arg1]
  refine congrArg (aOut m c) (funext fun a => Fin.ext ?_)
  match a with
  | ⟨0, _⟩ => show win1_1.index t 0 * 512 + 1 * r.val = (512 * t.val + r.val) % 16384
              rw [e0]; have := r.isLt; omega
  | ⟨1, _⟩ => show win1_1.index t 1 * 2048 + 1 * q.val = q.val
              rw [e1]; omega

/-- The log targets' block at point t. -/
theorem bLy_apply (t : Fin cfg1.N) (r : Fin 512) (k : Fin 50) :
    bLy m ρ c t (ix2 r k) = Spec.ly (aCl m c) (rowN (512 * t.val + r.val)) k := by
  obtain ⟨-, -, -, -, e0, e1, -⟩ := idxAcc1 t
  have hN : cfg1.N = 32 := N1_eq
  have ht := t.isLt
  unfold bLy iblk1
  rw [View.read_apply]
  show V6 m ρ c main_v6 _ = _
  rw [V6_v6]
  unfold lyArr
  dsimp only
  have h0 : ((View.whole main_v6).slice ((win1 3).rect t)).emb (ix2 r k) 0 = rowN (512 * t.val + r.val) := by
    apply Fin.ext
    show win1_3.index t 0 * 512 + 1 * r.val = (512 * t.val + r.val) % 16384
    rw [e0]; have := r.isLt; omega
  have h1 : ((View.whole main_v6).slice ((win1 3).rect t)).emb (ix2 r k) 1 = k := by
    apply Fin.ext
    show win1_3.index t 1 * 50 + 1 * k.val = k.val
    rw [e1]; omega
  exact congrArg₂ (Spec.ly (aCl m c)) h0 h1

/-- The resident fused weight, whole. -/
theorem bWf_emb (t : Fin cfg1.N) (k : Fin 512) (j : Fin 2176) :
    bWf m ρ c t (ix2 k j) = wfArr m c (ix2 k j) := by
  obtain ⟨-, -, -, -, -, -, e0, e1, -⟩ := idxAcc1 t
  unfold bWf iblk1
  rw [View.read_apply]
  show V6 m ρ c main_v18 _ = _
  rw [V6_v18]
  refine congrArg (wfArr m c) (funext fun a => Fin.ext ?_)
  match a with
  | ⟨0, _⟩ => show win1_5.index t 0 * 512 + 1 * k.val = k.val
              rw [e0]; omega
  | ⟨1, _⟩ => show win1_5.index t 1 * 2176 + 1 * j.val = j.val
              rw [e1]; omega

theorem bWf_dec (t : Fin cfg1.N) (k : Fin 512) (q : Fin 2048) (j : Fin 2176) (hj : j.val = q.val) :
    bWf m ρ c t (ix2 k j) = aWd m c (ix2 k q) :=
  (bWf_emb m ρ c t k j).trans (fused_dec (aWd m c) (aWc m c) k q j hj)

theorem bWf_cls (t : Fin cfg1.N) (k : Fin 512) (q : Fin 50) (j : Fin 2176) (hj : j.val = 2048 + q.val) :
    bWf m ρ c t (ix2 k j) = aWc m c (ix2 k q) :=
  (bWf_emb m ρ c t k j).trans (fused_cls (aWd m c) (aWc m c) k q j hj)

end

section
variable (m : (ℓ : Loc nD τ sig) → Buf (Elt Ideal) ℓ) (ρ : Dev nD → PrngReg) (c : Dev nD)

/-- The resident fused bias, whole. -/
theorem bBf_emb (t : Fin cfg1.N) (j : Fin 2176) :
    bBf m ρ c t (ix2 0 j) = bfArr m c (ix2 0 j) := by
  obtain ⟨-, -, -, -, -, -, -, -, e0, e1, -⟩ := idxAcc1 t
  unfold bBf iblk1
  rw [View.read_apply]
  show V6 m ρ c main_v17 _ = _
  rw [V6_v17]
  refine congrArg (bfArr m c) (funext fun a => Fin.ext ?_)
  match a with
  | ⟨0, _⟩ => show win1_6.index t 0 * 1 + 1 * 0 = 0
              rw [e0]
  | ⟨1, _⟩ => show win1_6.index t 1 * 2176 + 1 * j.val = j.val
              rw [e1]; omega

theorem bBf_dec (t : Fin cfg1.N) (q : Fin 2048) (j : Fin 2176) (hj : j.val = q.val) :
    bBf m ρ c t (ix2 0 j) = aBd m c (ix1 q) :=
  (bBf_emb m ρ c t j).trans (fusedb_dec (aBd m c) (aBc m c) q j hj)

theorem bBf_cls (t : Fin cfg1.N) (q : Fin 50) (j : Fin 2176) (hj : j.val = 2048 + q.val) :
    bBf m ρ c t (ix2 0 j) = aBc m c (ix1 q) :=
  (bBf_emb m ρ c t j).trans (fusedb_cls (aBd m c) (aBc m c) q j hj)

/-- The resident encoder weight, whole. -/
theorem bWe_apply (t : Fin cfg1.N) (q : Fin 2048) (d : Fin 512) :
    bWe m ρ c t (ix2 q d) = aWe m c (ix2 q d) := by
  obtain ⟨-, -, -, -, -, -, -, -, -, -, e0, e1, -⟩ := idxAcc1 t
  unfold bWe iblk1
  rw [View.read_apply]
  show V6 m ρ c main_v8 _ = _
  rw [V6_v8]
  unfold weArr
  dsimp only
  refine congrArg (aWe m c) (funext fun a => Fin.ext ?_)
  match a with
  | ⟨0, _⟩ => show win1_7.index t 0 * 2048 + 1 * q.val = q.val
              rw [e0]; omega
  | ⟨1, _⟩ => show win1_7.index t 1 * 512 + 1 * d.val = d.val
              rw [e1]; omega

/-- The resident encoder bias, as one row. -/
theorem bBe_apply (t : Fin cfg1.N) (d : Fin 512) :
    bBe m ρ c t (ix2 0 d) = aBe m c (ix1 d) := by
  obtain ⟨-, -, -, -, -, -, -, -, -, -, -, -, e0, e1, -⟩ := idxAcc1 t
  unfold bBe iblk1
  rw [View.read_apply]
  show V6 m ρ c main_v7 _ = _
  rw [V6_v7]
  unfold be2Arr
  dsimp only
  refine congrArg (aBe m c) (funext fun a => Fin.ext ?_)
  match a with
  | ⟨0, _⟩ => show win1_8.index t 1 * 512 + 1 * d.val = d.val
              rw [e1]; omega

/-! ### The blocks' functions are the specification's, at row 512·t + r -/

theorem decB_eq (t : Fin cfg1.N) (r : Fin 512) (q : Fin 2048) :
    decB (bEnc m ρ c t) (bWf m ρ c t) (bBf m ρ c t) r q
      = Spec.dec (aX m c) (aWe m c) (aBe m c) (aWd m c) (aBd m c) (rowN (512 * t.val + r.val)) q := by
  unfold decB fusedB Spec.dec
  rw [bBf_dec m ρ c t q _ rfl]
  refine congrArg (· + aBd m c (ix1 q)) (Finset.sum_congr rfl fun k _ => ?_)
  rw [bEnc_apply, bWf_dec m ρ c t k q _ rfl]

theorem logitB_eq (t : Fin cfg1.N) (r : Fin 512) (k : Fin 50) :
    logitB (bEnc m ρ c t) (bWf m ρ c t) (bBf m ρ c t) r k
      = Spec.logit (aX m c) (aWe m c) (aBe m c) (aWc m c) (aBc m c) (rowN (512 * t.val + r.val)) k := by
  unfold logitB fusedB Spec.logit
  rw [bBf_cls m ρ c t k _ rfl]
  refine congrArg (· + aBc m c (ix1 k)) (Finset.sum_congr rfl fun k' _ => ?_)
  rw [bEnc_apply, bWf_cls m ρ c t k' k _ rfl]

theorem probB_eq (t : Fin cfg1.N) (r : Fin 512) (k : Fin 50) :
    probB (bEnc m ρ c t) (bWf m ρ c t) (bBf m ρ c t) r k
      = Spec.prob (aX m c) (aWe m c) (aBe m c) (aWc m c) (aBc m c) (rowN (512 * t.val + r.val)) k := by
  unfold probB expoB rowMaxB Spec.prob Spec.expo Spec.rowMax
  simp only [logitB_eq]

theorem reclatB_eq (t : Fin cfg1.N) (r : Fin 512) (d : Fin 512) :
    reclatB (bEnc m ρ c t) (bWf m ρ c t) (bBf m ρ c t) (bWe m ρ c t) (bBe m ρ c t) r d
      = Spec.reclat (aX m c) (aWe m c) (aBe m c) (aWd m c) (aBd m c) (rowN (512 * t.val + r.val)) d := by
  unfold reclatB Spec.reclat
  rw [bBe_apply]
  refine congrArg (fun z => Ideal.tanh (z + aBe m c (ix1 d))) (Finset.sum_congr rfl fun q _ => ?_)
  rw [decB_eq, bWe_apply]

end

/-! ### Sums over a core's rows, point by point -/

section Sums
variable {M : Type*} [AddCommMonoid M] (F : ℕ → M)

/-- At a core's first point the rows seen so far are the point's own. -/
theorem point_first (p : ℕ) (h : p % 16 = 0) :
    ∑ r : Fin 512, F (512 * p + r.val) = ∑ x ∈ Finset.range (512 * (p % 16 + 1)), F (8192 * (p / 16) + x) := by
  rw [show 512 * (p % 16 + 1) = 512 by omega, show 8192 * (p / 16) = 512 * p by omega]
  exact Fin.sum_univ_eq_sum_range (fun x => F (512 * p + x)) 512

/-- At a later point the point's own rows are appended to the rows seen before. -/
theorem point_next (p : ℕ) (h : ¬(p + 1) % 16 = 0) :
    (∑ x ∈ Finset.range (512 * (p % 16 + 1)), F (8192 * (p / 16) + x)) + ∑ r : Fin 512, F (512 * (p + 1) + r.val)
      = ∑ x ∈ Finset.range (512 * ((p + 1) % 16 + 1)), F (8192 * ((p + 1) / 16) + x) := by
  rw [show (p + 1) / 16 = p / 16 by omega, show 512 * ((p + 1) % 16 + 1) = 512 * (p % 16 + 1) + 512 by omega,
    Finset.sum_range_add, Fin.sum_univ_eq_sum_range (fun x => F (512 * (p + 1) + x)) 512]
  congr 1
  refine Finset.sum_congr rfl fun x _ => ?_
  congr 1
  omega

/-- After a core's last point the rows seen are the core's 8192. -/
theorem point_last (p : ℕ) (h : p % 16 = 15) :
    ∑ x ∈ Finset.range (512 * (p % 16 + 1)), F (8192 * (p / 16) + x) = ∑ r : Fin 8192, F (8192 * (p / 16) + r.val) := by
  rw [show 512 * (p % 16 + 1) = 8192 by omega]
  exact (Fin.sum_univ_eq_sum_range (fun x => F (8192 * (p / 16) + x)) 8192).symm

end Sums

section
variable (m : (ℓ : Loc nD τ sig) → Buf (Elt Ideal) ℓ) (ρ : Dev nD → PrngReg) (c : Dev nD)

/-- Row n's terms of the three sums. -/
def recF (q : Fin 2048) (n : ℕ) : EReal :=
  c09 * absE (Spec.dec (aX m c) (aWe m c) (aBe m c) (aWd m c) (aBd m c) (rowN n) q - aOut m c (ix2 (rowN n) q))
def latF (d : Fin 512) (n : ℕ) : EReal :=
  c09 * absE (Spec.reclat (aX m c) (aWe m c) (aBe m c) (aWd m c) (aBd m c) (rowN n) d - Spec.enc (aX m c) (aWe m c) (aBe m c) (rowN n) d)
def catF (n : ℕ) : EReal := Spec.catRow (aX m c) (aCl m c) (aWe m c) (aBe m c) (aWc m c) (aBc m c) (rowN n)

/-- Point t's sums are the sums of its rows' terms. -/
theorem recColB_eq (t : Fin cfg1.N) (q : Fin 2048) :
    recColB (bEnc m ρ c t) (bOut m ρ c t) (bWf m ρ c t) (bBf m ρ c t) q = ∑ r : Fin 512, recF m c q (512 * t.val + r.val) := by
  unfold recColB recF
  refine Finset.sum_congr rfl fun r _ => ?_
  rw [decB_eq, bOut_apply]

theorem latColB_eq (t : Fin cfg1.N) (d : Fin 512) :
    latColB (bEnc m ρ c t) (bWf m ρ c t) (bBf m ρ c t) (bWe m ρ c t) (bBe m ρ c t) d = ∑ r : Fin 512, latF m c d (512 * t.val + r.val) := by
  unfold latColB latF
  refine Finset.sum_congr rfl fun r _ => ?_
  rw [reclatB_eq, bEnc_apply]

theorem catB_eq (t : Fin cfg1.N) :
    catB (bEnc m ρ c t) (bLy m ρ c t) (bWf m ρ c t) (bBf m ρ c t) = ∑ r : Fin 512, catF m c (512 * t.val + r.val) := by
  unfold catB catF Spec.catRow
  refine Finset.sum_congr rfl fun r _ => ?_
  rw [zero_sub]
  refine congrArg Neg.neg (Finset.sum_congr rfl fun k _ => ?_)
  rw [probB_eq, bLy_apply]

/-- What the three accumulators hold after a core's first point: the point's own sums. -/
theorem outs_A (t : Fin cfg1.N) (h0 : t.val % 16 = 0) :
    (outsAt1 (V6 m ρ) c t.val t.isLt).2.1 = (fun j => recColB (bEnc m ρ c t) (bOut m ρ c t) (bWf m ρ c t) (bBf m ρ c t) (j 2))
    ∧ (outsAt1 (V6 m ρ) c t.val t.isLt).2.2.1 = (fun j => latColB (bEnc m ρ c t) (bWf m ρ c t) (bBf m ρ c t) (bWe m ρ c t) (bBe m ρ c t) (j 2))
    ∧ (outsAt1 (V6 m ρ) c t.val t.isLt).2.2.2 = (fun _ => catB (bEnc m ρ c t) (bLy m ρ c t) (bWf m ρ c t) (bBf m ρ c t)) := by
  rw [outsAt1_A (V6 m ρ) c t h0]
  dsimp only
  exact ⟨out1_A_10_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (bEnc m ρ c t) (bOut m ρ c t) (bOh m ρ c t) (bLy m ρ c t) (bMean m ρ c t) (bWf m ρ c t) (bBf m ρ c t) (bWe m ρ c t) (bBe m ρ c t),
    out1_A_11_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (bEnc m ρ c t) (bOut m ρ c t) (bOh m ρ c t) (bLy m ρ c t) (bMean m ρ c t) (bWf m ρ c t) (bBf m ρ c t) (bWe m ρ c t) (bBe m ρ c t),
    out1_A_12_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (bEnc m ρ c t) (bOut m ρ c t) (bOh m ρ c t) (bLy m ρ c t) (bMean m ρ c t) (bWf m ρ c t) (bBf m ρ c t) (bWe m ρ c t) (bBe m ρ c t)⟩

/-- What they hold after a later point: what the point before left, plus the point's own sums. -/
theorem outs_B (t : Fin cfg1.N) (h0 : ¬t.val % 16 = 0) :
    (outsAt1 (V6 m ρ) c t.val t.isLt).2.1 = (fun j => (outsAt1 (V6 m ρ) c (t.val - 1) (Nat.lt_of_le_of_lt (Nat.sub_le _ _) t.isLt)).2.1 j + recColB (bEnc m ρ c t) (bOut m ρ c t) (bWf m ρ c t) (bBf m ρ c t) (j 2))
    ∧ (outsAt1 (V6 m ρ) c t.val t.isLt).2.2.1 = (fun j => (outsAt1 (V6 m ρ) c (t.val - 1) (Nat.lt_of_le_of_lt (Nat.sub_le _ _) t.isLt)).2.2.1 j + latColB (bEnc m ρ c t) (bWf m ρ c t) (bBf m ρ c t) (bWe m ρ c t) (bBe m ρ c t) (j 2))
    ∧ (outsAt1 (V6 m ρ) c t.val t.isLt).2.2.2 = (fun j => (outsAt1 (V6 m ρ) c (t.val - 1) (Nat.lt_of_le_of_lt (Nat.sub_le _ _) t.isLt)).2.2.2 j + catB (bEnc m ρ c t) (bLy m ρ c t) (bWf m ρ c t) (bBf m ρ c t)) := by
  rw [outsAt1_B (V6 m ρ) c t h0]
  dsimp only
  exact ⟨out1_B_10_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (bEnc m ρ c t) (bOut m ρ c t) (bOh m ρ c t) (bLy m ρ c t) (bMean m ρ c t) (bWf m ρ c t) (bBf m ρ c t) (bWe m ρ c t) (bBe m ρ c t) (outsAt1 (V6 m ρ) c (t.val - 1) (Nat.lt_of_le_of_lt (Nat.sub_le _ _) t.isLt)).2.1 (outsAt1 (V6 m ρ) c (t.val - 1) (Nat.lt_of_le_of_lt (Nat.sub_le _ _) t.isLt)).2.2.1 (outsAt1 (V6 m ρ) c (t.val - 1) (Nat.lt_of_le_of_lt (Nat.sub_le _ _) t.isLt)).2.2.2,
    out1_B_11_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (bEnc m ρ c t) (bOut m ρ c t) (bOh m ρ c t) (bLy m ρ c t) (bMean m ρ c t) (bWf m ρ c t) (bBf m ρ c t) (bWe m ρ c t) (bBe m ρ c t) (outsAt1 (V6 m ρ) c (t.val - 1) (Nat.lt_of_le_of_lt (Nat.sub_le _ _) t.isLt)).2.1 (outsAt1 (V6 m ρ) c (t.val - 1) (Nat.lt_of_le_of_lt (Nat.sub_le _ _) t.isLt)).2.2.1 (outsAt1 (V6 m ρ) c (t.val - 1) (Nat.lt_of_le_of_lt (Nat.sub_le _ _) t.isLt)).2.2.2,
    out1_B_12_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (bEnc m ρ c t) (bOut m ρ c t) (bOh m ρ c t) (bLy m ρ c t) (bMean m ρ c t) (bWf m ρ c t) (bBf m ρ c t) (bWe m ρ c t) (bBe m ρ c t) (outsAt1 (V6 m ρ) c (t.val - 1) (Nat.lt_of_le_of_lt (Nat.sub_le _ _) t.isLt)).2.1 (outsAt1 (V6 m ρ) c (t.val - 1) (Nat.lt_of_le_of_lt (Nat.sub_le _ _) t.isLt)).2.2.1 (outsAt1 (V6 m ρ) c (t.val - 1) (Nat.lt_of_le_of_lt (Nat.sub_le _ _) t.isLt)).2.2.2⟩

end

section
variable (m : (ℓ : Loc nD τ sig) → Buf (Elt Ideal) ℓ) (ρ : Dev nD → PrngReg) (c : Dev nD)

/-- THE INVARIANT, for the three accumulators at once: after point n = 16k + i each holds the sum of its terms over
    the rows 8192·k … 8192·k + 512·(i + 1) − 1, the rows of the core's points so far. By induction on the point. -/
theorem accs_eq : ∀ (n : ℕ) (h : n < cfg1.N),
    (outsAt1 (V6 m ρ) c n h).2.1 = (fun j => ∑ x ∈ Finset.range (512 * (n % 16 + 1)), recF m c (j 2) (8192 * (n / 16) + x))
    ∧ (outsAt1 (V6 m ρ) c n h).2.2.1 = (fun j => ∑ x ∈ Finset.range (512 * (n % 16 + 1)), latF m c (j 2) (8192 * (n / 16) + x))
    ∧ (outsAt1 (V6 m ρ) c n h).2.2.2 = (fun _ => ∑ x ∈ Finset.range (512 * (n % 16 + 1)), catF m c (8192 * (n / 16) + x))
  | 0, h => by
    obtain ⟨a, b, d⟩ := outs_A m ρ c ⟨0, h⟩ rfl
    refine ⟨a.trans (funext fun j => ?_), b.trans (funext fun j => ?_), d.trans (funext fun j => ?_)⟩
    · exact (recColB_eq m ρ c ⟨0, h⟩ (j 2)).trans (point_first (recF m c (j 2)) 0 rfl)
    · exact (latColB_eq m ρ c ⟨0, h⟩ (j 2)).trans (point_first (latF m c (j 2)) 0 rfl)
    · exact (catB_eq m ρ c ⟨0, h⟩).trans (point_first (catF m c) 0 rfl)
  | n + 1, h => by
    obtain ⟨ia, ib, id⟩ := accs_eq n (Nat.lt_of_succ_lt h)
    by_cases h0 : (n + 1) % 16 = 0
    · obtain ⟨a, b, d⟩ := outs_A m ρ c ⟨n + 1, h⟩ h0
      refine ⟨a.trans (funext fun j => ?_), b.trans (funext fun j => ?_), d.trans (funext fun j => ?_)⟩
      · exact (recColB_eq m ρ c ⟨n + 1, h⟩ (j 2)).trans (point_first (recF m c (j 2)) (n + 1) h0)
      · exact (latColB_eq m ρ c ⟨n + 1, h⟩ (j 2)).trans (point_first (latF m c (j 2)) (n + 1) h0)
      · exact (catB_eq m ρ c ⟨n + 1, h⟩).trans (point_first (catF m c) (n + 1) h0)
    · obtain ⟨a, b, d⟩ := outs_B m ρ c ⟨n + 1, h⟩ h0
      refine ⟨a.trans (funext fun j => ?_), b.trans (funext fun j => ?_), d.trans (funext fun j => ?_)⟩
      · exact (congrArg₂ (· + ·) (congrFun ia j) (recColB_eq m ρ c ⟨n + 1, h⟩ (j 2))).trans (point_next (recF m c (j 2)) n h0)
      · exact (congrArg₂ (· + ·) (congrFun ib j) (latColB_eq m ρ c ⟨n + 1, h⟩ (j 2))).trans (point_next (latF m c (j 2)) n h0)
      · exact (congrArg₂ (· + ·) (congrFun id j) (catB_eq m ρ c ⟨n + 1, h⟩)).trans (point_next (catF m c) n h0)

/-- Row 8192·k + r is row r of core k's half. -/
theorem rowN_core (k : Fin 2) (r : Fin 8192) (n : ℕ) (hn : n = k.val) : rowN (8192 * n + r.val) = rowOf k r := by
  subst hn
  apply Fin.ext
  show (8192 * k.val + r.val) % 16384 = k.val * 8192 + r.val
  have := k.isLt; have := r.isLt; omega

/-- An index of a per-core array is in point t's block iff each coordinate is in the block's range on its axis. -/
theorem mem_blk10 (t : Fin cfg1.N) (i : S2x1x2048.Idx) :
    i ∈ ((cfg1.win 10).blk t).view.set ↔ ∀ a : Fin 3, win1_10.index t a * S1x1x2048.size a ≤ (i a).val ∧ (i a).val < win1_10.index t a * S1x1x2048.size a + S1x1x2048.size a := by
  show i ∈ ((View.whole main_v32_1).slice (win1_10.rect t)).set ↔ _
  rw [View.set_slice_whole, Rect.mem_set_unit]
  exact Iff.rfl

/-- What a core's last point writes back is the core's block of the pinball sums of the reconstruction. -/
theorem flushed10_eq (t : Fin cfg1.N) (hf : (cfg1.win 10).flush t = true) :
    (dat1 (V6 m ρ) c).flushed 10 t = ((cfg1.win 10).blk t).view.read (Elt Ideal) (recArr m c) := by
  have h15 : t.val % 16 = 15 := (flush1_10 t).mp hf
  have hN : cfg1.N = 32 := N1_eq
  have ht := t.isLt
  obtain ⟨-, -, -, -, -, -, -, -, -, -, -, -, -, -, e0, e1, e2, -⟩ := idxAcc1 t
  show (cfg1.win 10).cut (grid1.coords t) ((dat1 (V6 m ρ) c).after 10 t) = _
  rw [after1_10, (accs_eq m ρ c t.val t.isLt).1]
  funext j
  rw [View.read_apply]
  show (∑ x ∈ Finset.range (512 * (t.val % 16 + 1)), recF m c (j 2) (8192 * (t.val / 16) + x)) = recArr m c (((cfg1.win 10).blk t).view.emb j)
  rw [point_last _ t.val h15]
  unfold recArr recF
  dsimp only
  have hcol : ((cfg1.win 10).blk t).view.emb j 2 = j 2 := Fin.ext (by
    show win1_10.index t 2 * 2048 + 1 * (j 2).val = (j 2).val
    rw [e2]; omega)
  have hk : (((cfg1.win 10).blk t).view.emb j 0).val = t.val / 16 := by
    show win1_10.index t 0 * 1 + 1 * (j 0).val = t.val / 16
    have : (j 0).val < 1 := (j 0).isLt
    rw [e0]; omega
  rw [hcol]
  refine Finset.sum_congr rfl fun r _ => ?_
  rw [rowN_core (((cfg1.win 10).blk t).view.emb j 0) r (t.val / 16) hk.symm]

/-- So the array of the reconstruction's pinball sums ends holding each core's sums over its half of the rows. -/
theorem arr1_10' : (dat1 (V6 m ρ) c).arrAt 10 cfg1.N = recArr m c :=
  (dat1 (V6 m ρ) c).arrAt_eq_of_cover 10 (recArr m c) (flushed10_eq m ρ c) fun i => by
    have hN : cfg1.N = 32 := N1_eq
    have hi0 : (i 0).val < 2 := (i 0).isLt
    have hi1 : (i 1).val < 1 := (i 1).isLt
    have hi2 : (i 2).val < 2048 := (i 2).isLt
    have hlt : 16 * (i 0).val + 15 < cfg1.N := by omega
    refine ⟨⟨16 * (i 0).val + 15, hlt⟩, (flush1_10 _).mpr (by show (16 * (i 0).val + 15) % 16 = 15; omega), ?_⟩
    obtain ⟨-, -, -, -, -, -, -, -, -, -, -, -, -, -, e0, e1, e2, -⟩ := idxAcc1 ⟨16 * (i 0).val + 15, hlt⟩
    rw [mem_blk10]
    intro a
    match a with
    | ⟨0, _⟩ => show win1_10.index _ 0 * 1 ≤ (i 0).val ∧ (i 0).val < win1_10.index _ 0 * 1 + 1
                rw [e0]; dsimp only; omega
    | ⟨1, _⟩ => show win1_10.index _ 1 * 1 ≤ (i 1).val ∧ (i 1).val < win1_10.index _ 1 * 1 + 1
                rw [e1]; omega
    | ⟨2, _⟩ => show win1_10.index _ 2 * 2048 ≤ (i 2).val ∧ (i 2).val < win1_10.index _ 2 * 2048 + 2048
                rw [e2]; omega

end

section
variable (m : (ℓ : Loc nD τ sig) → Buf (Elt Ideal) ℓ) (ρ : Dev nD → PrngReg) (c : Dev nD)

theorem mem_blk11 (t : Fin cfg1.N) (i : S2x1x512.Idx) :
    i ∈ ((cfg1.win 11).blk t).view.set ↔ ∀ a : Fin 3, win1_11.index t a * S1x1x512.size a ≤ (i a).val ∧ (i a).val < win1_11.index t a * S1x1x512.size a + S1x1x512.size a := by
  show i ∈ ((View.whole main_v32_2).slice (win1_11.rect t)).set ↔ _
  rw [View.set_slice_whole, Rect.mem_set_unit]
  exact Iff.rfl

/-- What a core's last point writes back is the core's block of the pinball sums of the re-encoded latents. -/
theorem flushed11_eq (t : Fin cfg1.N) (hf : (cfg1.win 11).flush t = true) :
    (dat1 (V6 m ρ) c).flushed 11 t = ((cfg1.win 11).blk t).view.read (Elt Ideal) (latArr m c) := by
  have h15 : t.val % 16 = 15 := (flush1_11 t).mp hf
  have hN : cfg1.N = 32 := N1_eq
  have ht := t.isLt
  obtain ⟨-, -, -, -, -, -, -, -, -, -, -, -, -, -, -, -, -, e0, e1, e2, -⟩ := idxAcc1 t
  show (cfg1.win 11).cut (grid1.coords t) ((dat1 (V6 m ρ) c).after 11 t) = _
  rw [after1_11, (accs_eq m ρ c t.val t.isLt).2.1]
  funext j
  rw [View.read_apply]
  show (∑ x ∈ Finset.range (512 * (t.val % 16 + 1)), latF m c (j 2) (8192 * (t.val / 16) + x)) = latArr m c (((cfg1.win 11).blk t).view.emb j)
  rw [point_last _ t.val h15]
  unfold latArr latF
  dsimp only
  have hcol : ((cfg1.win 11).blk t).view.emb j 2 = j 2 := Fin.ext (by
    show win1_11.index t 2 * 512 + 1 * (j 2).val = (j 2).val
    rw [e2]; omega)
  have hk : (((cfg1.win 11).blk t).view.emb j 0).val = t.val / 16 := by
    show win1_11.index t 0 * 1 + 1 * (j 0).val = t.val / 16
    have : (j 0).val < 1 := (j 0).isLt
    rw [e0]; omega
  rw [hcol]
  refine Finset.sum_congr rfl fun r _ => ?_
  rw [rowN_core (((cfg1.win 11).blk t).view.emb j 0) r (t.val / 16) hk.symm]

/-- So the array of the latents' pinball sums ends holding each core's sums over its half of the rows. -/
theorem arr1_11' : (dat1 (V6 m ρ) c).arrAt 11 cfg1.N = latArr m c :=
  (dat1 (V6 m ρ) c).arrAt_eq_of_cover 11 (latArr m c) (flushed11_eq m ρ c) fun i => by
    have hN : cfg1.N = 32 := N1_eq
    have hi0 : (i 0).val < 2 := (i 0).isLt
    have hi1 : (i 1).val < 1 := (i 1).isLt
    have hi2 : (i 2).val < 512 := (i 2).isLt
    have hlt : 16 * (i 0).val + 15 < cfg1.N := by omega
    refine ⟨⟨16 * (i 0).val + 15, hlt⟩, (flush1_11 _).mpr (by show (16 * (i 0).val + 15) % 16 = 15; omega), ?_⟩
    obtain ⟨-, -, -, -, -, -, -, -, -, -, -, -, -, -, -, -, -, e0, e1, e2, -⟩ := idxAcc1 ⟨16 * (i 0).val + 15, hlt⟩
    rw [mem_blk11]
    intro a
    match a with
    | ⟨0, _⟩ => show win1_11.index _ 0 * 1 ≤ (i 0).val ∧ (i 0).val < win1_11.index _ 0 * 1 + 1
                rw [e0]; dsimp only; omega
    | ⟨1, _⟩ => show win1_11.index _ 1 * 1 ≤ (i 1).val ∧ (i 1).val < win1_11.index _ 1 * 1 + 1
                rw [e1]; omega
    | ⟨2, _⟩ => show win1_11.index _ 2 * 512 ≤ (i 2).val ∧ (i 2).val < win1_11.index _ 2 * 512 + 512
                rw [e2]; omega

theorem mem_blk12 (t : Fin cfg1.N) (i : S2x1x1.Idx) :
    i ∈ ((cfg1.win 12).blk t).view.set ↔ ∀ a : Fin 3, win1_12.index t a * S1x1x1.size a ≤ (i a).val ∧ (i a).val < win1_12.index t a * S1x1x1.size a + S1x1x1.size a := by
  show i ∈ ((View.whole main_v32_3).slice (win1_12.rect t)).set ↔ _
  rw [View.set_slice_whole, Rect.mem_set_unit]
  exact Iff.rfl

/-- What a core's last point writes back is the core's cross-entropy sum. -/
theorem flushed12_eq (t : Fin cfg1.N) (hf : (cfg1.win 12).flush t = true) :
    (dat1 (V6 m ρ) c).flushed 12 t = ((cfg1.win 12).blk t).view.read (Elt Ideal) (catArr m c) := by
  have h15 : t.val % 16 = 15 := (flush1_12 t).mp hf
  have hN : cfg1.N = 32 := N1_eq
  have ht := t.isLt
  obtain ⟨-, -, -, -, -, -, -, -, -, -, -, -, -, -, -, -, -, -, -, -, e0, e1, e2⟩ := idxAcc1 t
  show (cfg1.win 12).cut (grid1.coords t) ((dat1 (V6 m ρ) c).after 12 t) = _
  rw [after1_12, (accs_eq m ρ c t.val t.isLt).2.2]
  funext j
  rw [View.read_apply]
  show (∑ x ∈ Finset.range (512 * (t.val % 16 + 1)), catF m c (8192 * (t.val / 16) + x)) = catArr m c (((cfg1.win 12).blk t).view.emb j)
  rw [point_last _ t.val h15]
  unfold catArr catF
  dsimp only
  have hk : (((cfg1.win 12).blk t).view.emb j 0).val = t.val / 16 := by
    show win1_12.index t 0 * 1 + 1 * (j 0).val = t.val / 16
    have : (j 0).val < 1 := (j 0).isLt
    rw [e0]; omega
  refine Finset.sum_congr rfl fun r _ => ?_
  rw [rowN_core (((cfg1.win 12).blk t).view.emb j 0) r (t.val / 16) hk.symm]

/-- So the array of the cross-entropy sums ends holding each core's sum over its half of the rows. -/
theorem arr1_12' : (dat1 (V6 m ρ) c).arrAt 12 cfg1.N = catArr m c :=
  (dat1 (V6 m ρ) c).arrAt_eq_of_cover 12 (catArr m c) (flushed12_eq m ρ c) fun i => by
    have hN : cfg1.N = 32 := N1_eq
    have hi0 : (i 0).val < 2 := (i 0).isLt
    have hi1 : (i 1).val < 1 := (i 1).isLt
    have hi2 : (i 2).val < 1 := (i 2).isLt
    have hlt : 16 * (i 0).val + 15 < cfg1.N := by omega
    refine ⟨⟨16 * (i 0).val + 15, hlt⟩, (flush1_12 _).mpr (by show (16 * (i 0).val + 15) % 16 = 15; omega), ?_⟩
    obtain ⟨-, -, -, -, -, -, -, -, -, -, -, -, -, -, -, -, -, -, -, -, e0, e1, e2⟩ := idxAcc1 ⟨16 * (i 0).val + 15, hlt⟩
    rw [mem_blk12]
    intro a
    match a with
    | ⟨0, _⟩ => show win1_12.index _ 0 * 1 ≤ (i 0).val ∧ (i 0).val < win1_12.index _ 0 * 1 + 1
                rw [e0]; dsimp only; omega
    | ⟨1, _⟩ => show win1_12.index _ 1 * 1 ≤ (i 1).val ∧ (i 1).val < win1_12.index _ 1 * 1 + 1
                rw [e1]; omega
    | ⟨2, _⟩ => show win1_12.index _ 2 * 1 ≤ (i 2).val ∧ (i 2).val < win1_12.index _ 2 * 1 + 1
                rw [e2]; omega

end

end Cert.KernelIdeal.KV

end
-- ==== Proof.KReg1.lean ====
/-
  The second region, read as values. Its 32 grid points are 2 cores × 16 steps; point (k, i) is handed rows
  (16k + i)·512 … . Each point writes its 512 rows' mean squared distances into its own stretch of the one-row result. The
  three accumulators are the core's own blocks and stay in place over the core's 16 points: by induction on the point each
  holds the sum over the rows seen so far, and after the core's last point the sum over the core's 8192 rows. The fused
  weight's first 2048 columns give the reconstruction, its next 50 the class scores.
-/
import proofs.«423489_j79242146611896_3_alg».proof.Proof.KBody1a
import proofs.«423489_j79242146611896_3_alg».proof.Proof.KBody1b
import proofs.«423489_j79242146611896_3_alg».proof.Proof.KHostB
import proofs.«423489_j79242146611896_3_alg».proof.Proof.KReg1Row
import proofs.«423489_j79242146611896_3_alg».proof.Proof.KReg1Acc
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

section
variable (m : (ℓ : Loc nD τ sig) → Buf (Elt Ideal) ℓ) (ρ : Dev nD → PrngReg) (c : Dev nD)

theorem arr1_9 : (dat1 (V6 m ρ) c).arrAt 9 cfg1.N = rowArr m c := arr1_9' m ρ c

theorem arr1_10 : (dat1 (V6 m ρ) c).arrAt 10 cfg1.N = recArr m c := arr1_10' m ρ c

theorem arr1_11 : (dat1 (V6 m ρ) c).arrAt 11 cfg1.N = latArr m c := arr1_11' m ρ c

theorem arr1_12 : (dat1 (V6 m ρ) c).arrAt 12 cfg1.N = catArr m c := arr1_12' m ρ c

end

end Cert.KernelIdeal.KV

end
-- ==== Proof.KHostC.lean ====
/-
  After the second region: the two cores' accumulators are added, summed and divided by the three counts, and the scalar
  so obtained is added to every row's mean squared distance. Split by core, the sums over the 16384 rows are the two
  cores' sums.
-/
import proofs.«423489_j79242146611896_3_alg».proof.Proof.KReg1
import proofs.«423489_j79242146611896_3_alg».proof.Proof.KSum
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)
open Cert.Spec (c09 c512 absE)

namespace HostC

/-! ## The last host stretch as one function of the four arrays the second region leaves -/

/-- The two cores' slabs of a [2, 1, n] accumulator, each read as a [1, n] row, added, and summed over every index from 0. -/
def accSum {n : Nat} (r : Vec Ideal ⟨3, ![2, 1, n]⟩ .f32)
    (hs0 : (⟨3, ![2, 1, n]⟩ : Shape).Slices ![0, 0, 0] ⟨3, ![1, 1, n]⟩)
    (hs1 : (⟨3, ![2, 1, n]⟩ : Shape).Slices ![1, 0, 0] ⟨3, ![1, 1, n]⟩)
    (hc : (⟨3, ![1, 1, n]⟩ : Shape).ShapeCasts ⟨2, ![1, n]⟩)
    (hred : (⟨2, ![1, n]⟩ : Shape).ReducesTo [0, 1] S_) (hu : 0 < S_.numel) : Vec Ideal S_ .f32 :=
  Host.reduceAdd (F := Ideal)
    (addf (F := Ideal)
      (fun i => shapeCast ⟨2, ![1, n]⟩ (extractStridedSlice ⟨3, ![1, 1, n]⟩ ![0, 0, 0] r hs0) hc i)
      (fun i => shapeCast ⟨2, ![1, n]⟩ (extractStridedSlice ⟨3, ![1, 1, n]⟩ ![1, 0, 0] r hs1) hc i))
    (constant (F := Ideal) S_ .f32 0x00000000#32) hred hu

section Tail
variable (a : Vec Ideal S1x16384 .f32) (r : Vec Ideal S2x1x2048 .f32) (l : Vec Ideal S2x1x512 .f32) (k : Vec Ideal S2x1x1 .f32)

/-- The rows' distances as a vector, plus the scalar made of the three accumulators: each one's two slabs added and
    summed, divided by its count; the three quotients added. -/
def tailC : Vec Ideal S16384 .f32 :=
  addf (F := Ideal) (fun i => shapeCast S16384 a shapeCasts_S1x16384_S16384 i)
    (broadcastInDim S16384 ![] bcast_S_S16384
      (addf (F := Ideal)
        (addf (F := Ideal)
          (Host.divf (F := Ideal)
            (accSum r slices_S2x1x2048_S1x1x2048_0_0_0 slices_S2x1x2048_S1x1x2048_1_0_0 shapeCasts_S1x1x2048_S1x2048 reducesTo_S1x2048_S_d0_1 h_S_)
            (constant (F := Ideal) S_ .f32 0x4C000000#32))
          (Host.divf (F := Ideal)
            (accSum l slices_S2x1x512_S1x1x512_0_0_0 slices_S2x1x512_S1x1x512_1_0_0 shapeCasts_S1x1x512_S1x512 reducesTo_S1x512_S_d0_1 h_S_)
            (constant (F := Ideal) S_ .f32 0x4B000000#32)))
        (Host.divf (F := Ideal)
          (accSum k slices_S2x1x1_S1x1x1_0_0_0 slices_S2x1x1_S1x1x1_1_0_0 shapeCasts_S1x1x1_S1x1 reducesTo_S1x1_S_d0_1 h_S_)
          (constant (F := Ideal) S_ .f32 0x46800000#32))))

end Tail

/-! ## The stretch's layout operations at an index -/

/-- A [1, n] row read as a vector. -/
theorem rowCast_apply {n : Nat} (a : (⟨2, ![1, n]⟩ : Shape).Idx → EReal)
    (h : (⟨2, ![1, n]⟩ : Shape).ShapeCasts ⟨1, ![n]⟩) (i : Fin n) :
    shapeCast ⟨1, ![n]⟩ a h (ix1 i) = a (ix2 0 i) := by
  refine shapeCast_apply a h (ix1 i) (ix2 0 i) ?_
  rw [Shape.rowMajor_val_two, Shape.rowMajor_val_one]
  show 0 * n + i.val = i.val
  omega

/-- Core q's slab of a [2, 1, n] array, read as a [1, n] row: column t of it is the array at (q, 0, t). -/
theorem slab_apply {n : Nat} (off : Fin 3 → Nat) (q : Fin 2) (h0 : off 0 = q.val) (h1 : off 1 = 0) (h2 : off 2 = 0)
    (r : (⟨3, ![2, 1, n]⟩ : Shape).Idx → EReal)
    (hs : (⟨3, ![2, 1, n]⟩ : Shape).Slices off ⟨3, ![1, 1, n]⟩)
    (hc : (⟨3, ![1, 1, n]⟩ : Shape).ShapeCasts ⟨2, ![1, n]⟩) (t : Fin n) :
    shapeCast ⟨2, ![1, n]⟩ (extractStridedSlice ⟨3, ![1, 1, n]⟩ off r hs) hc (ix2 0 t) = r (ix3 q 0 t) := by
  refine (shapeCast_apply _ hc (ix2 0 t) (ix3 0 0 t) ?_).trans ?_
  · rw [Shape.rowMajor_val_three, Shape.rowMajor_val_two]
    show (0 * 1 + 0) * n + t.val = 0 * n + t.val
    omega
  · refine extractStridedSlice_apply off r hs (ix3 0 0 t) (ix3 q 0 t) fun a => ?_
    match a with
    | ⟨0, _⟩ => show q.val = off 0 + 0; omega
    | ⟨1, _⟩ => show 0 = off 1 + 0; omega
    | ⟨2, _⟩ => show t.val = off 2 + t.val; omega

/-- A scalar spread over a vector is that scalar at every index. -/
theorem bcast0_apply (x : S_.Idx → EReal) (h : S_.BroadcastsInDim S16384 (![] : Fin 0 → Fin S16384.rank)) (j : S16384.Idx) :
    broadcastInDim S16384 ![] h x j = x ix0 :=
  broadcastInDim_apply _ h x j ix0 fun a => a.elim0

/-- A sum over every axis, from the constant 0, is the sum over every index. -/
theorem sumAll_apply {s : Shape} (x : s.Idx → EReal) {axes : List (Fin s.rank)} (h : s.ReducesTo axes S_) (hu : 0 < S_.numel)
    (j : S_.Idx) :
    Host.reduceAdd (F := Ideal) (φ := .f32) x (constant (F := Ideal) S_ .f32 0x00000000#32) h hu j = ∑ i : s.Idx, x i := by
  refine (Ideal.hostReduceAdd_total h (fun b => b.elim0) x _ j).trans ?_
  rw [constant_apply, Ideal.ofBits_zero_f32, zero_add]

/-- A sum over a [1, n] row is the sum over its n columns. -/
theorem sum_row {n : Nat} (f : (⟨2, ![1, n]⟩ : Shape).Idx → EReal) : ∑ i, f i = ∑ t : Fin n, f (ix2 0 t) := by
  rw [sum_idx2, Fin.sum_univ_one]

/-- That scalar is the sum over the n columns of the two cores' entries. -/
theorem accSum_apply {n : Nat} (r : Vec Ideal ⟨3, ![2, 1, n]⟩ .f32)
    (hs0 : (⟨3, ![2, 1, n]⟩ : Shape).Slices ![0, 0, 0] ⟨3, ![1, 1, n]⟩)
    (hs1 : (⟨3, ![2, 1, n]⟩ : Shape).Slices ![1, 0, 0] ⟨3, ![1, 1, n]⟩)
    (hc : (⟨3, ![1, 1, n]⟩ : Shape).ShapeCasts ⟨2, ![1, n]⟩)
    (hred : (⟨2, ![1, n]⟩ : Shape).ReducesTo [0, 1] S_) (hu : 0 < S_.numel) (j : S_.Idx) :
    accSum r hs0 hs1 hc hred hu j = ∑ t : Fin n, (r (ix3 0 0 t) + r (ix3 1 0 t)) := by
  unfold accSum
  refine (sumAll_apply _ hred hu j).trans ((sum_row _).trans (Finset.sum_congr rfl fun t _ => ?_))
  exact congrArg₂ (· + ·) (slab_apply ![0, 0, 0] 0 rfl rfl rfl r hs0 hc t) (slab_apply ![1, 0, 0] 1 rfl rfl rfl r hs1 hc t)

section TailAt
variable (a : Vec Ideal S1x16384 .f32) (r : Vec Ideal S2x1x2048 .f32) (l : Vec Ideal S2x1x512 .f32) (k : Vec Ideal S2x1x1 .f32)

/-- The stretch at row n: the row's entry plus the three quotients, each sum running over the columns of both cores' slabs. -/
theorem tailC_apply (n : Fin 16384) :
    tailC a r l k (ix1 n) = a (ix2 0 n)
      + ((Ideal.div (∑ t : Fin 2048, (r (ix3 0 0 t) + r (ix3 1 0 t))) Spec.cNT
          + Ideal.div (∑ d : Fin 512, (l (ix3 0 0 d) + l (ix3 1 0 d))) Spec.cND)
         + Ideal.div (k (ix3 0 0 0) + k (ix3 1 0 0)) Spec.c16384) := by
  unfold tailC
  refine (congrArg₂ (· + ·) (rowCast_apply a shapeCasts_S1x16384_S16384 n) (bcast0_apply _ bcast_S_S16384 (ix1 n))).trans ?_
  show a (ix2 0 n) + ((Ideal.div (accSum r _ _ _ _ _ ix0) Spec.cNT + Ideal.div (accSum l _ _ _ _ _ ix0) Spec.cND)
    + Ideal.div (accSum k _ _ _ _ _ ix0) Spec.c16384) = _
  rw [accSum_apply, accSum_apply, accSum_apply, Fin.sum_univ_one]

end TailAt

/-! ## The run: the stretch applied to what the second region left -/

section Run
variable (m : (ℓ : Loc nD τ sig) → Buf (Elt Ideal) ℓ) (ρ : Dev nD → PrngReg) (c : Dev nD)

set_option maxHeartbeats 1000000 in
/-- The result buffer is the stretch's function of the second region's four output buffers. -/
theorem W8_v58_tail : W8 m ρ c (Proc.devRef .tc main_v58)
    = tailC (W7 m ρ c (Proc.devRef .tc main_v32_0)) (W7 m ρ c (Proc.devRef .tc main_v32_1))
        (W7 m ρ c (Proc.devRef .tc main_v32_2)) (W7 m ρ c (Proc.devRef .tc main_v32_3)) := by
  unfold W8
  after_results_simp
  rfl

/-- The four output buffers hold the second region's arrays. -/
theorem W7_v32_0 : W7 m ρ c (Proc.devRef .tc main_v32_0) = rowArr m c := (W7_arr m ρ c 9).trans (arr1_9 m ρ c)
theorem W7_v32_1 : W7 m ρ c (Proc.devRef .tc main_v32_1) = recArr m c := (W7_arr m ρ c 10).trans (arr1_10 m ρ c)
theorem W7_v32_2 : W7 m ρ c (Proc.devRef .tc main_v32_2) = latArr m c := (W7_arr m ρ c 11).trans (arr1_11 m ρ c)
theorem W7_v32_3 : W7 m ρ c (Proc.devRef .tc main_v32_3) = catArr m c := (W7_arr m ρ c 12).trans (arr1_12 m ρ c)

end Run

/-! ## The arrays at an index, and the two cores' halves joined -/

section Halves
variable (m : (ℓ : Loc nD τ sig) → Buf (Elt Ideal) ℓ) (c : Dev nD)

/-- The four arrays, each as a function on the indices of its own shape. -/
abbrev rowV : Vec Ideal S1x16384 .f32 := rowArr m c
abbrev recV : Vec Ideal S2x1x2048 .f32 := recArr m c
abbrev latV : Vec Ideal S2x1x512 .f32 := latArr m c
abbrev catV : Vec Ideal S2x1x1 .f32 := catArr m c

theorem rowArr_at (n : Fin 16384) : rowV m c (ix2 0 n) = Spec.wg (aX m c) (aLab m c) (aWe m c) (aBe m c) n := rfl

theorem recArr_at (q : Fin 2) (t : Fin 2048) : recV m c (ix3 q 0 t)
    = ∑ r : Fin 8192, c09 * absE (Spec.dec (aX m c) (aWe m c) (aBe m c) (aWd m c) (aBd m c) (rowOf q r) t - aOut m c (ix2 (rowOf q r) t)) := rfl

theorem latArr_at (q : Fin 2) (d : Fin 512) : latV m c (ix3 q 0 d)
    = ∑ r : Fin 8192, c09 * absE (Spec.reclat (aX m c) (aWe m c) (aBe m c) (aWd m c) (aBd m c) (rowOf q r) d - Spec.enc (aX m c) (aWe m c) (aBe m c) (rowOf q r) d) := rfl

theorem catArr_at (q : Fin 2) : catV m c (ix3 q 0 0)
    = ∑ r : Fin 8192, Spec.catRow (aX m c) (aCl m c) (aWe m c) (aBe m c) (aWc m c) (aBc m c) (rowOf q r) := rfl

theorem resArr_at (n : Fin 16384) : resArr m c (ix1 n)
    = Spec.total (aX m c) (aOut m c) (aCl m c) (aLab m c) (aWe m c) (aBe m c) (aWd m c) (aBd m c) (aWc m c) (aBc m c) n := rfl

/-- Column by column, the two cores' reconstruction sums add up to the sum over all rows. -/
theorem rec_halves : (∑ t : Fin 2048, (recV m c (ix3 0 0 t) + recV m c (ix3 1 0 t)))
    = Spec.recTot (aX m c) (aOut m c) (aWe m c) (aBe m c) (aWd m c) (aBd m c) := by
  unfold Spec.recTot
  refine Finset.sum_congr rfl fun t _ => ?_
  rw [recArr_at, recArr_at]
  exact (sum_rowOf fun n => c09 * absE (Spec.dec (aX m c) (aWe m c) (aBe m c) (aWd m c) (aBd m c) n t - aOut m c (ix2 n t))).symm

/-- The same for the re-encoded latents. -/
theorem lat_halves : (∑ d : Fin 512, (latV m c (ix3 0 0 d) + latV m c (ix3 1 0 d)))
    = Spec.latTot (aX m c) (aWe m c) (aBe m c) (aWd m c) (aBd m c) := by
  unfold Spec.latTot
  refine Finset.sum_congr rfl fun d _ => ?_
  rw [latArr_at, latArr_at]
  exact (sum_rowOf fun n => c09 * absE (Spec.reclat (aX m c) (aWe m c) (aBe m c) (aWd m c) (aBd m c) n d - Spec.enc (aX m c) (aWe m c) (aBe m c) n d)).symm

/-- The two cores' cross-entropy sums add up to the sum over all rows. -/
theorem cat_halves : catV m c (ix3 0 0 0) + catV m c (ix3 1 0 0)
    = ∑ n : Fin 16384, Spec.catRow (aX m c) (aCl m c) (aWe m c) (aBe m c) (aWc m c) (aBc m c) n := by
  rw [catArr_at, catArr_at]
  exact (sum_rowOf fun n => Spec.catRow (aX m c) (aCl m c) (aWe m c) (aBe m c) (aWc m c) (aBc m c) n).symm

end Halves

end HostC

open HostC

section
variable (m : (ℓ : Loc nD τ sig) → Buf (Elt Ideal) ℓ) (ρ : Dev nD → PrngReg) (c : Dev nD)

theorem W8_v58 : W8 m ρ c (Proc.devRef .tc main_v58) = resArr m c := by
  rw [W8_v58_tail m ρ c, W7_v32_0 m ρ c, W7_v32_1 m ρ c, W7_v32_2 m ρ c, W7_v32_3 m ρ c]
  funext j
  obtain ⟨n, rfl⟩ : ∃ n : Fin 16384, j = ix1 n := ⟨j 0, eq_ix1 j⟩
  refine (tailC_apply (rowV m c) (recV m c) (latV m c) (catV m c) n).trans ?_
  rw [rowArr_at, rec_halves, lat_halves, cat_halves, resArr_at]
  rfl

end

end Cert.KernelIdeal.KV

end
-- ==== Proof.RefA.lean ====
/-
  The reference's dense stages, read at an index: the latents, the reconstruction, the softmax of the class scores, the
  re-encoded reconstruction and the log of the clipped, normalised targets are Spec.lean's functions of the arguments. A
  product of matrices is the sum over the contracted index; the row maximum is a fold from −∞ (and the maximum with −∞
  again changes nothing); a row sum from 0 is the sum.
-/
import proofs.«423489_j79242146611896_3_alg».proof.Proof.Gen.ReferenceIdeal.Read
import proofs.«423489_j79242146611896_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx
open Cert.Spec (c09 c512 c16384 cNT cND absE)

variable (x0 x1 : (⟨S16384x2048, .f32⟩ : BufTy).Contents (Elt Ideal)) (x2 : (⟨S16384x50, .f32⟩ : BufTy).Contents (Elt Ideal))
  (x3 : (⟨S16384, .i32⟩ : BufTy).Contents (Elt Ideal)) (x4 : (⟨S2048x512, .f32⟩ : BufTy).Contents (Elt Ideal)) (x5 : (⟨S512, .f32⟩ : BufTy).Contents (Elt Ideal))
  (x6 : (⟨S512x2048, .f32⟩ : BufTy).Contents (Elt Ideal)) (x7 : (⟨S2048, .f32⟩ : BufTy).Contents (Elt Ideal)) (x8 : (⟨S512x50, .f32⟩ : BufTy).Contents (Elt Ideal)) (x9 : (⟨S50, .f32⟩ : BufTy).Contents (Elt Ideal))

/-! ## The latents -/

/-- The contracted index of the first product, on the left and on the right. -/
theorem lidx_v0 (n : Fin 16384) (d : Fin 512) (k : Fin 2048) : lidx_main_v0 (ix2 n d) k = ix2 n k :=
  funext fun a => Fin.ext (by match a with | ⟨0, _⟩ => rfl | ⟨1, _⟩ => rfl)
theorem ridx_v0 (n : Fin 16384) (d : Fin 512) (k : Fin 2048) : ridx_main_v0 (ix2 n d) k = ix2 k d :=
  funext fun a => Fin.ext (by match a with | ⟨0, _⟩ => rfl | ⟨1, _⟩ => rfl)
/-- The bias, spread over the rows, is read at its column. -/
theorem idx_v2 (n : Fin 16384) (d : Fin 512) : idx_main_v1 (idx_main_v2 (ix2 n d)) = ix1 d :=
  funext fun a => Fin.ext (by match a with | ⟨0, _⟩ => rfl)

theorem v4_apply (n : Fin 16384) (d : Fin 512) : val_main_v4 (F := Ideal) x0 x4 x5 (ix2 n d) = Spec.enc x0 x4 x5 n d := by
  rw [val_main_v4_apply, val_main_v3_apply, val_main_v0_apply, val_main_v2_apply, val_main_v1_apply]
  simp only [lidx_v0, ridx_v0, idx_v2, Ideal.hostUnary_tanh_def, Ideal.addf_def]
  rfl

/-! ## The reconstruction -/

theorem lidx_v5 (n : Fin 16384) (t : Fin 2048) (k : Fin 512) : lidx_main_v5 (ix2 n t) k = ix2 n k :=
  funext fun a => Fin.ext (by match a with | ⟨0, _⟩ => rfl | ⟨1, _⟩ => rfl)
theorem ridx_v5 (n : Fin 16384) (t : Fin 2048) (k : Fin 512) : ridx_main_v5 (ix2 n t) k = ix2 k t :=
  funext fun a => Fin.ext (by match a with | ⟨0, _⟩ => rfl | ⟨1, _⟩ => rfl)
theorem idx_v7 (n : Fin 16384) (t : Fin 2048) : idx_main_v6 (idx_main_v7 (ix2 n t)) = ix1 t :=
  funext fun a => Fin.ext (by match a with | ⟨0, _⟩ => rfl)

theorem v8_apply (n : Fin 16384) (t : Fin 2048) : val_main_v8 (F := Ideal) x0 x4 x5 x6 x7 (ix2 n t) = Spec.dec x0 x4 x5 x6 x7 n t := by
  rw [val_main_v8_apply, val_main_v5_apply, val_main_v7_apply, val_main_v6_apply]
  simp only [lidx_v5, ridx_v5, idx_v7, v4_apply, Ideal.addf_def]
  rfl

/-! ## The class scores, their row maximum and the softmax -/

theorem lidx_v9 (n : Fin 16384) (c : Fin 50) (k : Fin 512) : lidx_main_v9 (ix2 n c) k = ix2 n k :=
  funext fun a => Fin.ext (by match a with | ⟨0, _⟩ => rfl | ⟨1, _⟩ => rfl)
theorem ridx_v9 (n : Fin 16384) (c : Fin 50) (k : Fin 512) : ridx_main_v9 (ix2 n c) k = ix2 k c :=
  funext fun a => Fin.ext (by match a with | ⟨0, _⟩ => rfl | ⟨1, _⟩ => rfl)
theorem idx_v11 (n : Fin 16384) (c : Fin 50) : idx_main_v10 (idx_main_v11 (ix2 n c)) = ix1 c :=
  funext fun a => Fin.ext (by match a with | ⟨0, _⟩ => rfl)

/-- The class scores. -/
theorem v12_apply (n : Fin 16384) (c : Fin 50) : val_main_v12 (F := Ideal) x0 x4 x5 x8 x9 (ix2 n c) = Spec.logit x0 x4 x5 x8 x9 n c := by
  rw [val_main_v12_apply, val_main_v9_apply, val_main_v11_apply, val_main_v10_apply]
  simp only [lidx_v9, ridx_v9, idx_v11, v4_apply, Ideal.addf_def]
  rfl

/-- Row n with the class coordinate k put back is (n, k). -/
theorem lift_d1 (h : S16384x50.Reduces [1] S16384) (n : Fin 16384) (k : Fin (S16384x50.size 1)) :
    h.lift (ix1 n) k = ix2 n (⟨k.val, k.isLt⟩ : Fin 50) := by
  funext c; apply Fin.ext
  fin_cases c <;> rfl

/-- The word of −∞ is −∞. -/
theorem ofBits_ninf : Ideal.ofBits .f32 0xFF800000#32 = (⊥ : EReal) := by simp [Ideal.ofBits, Ideal.ieee]

/-- The row maximum: the fold of the maximum over the classes from −∞; the maximum with −∞ once more changes nothing. -/
theorem v15_apply (n : Fin 16384) : val_main_v15 (F := Ideal) x0 x4 x5 x8 x9 (ix1 n) = Spec.rowMax x0 x4 x5 x8 x9 n := by
  have h : S16384x50.Reduces [1] S16384 := by decide
  rw [val_main_v15_apply, val_main_v14_apply, val_main_cst_0_apply]
  unfold val_main_v13
  rw [Host.reduce_eq_fold_single FloatOps.maximumf _ _ reducesTo_S16384x50_S16384_d1 h h_S_, val_main_cst_apply]
  have hf : (val_main_v12 (F := Ideal) x0 x4 x5 x8 x9 ∘ h.lift (ix1 n)) = fun c : Fin 50 => Spec.logit x0 x4 x5 x8 x9 n c :=
    funext fun k => (congrArg (val_main_v12 (F := Ideal) x0 x4 x5 x8 x9) (lift_d1 h n k)).trans (v12_apply x0 x4 x5 x8 x9 n ⟨k.val, k.isLt⟩)
  rw [hf]
  simp only [Ideal.ofBits_def, ofBits_ninf]
  unfold Spec.rowMax
  exact max_bot_left _

theorem idx_v17 (n : Fin 16384) (c : Fin 50) : idx_main_v16 (idx_main_v17 (ix2 n c)) = ix1 n :=
  funext fun a => Fin.ext (by match a with | ⟨0, _⟩ => rfl)

/-- exp of a score less the row's maximum. -/
theorem v19_apply (n : Fin 16384) (c : Fin 50) : val_main_v19 (F := Ideal) x0 x4 x5 x8 x9 (ix2 n c) = Spec.expo x0 x4 x5 x8 x9 n c := by
  rw [val_main_v19_apply, val_main_v18_apply, val_main_v17_apply, val_main_v16_apply]
  simp only [idx_v17, v12_apply, v15_apply, Ideal.hostUnary_exp_def, Ideal.subf_def]
  rfl

theorem idx_v22 (n : Fin 16384) (c : Fin 50) : idx_main_v21 (idx_main_v22 (ix2 n c)) = ix1 n :=
  funext fun a => Fin.ext (by match a with | ⟨0, _⟩ => rfl)
theorem idx_v20 (n : Fin 16384) (c : Fin 50) : idx_main_v20 (ix1 n) c = ix2 n c :=
  funext fun a => Fin.ext (by match a with | ⟨0, _⟩ => rfl | ⟨1, _⟩ => rfl)

theorem v23_apply (n : Fin 16384) (k : Fin 50) : val_main_v23 (F := Ideal) x0 x4 x5 x8 x9 (ix2 n k) = Spec.prob x0 x4 x5 x8 x9 n k := by
  rw [val_main_v23_apply, val_main_v22_apply, val_main_v21_apply, val_main_v20_apply, val_main_cst_1_apply]
  simp only [idx_v22, idx_v20, v19_apply, Ideal.hostDivf_def, Ideal.ofBits_def, Ideal.ofBits_zero_f32, zero_add]
  rfl

/-! ## The reconstruction, encoded again -/

theorem lidx_v24 (n : Fin 16384) (d : Fin 512) (t : Fin 2048) : lidx_main_v24 (ix2 n d) t = ix2 n t :=
  funext fun a => Fin.ext (by match a with | ⟨0, _⟩ => rfl | ⟨1, _⟩ => rfl)
theorem ridx_v24 (n : Fin 16384) (d : Fin 512) (t : Fin 2048) : ridx_main_v24 (ix2 n d) t = ix2 t d :=
  funext fun a => Fin.ext (by match a with | ⟨0, _⟩ => rfl | ⟨1, _⟩ => rfl)
theorem idx_v26 (n : Fin 16384) (d : Fin 512) : idx_main_v25 (idx_main_v26 (ix2 n d)) = ix1 d :=
  funext fun a => Fin.ext (by match a with | ⟨0, _⟩ => rfl)

theorem v28_apply (n : Fin 16384) (d : Fin 512) : val_main_v28 (F := Ideal) x0 x4 x5 x6 x7 (ix2 n d) = Spec.reclat x0 x4 x5 x6 x7 n d := by
  rw [val_main_v28_apply, val_main_v27_apply, val_main_v24_apply, val_main_v26_apply, val_main_v25_apply]
  simp only [lidx_v24, ridx_v24, idx_v26, v8_apply, Ideal.hostUnary_tanh_def, Ideal.addf_def]
  rfl

/-! ## The log of the clipped, normalised targets -/

theorem idx_v82 (n : Fin 16384) (c : Fin 50) : idx_main_v81 (idx_main_v82 (ix2 n c)) = ix1 n :=
  funext fun a => Fin.ext (by match a with | ⟨0, _⟩ => rfl)
theorem idx_v80 (n : Fin 16384) (c : Fin 50) : idx_main_v80 (ix1 n) c = ix2 n c :=
  funext fun a => Fin.ext (by match a with | ⟨0, _⟩ => rfl | ⟨1, _⟩ => rfl)

theorem v85_apply (n : Fin 16384) (k : Fin 50) : val_main_v85 (F := Ideal) x2 (ix2 n k) = Spec.ly x2 n k := by
  rw [val_main_v85_apply, val_main_v84_apply, val_main_call0_v4_apply, val_main_call0_v3_apply, val_main_cst_21_apply,
    val_main_call0_v2_apply, val_main_call0_v1_apply, val_main_call0_v0_apply, val_main_cst_20_apply, val_main_v83_apply,
    val_main_v82_apply, val_main_v81_apply, val_main_v80_apply, val_main_cst_19_apply]
  simp only [idx_v82, idx_v80, Ideal.hostUnary_log_def, Ideal.minimumf_def, Ideal.maximumf_def, Ideal.hostDivf_def,
    Ideal.ofBits_def, Ideal.ofBits_zero_f32]
  rfl

end Cert.ReferenceIdeal.RefValue

end
-- ==== Proof.RefB.lean ====
/-
  The reference's per-class means, read at an index. Scattering ones, and the latents' rows, by class number adds to class
  c exactly the rows whose number is c: the counts and the class sums. Gathering the means' rows by class number (a negative
  number wrapped first, the start clamped into the table) reads, for a number that is one of the 50 classes, that class's
  row: the one the one-hot row selects. Then each row's mean squared distance.
-/
import proofs.«423489_j79242146611896_3_alg».proof.Proof.RefA
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx
open Cert.Spec (c09 c512 c16384 cNT cND absE)

variable (x0 x1 : (⟨S16384x2048, .f32⟩ : BufTy).Contents (Elt Ideal)) (x2 : (⟨S16384x50, .f32⟩ : BufTy).Contents (Elt Ideal))
  (x3 : (⟨S16384, .i32⟩ : BufTy).Contents (Elt Ideal)) (x4 : (⟨S2048x512, .f32⟩ : BufTy).Contents (Elt Ideal)) (x5 : (⟨S512, .f32⟩ : BufTy).Contents (Elt Ideal))
  (x6 : (⟨S512x2048, .f32⟩ : BufTy).Contents (Elt Ideal)) (x7 : (⟨S2048, .f32⟩ : BufTy).Contents (Elt Ideal)) (x8 : (⟨S512x50, .f32⟩ : BufTy).Contents (Elt Ideal)) (x9 : (⟨S50, .f32⟩ : BufTy).Contents (Elt Ideal))

/-! ### Words -/

/-- A 32-bit word that reads, signed, as one of the 50 class numbers is the word of a class number exactly when it reads as
    that number. -/
theorem word_eq_iff (v : BitVec 32) (h0 : 0 ≤ v.toInt) (h1 : v.toInt < 50) (c : Fin 50) :
    v = BitVec.ofNat 32 c.val ↔ v.toInt = (c.val : Int) := by
  have hc := c.isLt
  constructor
  · intro e
    rw [e, BitVec.toInt_eq_toNat_of_lt (by rw [BitVec.toNat_ofNat]; omega), BitVec.toNat_ofNat]
    omega
  · intro e
    have := BitVec.ofInt_toInt (x := v)
    rw [e, BitVec.ofInt_natCast] at this
    exact this.symm

/-! ### A scatter's landing index -/

/-- An update lands at `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h2 := h a
      have h3 : (d.start j idx a + (d.window j a : Int)).toNat = (i a).val := congrArg Fin.val (congrFun e a)
      omega
    · intro e
      funext a
      apply Fin.ext
      show (d.start j idx a + (d.window j a : Int)).toNat = (i a).val
      have := e a; omega
  · rename_i h
    constructor
    · intro e; cases e
    · intro e; exfalso; apply h; intro a; have := e a; have := (i a).isLt; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ### The two scatters' landing indices, and the gather's reading index, for these dimension numbers -/

/-- Scattering by class number into the 50 counts: row `j`'s update starts at row `j`'s class number, read signed. -/
theorem cnt_start {w : Nat} (idx : IVec S16384x1 w) (j : S16384.Idx) (a : Fin S50.rank) :
    scatter_S50_S16384x1_S16384_n_0_0_1.start j idx a = (idx (ix2 (j 0) (0 : Fin 1))).toInt := by
  obtain rfl : a = 0 := Subsingleton.elim _ _
  unfold ScatterDims.start
  rw [dif_pos (show (0 : Fin S50.rank) ∈ scatter_S50_S16384x1_S16384_n_0_0_1.scatterDimsToOperandDims from List.mem_singleton.mpr rfl)]
  refine congrArg (fun k => (idx k).toInt) (funext fun b => Fin.ext ?_)
  match b with
  | ⟨0, _⟩ => rfl
  | ⟨1, _⟩ => rfl

/-- … and has no window coordinate. -/
theorem cnt_window (j : S16384.Idx) (a : Fin S50.rank) : scatter_S50_S16384x1_S16384_n_0_0_1.window j a = 0 := by
  obtain rfl : a = 0 := Subsingleton.elim _ _
  unfold ScatterDims.window
  rw [dif_neg (by decide)]

/-- Row `j`'s one lands on class `c`'s count exactly when row `j`'s class number is `c`. -/
theorem cnt_lands {w : Nat} (idx : IVec S16384x1 w) (j : S16384.Idx) (c : Fin 50) :
    scatter_S50_S16384x1_S16384_n_0_0_1.resultIdx? j idx = some (ix1 c) ↔ (idx (ix2 (j 0) (0 : Fin 1))).toInt = (c.val : Int) := by
  rw [resultIdx?_eq_some_iff]
  constructor
  · intro e
    have := e 0
    rw [cnt_start, cnt_window] at this
    simpa using this
  · intro e a
    obtain rfl : a = 0 := Subsingleton.elim _ _
    rw [cnt_start, cnt_window]
    simpa using e

/-- Scattering the latents' rows by class number into the 50 class sums: on the class axis row `j`'s update starts at its
    class number, on the column axis at 0 … -/
theorem sums_start0 {w : Nat} (idx : IVec S16384x1 w) (j : S16384x512.Idx) :
    scatter_S50x512_S16384x1_S16384x512_1_0_0_1.start j idx 0 = (idx (ix2 (j 0) (0 : Fin 1))).toInt := by
  unfold ScatterDims.start
  rw [dif_pos (show (0 : Fin S50x512.rank) ∈ scatter_S50x512_S16384x1_S16384x512_1_0_0_1.scatterDimsToOperandDims from List.mem_singleton.mpr rfl)]
  refine congrArg (fun k => (idx k).toInt) (funext fun b => Fin.ext ?_)
  match b with
  | ⟨0, _⟩ => rfl
  | ⟨1, _⟩ => rfl
theorem sums_start1 {w : Nat} (idx : IVec S16384x1 w) (j : S16384x512.Idx) :
    scatter_S50x512_S16384x1_S16384x512_1_0_0_1.start j idx 1 = 0 := by
  unfold ScatterDims.start
  rw [dif_neg (by decide)]
/-- … and its window coordinate is 0 on the class axis and its own column on the column axis. -/
theorem sums_window0 (j : S16384x512.Idx) : scatter_S50x512_S16384x1_S16384x512_1_0_0_1.window j 0 = 0 := by
  unfold ScatterDims.window
  rw [dif_neg (by decide)]
theorem sums_window1 (j : S16384x512.Idx) : scatter_S50x512_S16384x1_S16384x512_1_0_0_1.window j 1 = (j 1).val := by
  unfold ScatterDims.window
  rw [dif_pos (by decide)]
  rfl

/-- Element `(n, d')` of the latents lands on `(c, d)` of the class sums exactly when row `n`'s class number is `c` and
    `d' = d`. -/
theorem sums_lands {w : Nat} (idx : IVec S16384x1 w) (n : Fin 16384) (d' : Fin 512) (c : Fin 50) (d : Fin 512) :
    scatter_S50x512_S16384x1_S16384x512_1_0_0_1.resultIdx? (ix2 n d') idx = some (ix2 c d)
      ↔ (idx (ix2 n (0 : Fin 1))).toInt = (c.val : Int) ∧ d' = d := by
  rw [resultIdx?_eq_some_iff]
  constructor
  · intro e
    have e0 := e 0
    have e1 := e 1
    rw [sums_start0, sums_window0] at e0
    rw [sums_start1, sums_window1] at e1
    refine ⟨by simpa using e0, Fin.ext ?_⟩
    have : ((d'.val : Int)) = (d.val : Int) := by simpa using e1
    exact_mod_cast this
  · rintro ⟨e, rfl⟩ a
    match a with
    | ⟨0, _⟩ =>
      show scatter_S50x512_S16384x1_S16384x512_1_0_0_1.start (ix2 n d') idx 0 + (scatter_S50x512_S16384x1_S16384x512_1_0_0_1.window (ix2 n d') 0 : Int) = _
      rw [sums_start0, sums_window0]
      simpa using e
    | ⟨1, _⟩ =>
      show scatter_S50x512_S16384x1_S16384x512_1_0_0_1.start (ix2 n d') idx 1 + (scatter_S50x512_S16384x1_S16384x512_1_0_0_1.window (ix2 n d') 1 : Int) = _
      rw [sums_start1, sums_window1]
      simp

/-- Gathering rows of the 50 class means by class number: result `(n, d)` reads row (row `n`'s number, read signed and
    clamped into the table) at column `d`. -/
theorem means_reads {α : Type} {w : Nat} (x : S50x512.Idx → α) (idx : IVec S16384x1 w) (n : Fin 16384) (d : Fin 512) :
    Host.gather gather_S50x512_S16384x1_S16384x512_1_0_n_n_0_1_1512 x idx (ix2 n d)
      = x (ix2 (⟨min (idx (ix2 n (0 : Fin 1))).toInt.toNat 49, by omega⟩ : Fin 50) d) := by
  unfold Host.gather
  congr 1
  funext a
  refine Fin.ext ?_
  match a with
  | ⟨0, _⟩ =>
    show gather_S50x512_S16384x1_S16384x512_1_0_n_n_0_1_1512.start (ix2 n d) idx 0 + gather_S50x512_S16384x1_S16384x512_1_0_n_n_0_1_1512.batchCoord (ix2 n d) 0
      + gather_S50x512_S16384x1_S16384x512_1_0_n_n_0_1_1512.offCoord (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50x512.rank) ∈ gather_S50x512_S16384x1_S16384x512_1_0_n_n_0_1_1512.startIndexMap from List.mem_singleton.mpr rfl)]
    have hsi : gather_S50x512_S16384x1_S16384x512_1_0_n_n_0_1_1512.siIdx (ix2 n d) ⟨List.idxOf (0 : Fin S50x512.rank) gather_S50x512_S16384x1_S16384x512_1_0_n_n_0_1_1512.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S50x512_S16384x1_S16384x512_1_0_n_n_0_1_1512.start (ix2 n d) idx 1 + gather_S50x512_S16384x1_S16384x512_1_0_n_n_0_1_1512.batchCoord (ix2 n d) 1
      + gather_S50x512_S16384x1_S16384x512_1_0_n_n_0_1_1512.offCoord (ix2 n d) 1 = _
    rw [GatherDims.batchCoord_eq_zero _ _ _ List.not_mem_nil]
    unfold GatherDims.start GatherDims.offCoord
    rw [dif_neg (by decide), dif_pos (by decide)]
    simp only [Nat.zero_add]
    rfl

/-! ### The two scatters and the gather, at an index -/

/-- The 50 counts' scatter at class `c`: the operand's element plus the updates of the rows whose class number is `c`. -/
theorem cnt_scatter (x : FVec Ideal S50 .f32) (idx : IVec S16384x1 32) (upd : FVec Ideal S16384 .f32) (c : Fin 50) :
    Host.scatterAdd (F := Ideal) (φ := .f32) scatter_S50_S16384x1_S16384_n_0_0_1 x idx upd (ix1 c)
      = x (ix1 c) + ∑ n : Fin 16384, if (idx (ix2 n (0 : Fin 1))).toInt = (c.val : Int) then upd (ix1 n) else 0 := by
  simp only [Host.scatterAdd, Ideal.hostScatterAdd_def]
  unfold Ideal.hostScatterAdd
  rw [Finset.sum_filter, sum_idx1]
  refine congrArg (x (ix1 c) + ·) (Finset.sum_congr rfl fun n _ => ?_)
  have key := cnt_lands idx (ix1 n) c
  by_cases hc : (idx (ix2 n (0 : Fin 1))).toInt = (c.val : Int)
  · rw [if_pos (key.mpr hc), if_pos hc]
  · rw [if_neg (mt key.mp hc), if_neg hc]

/-- The class sums' scatter at `(c, d)`: the operand's element plus column `d` of the update rows whose class number is `c`. -/
theorem sums_scatter (x : FVec Ideal S50x512 .f32) (idx : IVec S16384x1 32) (upd : FVec Ideal S16384x512 .f32) (c : Fin 50) (d : Fin 512) :
    Host.scatterAdd (F := Ideal) (φ := .f32) scatter_S50x512_S16384x1_S16384x512_1_0_0_1 x idx upd (ix2 c d)
      = x (ix2 c d) + ∑ n : Fin 16384, if (idx (ix2 n (0 : Fin 1))).toInt = (c.val : Int) then upd (ix2 n d) else 0 := by
  simp only [Host.scatterAdd, Ideal.hostScatterAdd_def]
  unfold Ideal.hostScatterAdd
  rw [Finset.sum_filter, sum_idx2]
  refine congrArg (x (ix2 c d) + ·) (Finset.sum_congr rfl fun n _ => ?_)
  rw [Finset.sum_eq_single d]
  · have key := sums_lands idx n d c d
    by_cases hc : (idx (ix2 n (0 : Fin 1))).toInt = (c.val : Int)
    · rw [if_pos (key.mpr ⟨hc, rfl⟩), if_pos hc]
    · rw [if_neg (fun hl => hc (key.mp hl).1), if_neg hc]
  · intro d' _ hne
    exact if_neg fun hl => hne ((sums_lands idx n d' c d).mp hl).2
  · intro hd
    exact absurd (Finset.mem_univ d) hd

/-! ### The stages -/

/-- The index the class numbers' column reads: row `n`. -/
theorem idx_v31 (n : Fin 16384) : idx_main_v31 (ix2 n (0 : Fin 1)) = ix1 n := funext fun a => match a with | ⟨0, _⟩ => rfl
theorem idx_v34 (n : Fin 16384) : idx_main_v34 (ix2 n (0 : Fin 1)) = ix1 n := funext fun a => match a with | ⟨0, _⟩ => rfl
theorem idx_v46 (n : Fin 16384) : idx_main_v46 (ix2 n (0 : Fin 1)) = ix1 n := funext fun a => match a with | ⟨0, _⟩ => rfl
/-- The index the broadcast divisor reads: class `c`. -/
theorem idx_v39_38 (c : Fin 50) (d : Fin 512) : idx_main_v38 (idx_main_v39 (ix2 c d)) = ix1 c := funext fun a => match a with | ⟨0, _⟩ => rfl
/-- The index row `n`'s sum reads: `(n, k)`. -/
theorem idx_v94 (n : Fin 16384) (k : Fin 512) : idx_main_v94 (ix1 n) k = ix2 n k :=
  funext fun a => match a with | ⟨0, _⟩ => rfl | ⟨1, _⟩ => rfl

/-- The word 1.0 is 1. -/
theorem one_word : Ideal.ofBits .f32 0x3F800000#32 = 1 := IdealRules.sign_bit.ideal_onePat .f32

/-- A class number in range is the word of class `c` exactly when it reads, signed, as `c`. -/
theorem oh_eq (h : Spec.LabOK x3) (n : Fin 16384) (c : Fin 50) :
    Spec.oh x3 n c = if (x3 (ix1 n)).toInt = (c.val : Int) then 1 else 0 := by
  unfold Spec.oh
  have key := word_eq_iff (x3 (ix1 n)) (h n).1 (h n).2 c
  by_cases hc : (x3 (ix1 n)).toInt = (c.val : Int)
  · rw [if_pos (key.mpr hc), if_pos hc]
  · rw [if_neg (mt key.mp hc), if_neg hc]

/-- The counts. -/
theorem v32_apply (h : Spec.LabOK x3) (c : Fin 50) : val_main_v32 (F := Ideal) x3 (ix1 c) = Spec.cnt x3 c := by
  unfold val_main_v32
  rw [cnt_scatter, val_main_v30_apply, val_main_cst_3_apply, Ideal.ofBits_def, Ideal.ofBits_zero_f32, zero_add]
  unfold Spec.cnt
  refine Finset.sum_congr rfl fun n _ => ?_
  rw [oh_eq x3 h, val_main_v31_apply, idx_v31, val_main_v29_apply, val_main_cst_2_apply, Ideal.ofBits_def, one_word]

/-- The class sums. -/
theorem v35_apply (h : Spec.LabOK x3) (c : Fin 50) (d : Fin 512) :
    val_main_v35 (F := Ideal) x0 x3 x4 x5 (ix2 c d) = Spec.sums x0 x3 x4 x5 c d := by
  unfold val_main_v35
  rw [sums_scatter, val_main_v33_apply, val_main_cst_4_apply, Ideal.ofBits_def, Ideal.ofBits_zero_f32, zero_add]
  unfold Spec.sums
  refine Finset.sum_congr rfl fun n _ => ?_
  rw [oh_eq x3 h, val_main_v34_apply, idx_v34, v4_apply, ite_mul, one_mul, zero_mul]

/-- The class means. -/
theorem v40_apply (h : Spec.LabOK x3) (c : Fin 50) (d : Fin 512) :
    val_main_v40 (F := Ideal) x0 x3 x4 x5 (ix2 c d) = Spec.mean x0 x3 x4 x5 c d := by
  rw [val_main_v40_apply, val_main_v39_apply, val_main_v38_apply, idx_v39_38, val_main_v37_apply, val_main_v36_apply,
    val_main_cst_5_apply, v35_apply x0 x3 x4 x5 h, v32_apply x3 h, Ideal.ofBits_def, one_word, Ideal.hostDivf_def, Ideal.maximumf_def]
  rfl

/-- A class number in range is not negative, so it is not wrapped. -/
theorem v45_apply (h : Spec.LabOK x3) (n : Fin 16384) : val_main_v45 (F := Ideal) x3 (ix1 n) = x3 (ix1 n) := by
  rw [val_main_v45_apply, val_main_v42_apply, val_main_v41_apply, val_main_c_apply]
  have hs : IntOp.cmpi .slt (x3 (ix1 n)) 0#32 = 0#1 := by
    have h0 := (h n).1
    have : (x3 (ix1 n)).slt 0#32 = false := by
      rw [BitVec.slt_eq_decide, BitVec.toInt_zero, decide_eq_false_iff_not, not_lt]
      exact h0
    unfold IntOp.cmpi
    simp only [this]
    rfl
  rw [hs, select_zero]

/-- … so, for a start index that clamps to class `c`, row `c`. -/
theorem means_reads_of {α : Type} {w : Nat} (x : S50x512.Idx → α) (idx : IVec S16384x1 w) (n : Fin 16384) (d : Fin 512) (c : Fin 50)
    (hc : min (idx (ix2 n (0 : Fin 1))).toInt.toNat 49 = c.val) :
    Host.gather gather_S50x512_S16384x1_S16384x512_1_0_n_n_0_1_1512 x idx (ix2 n d) = x (ix2 c d) := by
  rw [means_reads]
  exact congrArg (fun k => x (ix2 k d)) (Fin.ext hc)

/-- The gathered class means: row `n` reads the means' row of its own class, the one its one-hot row selects. -/
theorem v47_apply (h : Spec.LabOK x3) (n : Fin 16384) (d : Fin 512) : val_main_v47 (F := Ideal) x0 x3 x4 x5 (ix2 n d) = Spec.meanRow x0 x3 x4 x5 n d := by
  obtain ⟨h0, h1⟩ := h n
  let c₀ : Fin 50 := ⟨(x3 (ix1 n)).toInt.toNat, by omega⟩
  unfold val_main_v47
  rw [means_reads_of _ _ n d c₀ (by rw [val_main_v46_apply, idx_v46, v45_apply x3 h]; show min _ 49 = (x3 (ix1 n)).toInt.toNat; omega),
    v40_apply x0 x3 x4 x5 h]
  unfold Spec.meanRow
  rw [Finset.sum_eq_single c₀]
  · rw [oh_eq x3 h, if_pos (by show _ = (((x3 (ix1 n)).toInt.toNat : Nat) : Int); omega), one_mul]
  · intro c _ hne
    rw [oh_eq x3 h, if_neg, zero_mul]
    intro e
    exact hne (Fin.ext (by show c.val = (x3 (ix1 n)).toInt.toNat; omega))
  · intro hd
    exact absurd (Finset.mem_univ _) hd

/-- Each row's mean squared distance from its class mean. -/
theorem v96_apply (h : Spec.LabOK x3) (n : Fin 16384) : val_main_v96 (F := Ideal) x0 x3 x4 x5 (ix1 n) = Spec.wg x0 x3 x4 x5 n := by
  rw [val_main_v96_apply, val_main_v94_apply, val_main_v95_apply, val_main_cst_28_apply, val_main_cst_27_apply, Ideal.ofBits_def,
    Ideal.ofBits_def, Ideal.ofBits_zero_f32, zero_add, Ideal.hostDivf_def]
  unfold Spec.wg
  refine congrArg (Ideal.div · c512) (Finset.sum_congr rfl fun k _ => ?_)
  rw [idx_v94, val_main_v49_apply, val_main_v48_apply, v4_apply, v47_apply x0 x3 x4 x5 h, Ideal.mulf_def, Ideal.subf_def]

end Cert.ReferenceIdeal.RefValue

end
-- ==== Proof.RefC.lean ====
/-
  The reference's three means and its result. With a the f32 nearest 0.1 and b the f32 nearest 0.9 (a < b), the larger of
  max (a·z, −b·z) and max (b·z, −a·z) is b·|z| for every extended real z. The mean over the columns of the means over the
  rows is the grand sum over 2¹⁴·2¹¹ = 2²⁵ (and over 2¹⁴·2⁹ = 2²³): division by a nonzero real is multiplication by its
  inverse, and a finite nonnegative factor distributes over every finite sum of extended reals. The result adds the row's
  mean squared distance to the three means.
-/
import proofs.«423489_j79242146611896_3_alg».proof.Proof.RefA
import proofs.«423489_j79242146611896_3_alg».proof.Proof.RefB
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx
open Cert.Spec (c09 c512 c16384 cNT cND absE)

/-! ## The f32 words, as real numbers -/

/-- 0x3DCCCCCD is 13421773 · 2⁻²⁷, the f32 nearest 0.1. -/
theorem word_a : Ideal.ofBits .f32 0x3DCCCCCD#32 = ((13421773 / 134217728 : ℝ) : EReal) := by
  simp [Ideal.ofBits, Ideal.ieee, -EReal.coe_mul] <;> norm_num
/-- 0x3F666666 is 15099494 · 2⁻²⁴, the f32 nearest 0.9. -/
theorem word_b : Ideal.ofBits .f32 0x3F666666#32 = ((15099494 / 16777216 : ℝ) : EReal) := by
  simp [Ideal.ofBits, Ideal.ieee, -EReal.coe_mul] <;> norm_num
/-- 0xBDCCCCCD is the negative of 0x3DCCCCCD. -/
theorem word_na : Ideal.ofBits .f32 0xBDCCCCCD#32 = ((-(13421773 / 134217728) : ℝ) : EReal) := by
  simp [Ideal.ofBits, Ideal.ieee, -EReal.coe_mul] <;> norm_num
/-- 0xBF666666 is the negative of 0x3F666666. -/
theorem word_nb : Ideal.ofBits .f32 0xBF666666#32 = ((-(15099494 / 16777216) : ℝ) : EReal) := by
  simp [Ideal.ofBits, Ideal.ieee, -EReal.coe_mul] <;> norm_num
theorem word_16384 : Ideal.ofBits .f32 0x46800000#32 = ((16384 : ℝ) : EReal) := by
  simp [Ideal.ofBits, Ideal.ieee, -EReal.coe_mul] <;> norm_num
theorem word_2048 : Ideal.ofBits .f32 0x45000000#32 = ((2048 : ℝ) : EReal) := by
  simp [Ideal.ofBits, Ideal.ieee, -EReal.coe_mul] <;> norm_num
theorem word_512 : Ideal.ofBits .f32 0x44000000#32 = ((512 : ℝ) : EReal) := by
  simp [Ideal.ofBits, Ideal.ieee, -EReal.coe_mul] <;> norm_num
/-- 0x4C000000 is 2²⁵. -/
theorem word_NT : Ideal.ofBits .f32 0x4C000000#32 = ((33554432 : ℝ) : EReal) := by
  simp [Ideal.ofBits, Ideal.ieee, -EReal.coe_mul] <;> norm_num
/-- 0x4B000000 is 2²³. -/
theorem word_ND : Ideal.ofBits .f32 0x4B000000#32 = ((8388608 : ℝ) : EReal) := by
  simp [Ideal.ofBits, Ideal.ieee, -EReal.coe_mul] <;> norm_num
theorem word_0 : Ideal.ofBits .f32 0x00000000#32 = (0 : EReal) := by
  simp [Ideal.ofBits, Ideal.ieee]

/-! ## The pinball term -/

/-- The inclusion of the reals is monotone, so it keeps a maximum. -/
theorem coe_max' (x y : ℝ) : ((max x y : ℝ) : EReal) = max (x : EReal) (y : EReal) :=
  EReal.coe_strictMono.monotone.map_max

/-- For reals 0 < a ≤ b the larger of max (a·z) (−b·z) and max (b·z) (−a·z) is b·|z|, at every extended real z: at ±∞
    both sides are +∞; at a real z ≥ 0 the four products are ordered −b·z ≤ −a·z ≤ a·z ≤ b·z, at z ≤ 0 the other way. -/
theorem pinball_real {a b : ℝ} (ha : 0 < a) (hab : a ≤ b) (z : EReal) :
    max (max ((a : EReal) * z) (((-b : ℝ) : EReal) * z)) (max ((b : EReal) * z) (((-a : ℝ) : EReal) * z))
      = (b : EReal) * max z (-z) := by
  have hb : 0 < b := lt_of_lt_of_le ha hab
  induction z using EReal.rec with
  | bot =>
    rw [EReal.coe_mul_bot_of_pos ha, EReal.coe_mul_bot_of_pos hb, EReal.coe_mul_bot_of_neg (neg_neg_of_pos ha),
      EReal.coe_mul_bot_of_neg (neg_neg_of_pos hb), EReal.neg_bot]
    simp [EReal.coe_mul_top_of_pos hb]
  | top =>
    rw [EReal.coe_mul_top_of_pos ha, EReal.coe_mul_top_of_pos hb, EReal.coe_mul_top_of_neg (neg_neg_of_pos ha),
      EReal.coe_mul_top_of_neg (neg_neg_of_pos hb), EReal.neg_top]
    simp [EReal.coe_mul_top_of_pos hb]
  | coe r =>
    rw [← EReal.coe_neg r, ← EReal.coe_mul, ← EReal.coe_mul, ← EReal.coe_mul, ← EReal.coe_mul, ← coe_max',
      ← coe_max', ← coe_max', ← coe_max', ← EReal.coe_mul]
    congr 1
    rcases le_total 0 r with hr | hr
    · have h1 : a * r ≤ b * r := mul_le_mul_of_nonneg_right hab hr
      have h2 : -b * r ≤ a * r := by nlinarith
      have h3 : -a * r ≤ b * r := by nlinarith
      rw [max_eq_left h2, max_eq_left h3, max_eq_right h1, max_eq_left (by linarith : -r ≤ r)]
    · have h1 : b * r ≤ a * r := mul_le_mul_of_nonpos_right hab hr
      have h2 : a * r ≤ -b * r := by nlinarith
      have h3 : b * r ≤ -a * r := by nlinarith
      have h4 : -a * r ≤ -b * r := by nlinarith
      rw [max_eq_right h2, max_eq_right h3, max_eq_left h4, max_eq_right (by linarith : r ≤ -r)]
      ring

/-- The pinball term on the four words both programs carry. -/
theorem pinball_words (z : EReal) :
    max (max (Ideal.ofBits .f32 0x3DCCCCCD#32 * z) (Ideal.ofBits .f32 0xBF666666#32 * z))
        (max (Ideal.ofBits .f32 0x3F666666#32 * z) (Ideal.ofBits .f32 0xBDCCCCCD#32 * z))
      = c09 * absE z := by
  show _ = Ideal.ofBits .f32 0x3F666666#32 * max z (-z)
  rw [word_a, word_b, word_na, word_nb]
  exact pinball_real (by norm_num) (by norm_num) z

/-- A finite nonnegative constant factor goes through a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi,
      EReal.right_distrib_of_nonneg_of_ne_top (EReal.coe_nonneg.mpr hc) (EReal.coe_ne_top c), ih]

/-- A sum over a rank-1 index set is the sum over its coordinate. -/
theorem sum_idx1_c {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

variable (x0 x1 : (⟨S16384x2048, .f32⟩ : BufTy).Contents (Elt Ideal)) (x2 : (⟨S16384x50, .f32⟩ : BufTy).Contents (Elt Ideal))
  (x3 : (⟨S16384, .i32⟩ : BufTy).Contents (Elt Ideal)) (x4 : (⟨S2048x512, .f32⟩ : BufTy).Contents (Elt Ideal)) (x5 : (⟨S512, .f32⟩ : BufTy).Contents (Elt Ideal))
  (x6 : (⟨S512x2048, .f32⟩ : BufTy).Contents (Elt Ideal)) (x7 : (⟨S2048, .f32⟩ : BufTy).Contents (Elt Ideal)) (x8 : (⟨S512x50, .f32⟩ : BufTy).Contents (Elt Ideal)) (x9 : (⟨S50, .f32⟩ : BufTy).Contents (Elt Ideal))

theorem v62_apply (n : Fin 16384) (t : Fin 2048) : val_main_v62 (F := Ideal) x0 x1 x4 x5 x6 x7 (ix2 n t) = c09 * absE (Spec.dec x0 x4 x5 x6 x7 n t - x1 (ix2 n t)) := by
  rw [val_main_v62_apply, val_main_v56_apply, val_main_v61_apply, val_main_v53_apply, val_main_v55_apply, val_main_v58_apply,
    val_main_v60_apply, val_main_v52_apply, val_main_v54_apply, val_main_v57_apply, val_main_v59_apply, val_main_cst_7_apply,
    val_main_cst_8_apply, val_main_cst_9_apply, val_main_cst_10_apply, val_main_v50_apply, v8_apply]
  exact pinball_words _

theorem v76_apply (n : Fin 16384) (d : Fin 512) : val_main_v76 (F := Ideal) x0 x4 x5 x6 x7 (ix2 n d) = c09 * absE (Spec.reclat x0 x4 x5 x6 x7 n d - Spec.enc x0 x4 x5 n d) := by
  rw [val_main_v76_apply, val_main_v70_apply, val_main_v75_apply, val_main_v67_apply, val_main_v69_apply, val_main_v72_apply,
    val_main_v74_apply, val_main_v66_apply, val_main_v68_apply, val_main_v71_apply, val_main_v73_apply, val_main_cst_13_apply,
    val_main_cst_14_apply, val_main_cst_15_apply, val_main_cst_16_apply, val_main_v51_apply, v28_apply, v4_apply]
  exact pinball_words _

/-- Column t's mean over the rows: the column's pinball sum times 2⁻¹⁴. -/
theorem v65_at (t : Fin 2048) : val_main_v65 (F := Ideal) x0 x1 x4 x5 x6 x7 (ix1 t)
    = (∑ n : Fin 16384, c09 * absE (Spec.dec x0 x4 x5 x6 x7 n t - x1 (ix2 n t))) * ((1 / 16384 : ℝ) : EReal) := by
  rw [val_main_v65_apply, val_main_v63_apply, val_main_v64_apply, val_main_cst_11_apply, val_main_cst_12_apply]
  simp only [Ideal.hostDivf_def, Ideal.ofBits_def]
  rw [word_0, word_16384, zero_add, Ideal.div_coe (y := 16384) (by norm_num)]
  have hs : ∑ k : Fin 16384, val_main_v62 (F := Ideal) x0 x1 x4 x5 x6 x7 (idx_main_v63 (ix1 t) k)
      = ∑ n : Fin 16384, c09 * absE (Spec.dec x0 x4 x5 x6 x7 n t - x1 (ix2 n t)) :=
    Finset.sum_congr rfl fun n _ => by
      have hidx : idx_main_v63 (ix1 t) n = ix2 n t := funext fun a => by
        match a with
        | ⟨0, _⟩ => rfl
        | ⟨1, _⟩ => rfl
      rw [hidx]
      exact v62_apply x0 x1 x4 x5 x6 x7 n t
  rw [hs]

/-- Column d's mean over the rows, for the re-encoded latents. -/
theorem v79_at (d : Fin 512) : val_main_v79 (F := Ideal) x0 x4 x5 x6 x7 (ix1 d)
    = (∑ n : Fin 16384, c09 * absE (Spec.reclat x0 x4 x5 x6 x7 n d - Spec.enc x0 x4 x5 n d)) * ((1 / 16384 : ℝ) : EReal) := by
  rw [val_main_v79_apply, val_main_v77_apply, val_main_v78_apply, val_main_cst_17_apply, val_main_cst_18_apply]
  simp only [Ideal.hostDivf_def, Ideal.ofBits_def]
  rw [word_0, word_16384, zero_add, Ideal.div_coe (y := 16384) (by norm_num)]
  have hs : ∑ k : Fin 16384, val_main_v76 (F := Ideal) x0 x4 x5 x6 x7 (idx_main_v77 (ix1 d) k)
      = ∑ n : Fin 16384, c09 * absE (Spec.reclat x0 x4 x5 x6 x7 n d - Spec.enc x0 x4 x5 n d) :=
    Finset.sum_congr rfl fun n _ => by
      have hidx : idx_main_v77 (ix1 d) n = ix2 n d := funext fun a => by
        match a with
        | ⟨0, _⟩ => rfl
        | ⟨1, _⟩ => rfl
      rw [hidx]
      exact v76_apply x0 x4 x5 x6 x7 n d
  rw [hs]

/-- The mean over the 2¹¹ columns of the column means is the grand sum over 2²⁵. -/
theorem v90_val : val_main_v90 (F := Ideal) x0 x1 x4 x5 x6 x7 ix0 = Ideal.div (Spec.recTot x0 x1 x4 x5 x6 x7) cNT := by
  rw [val_main_v90_apply, val_main_v89_apply, val_main_cst_23_apply, val_main_cst_24_apply]
  simp only [Ideal.hostDivf_def, Ideal.ofBits_def]
  show _ = Ideal.div _ (Ideal.ofBits .f32 0x4C000000#32)
  rw [word_0, word_2048, word_NT, zero_add, Ideal.div_coe (y := 2048) (by norm_num),
    Ideal.div_coe (y := 33554432) (by norm_num), sum_idx1_c]
  unfold Spec.recTot
  rw [Finset.sum_congr rfl fun t _ => v65_at x0 x1 x4 x5 x6 x7 t, ← sum_mul_coe _ _ (by norm_num), mul_assoc,
    ← EReal.coe_mul]
  norm_num

/-- The mean over the 2⁹ columns of the column means is the grand sum over 2²³. -/
theorem v92_val : val_main_v92 (F := Ideal) x0 x4 x5 x6 x7 ix0 = Ideal.div (Spec.latTot x0 x4 x5 x6 x7) cND := by
  rw [val_main_v92_apply, val_main_v91_apply, val_main_cst_25_apply, val_main_cst_26_apply]
  simp only [Ideal.hostDivf_def, Ideal.ofBits_def]
  show _ = Ideal.div _ (Ideal.ofBits .f32 0x4B000000#32)
  rw [word_0, word_512, word_ND, zero_add, Ideal.div_coe (y := 512) (by norm_num),
    Ideal.div_coe (y := 8388608) (by norm_num), sum_idx1_c]
  unfold Spec.latTot
  rw [Finset.sum_congr rfl fun d _ => v79_at x0 x4 x5 x6 x7 d, ← sum_mul_coe _ _ (by norm_num), mul_assoc,
    ← EReal.coe_mul]
  norm_num

theorem v93_apply : val_main_v93 (F := Ideal) x0 x1 x4 x5 x6 x7 ix0 = Ideal.div (Spec.recTot x0 x1 x4 x5 x6 x7) cNT + Ideal.div (Spec.latTot x0 x4 x5 x6 x7) cND := by
  rw [val_main_v93_apply, v90_val, v92_val]
  rfl

/-- Row n's cross-entropy term, as the reference writes it. -/
theorem v88_at (n : Fin 16384) : val_main_v88 (F := Ideal) x0 x2 x4 x5 x8 x9 (ix1 n) = Spec.catRow x0 x2 x4 x5 x8 x9 n := by
  rw [val_main_v88_apply, val_main_v87_apply, val_main_cst_22_apply]
  simp only [Ideal.hostNegf_def, Ideal.negf_def, Ideal.ofBits_def]
  rw [word_0, zero_add]
  unfold Spec.catRow
  refine congrArg (fun z : EReal => -z) (Finset.sum_congr rfl fun k _ => ?_)
  have hidx : idx_main_v87 (ix1 n) k = ix2 n k := funext fun a => by
    match a with
    | ⟨0, _⟩ => rfl
    | ⟨1, _⟩ => rfl
  rw [hidx, val_main_v86_apply, v23_apply, v85_apply]
  rfl

theorem v100_apply : val_main_v100 (F := Ideal) x0 x2 x4 x5 x8 x9 ix0 = Ideal.div (∑ n : Fin 16384, Spec.catRow x0 x2 x4 x5 x8 x9 n) c16384 := by
  rw [val_main_v100_apply, val_main_v99_apply, val_main_cst_29_apply, val_main_cst_30_apply]
  simp only [Ideal.hostDivf_def, Ideal.ofBits_def]
  show _ = Ideal.div _ (Ideal.ofBits .f32 0x46800000#32)
  rw [word_0, zero_add, sum_idx1_c, Finset.sum_congr rfl fun n _ => v88_at x0 x2 x4 x5 x8 x9 n]

/-- The reference's result is Spec.lean's function of the arguments, at every row, once every class number is a class. -/
theorem res_apply (h : Spec.LabOK x3) (n : Fin 16384) : val_main_v102 (F := Ideal) x0 x1 x2 x3 x4 x5 x6 x7 x8 x9 (ix1 n) = Spec.total x0 x1 x2 x3 x4 x5 x6 x7 x8 x9 n := by
  rw [val_main_v102_apply, val_main_v98_apply, val_main_v97_apply, val_main_v101_apply]
  have e1 : idx_main_v97 (ix1 n) = ix0 := rfl
  have e2 : idx_main_v101 (ix1 n) = ix0 := rfl
  rw [e1, e2, v93_apply, v100_apply, v96_apply x0 x3 x4 x5 h n]
  simp only [Ideal.addf_def]
  unfold Spec.total Spec.scalar
  rw [add_comm (Ideal.div (Spec.recTot x0 x1 x4 x5 x6 x7) cNT + Ideal.div (Spec.latTot x0 x4 x5 x6 x7) cND)
    (Spec.wg x0 x3 x4 x5 n), add_assoc]

end Cert.ReferenceIdeal.RefValue

end
-- ==== Proof.PreFacts.lean ====
/-
  What the precondition says of the class numbers: its last two conjuncts are "every class number is at least 0" and
  "every class number is below 50", each an and-reduction of a signed compare over the 16384 numbers.
-/
import proofs.«423489_j79242146611896_3_alg».proof.Proof.Gen.Pre_finite_inputs
import proofs.«423489_j79242146611896_3_alg».proof.Proof.Spec
import proofs.«423489_j79242146611896_3_alg».proof.Pre_finite_inputs
import Idealize.ShloMosaic.Lib.ReduceAll
import Idealize.ShloMosaic.Lib.ValueIdx

noncomputable section

namespace Cert.PreFacts

open Idealize.ShloMosaic Idealize.ShloMosaic.ValueIdx Cert.Pre_finite_inputs

variable [Cert.Pre_finite_inputs.Facts]

/-- The result of a reduction over every axis has one index. -/
private instance subsingleton_scalar_idx : Subsingleton S_.Idx := ⟨fun a b => funext fun d => d.elim0⟩

/-- A class number that tests "at least 0" and "below 50", both signed, has its signed value in [0, 50). -/
private theorem word_range (w : BitVec 32) (h0 : IntOp.cmpi .sge w 0#32 = 1#1) (h50 : IntOp.cmpi .slt w 50#32 = 1#1) :
    0 ≤ w.toInt ∧ w.toInt < 50 := by
  rw [IntOp.cmpi_sge, show (0#32 : BitVec 32).toInt = 0 from by decide] at h0
  rw [IntOp.cmpi_slt, show (50#32 : BitVec 32).toInt = 50 from by decide] at h50
  exact ⟨h0, h50⟩

theorem labOK_of_pre (x0 x1 : FVec Ideal S16384x2048 .f32) (x2 : FVec Ideal S16384x50 .f32) (x3 : IVec S16384 32)
    (x4 : FVec Ideal S2048x512 .f32) (x5 : FVec Ideal S512 .f32) (x6 : FVec Ideal S512x2048 .f32) (x7 : FVec Ideal S2048 .f32)
    (x8 : FVec Ideal S512x50 .f32) (x9 : FVec Ideal S50 .f32)
    (h : Cert.Pre_finite_inputs.fn (F := Ideal) x0 x1 x2 x3 x4 x5 x6 x7 x8 x9 = fun _ => 1#1) : Cert.Spec.LabOK x3 := by
  -- the precondition's one word is 1; it is a chain of conjunctions whose last two members are the two label tests
  have e := congrFun h ValueIdx.ix0
  dsimp only [fn, fn_part1, fn_part2, fn_part3] at e
  obtain ⟨e47, e50⟩ := IntOp.andi_eq_one.1 e
  obtain ⟨-, e46⟩ := IntOp.andi_eq_one.1 e47
  intro n
  -- an and-reduction over all 16384 numbers that is 1 had a 1 at each of them
  have h0 := Host.reduce_andi_all _ _ _ _ _ e46 (ix1 n)
  have h50 := Host.reduce_andi_all _ _ _ _ _ e50 (ix1 n)
  -- a broadcast scalar reads that scalar at every index
  exact word_range (x3 (ix1 n)) h0 h50

end Cert.PreFacts

end
-- ==== Proof.lean ====
/-
  The claim. Both programs compute Spec.lean's `total`: at row n, the row's mean squared distance from its class mean plus
  the three means (two pinball terms and a cross-entropy term) over all rows.
  The kernel side: the launch is run once more with the result buffer read at the last boundary's contents (KRun.lean),
  and those contents are `total` of the arguments (KHostA … KHostC: the host stretches; KReg0, KReg1: the two regions, each
  an induction over its grid points over the body's values, KBody0, KBody1a, KBody1b). The reference side: its generated
  run, its result read stage by stage (RefA, RefB, RefC). The precondition enters once: every class number is one of the 50
  classes (PreFacts.lean), which is what makes the reference's gather of the class means the one-hot row's selection.
  The three frames are the generated ones; the ideal pass rewrote nothing, so `preserves` is trivial.
-/
import proofs.«423489_j79242146611896_3_alg».proof.Defs
import proofs.«423489_j79242146611896_3_alg».proof.Proof.Gen.Kernel
import proofs.«423489_j79242146611896_3_alg».proof.Proof.Gen.Kernel.Skeleton
import proofs.«423489_j79242146611896_3_alg».proof.Proof.Gen.Kernel.Launch
import proofs.«423489_j79242146611896_3_alg».proof.Proof.Gen.Kernel.Points
import proofs.«423489_j79242146611896_3_alg».proof.Proof.Gen.Kernel.Frame
import proofs.«423489_j79242146611896_3_alg».proof.Proof.Gen.KernelIdeal
import proofs.«423489_j79242146611896_3_alg».proof.Proof.Gen.KernelIdeal.Skeleton
import proofs.«423489_j79242146611896_3_alg».proof.Proof.Gen.KernelIdeal.Launch
import proofs.«423489_j79242146611896_3_alg».proof.Proof.Gen.KernelIdeal.Points
import proofs.«423489_j79242146611896_3_alg».proof.Proof.Gen.KernelIdeal.Frame
import proofs.«423489_j79242146611896_3_alg».proof.Proof.Gen.ReferenceIdeal
import proofs.«423489_j79242146611896_3_alg».proof.Proof.Gen.Pre_finite_inputs
import proofs.«423489_j79242146611896_3_alg».proof.Proof.Gen.ReferenceIdeal.Run
import proofs.«423489_j79242146611896_3_alg».proof.Proof.Gen.ReferenceIdeal.Read
import proofs.«423489_j79242146611896_3_alg».proof.Proof.KRun
import proofs.«423489_j79242146611896_3_alg».proof.Proof.KHostC
import proofs.«423489_j79242146611896_3_alg».proof.Proof.RefC
import proofs.«423489_j79242146611896_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with `total` of the arguments in their result. -/
theorem algebraic : Cert.algebraic_KernelIdeal_ReferenceIdeal := by
  intro m ρ m' ρ' hpre hagree
  refine ⟨fun c => Cert.KernelIdeal.KV.resArr m c, ?_, ?_⟩
  · exact (θ_run Cert.KernelIdeal.defs _ _).mono
      (fun r h c => ⟨(h c).1.trans (Cert.KernelIdeal.KV.W8_v58 m ρ c), (h c).2⟩) (Cert.KernelIdeal.KRun.run m ρ)
  · refine (θ_run Cert.ReferenceIdeal.defs _ _).mono (fun r h c => ⟨(h c).1.trans ?_, (h c).2⟩)
      (Cert.ReferenceIdeal.Value.run (F := Ideal) m' ρ')
    have hlab : Cert.Spec.LabOK (m ((c.tc : Thread Cert.KernelIdeal.nD Cert.KernelIdeal.τ).loc Cert.KernelIdeal.main_arg3)) :=
      Cert.PreFacts.labOK_of_pre _ _ _ _ _ _ _ _ _ _ (hpre c)
    obtain ⟨h0, h1, h2, h3, h4, h5, h6, h7, h8, h9⟩ := hagree c
    rw [Cert.ReferenceIdeal.Read.val_main_v102_eq, h0, h1, h2, h3, h4, h5, h6, h7, h8, h9]
    funext j
    obtain ⟨n, rfl⟩ : ∃ n : Fin 16384, j = ix1 n := ⟨j 0, eq_ix1 j⟩
    exact Cert.ReferenceIdeal.RefValue.res_apply _ _ _ _ _ _ _ _ _ _ hlab n

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
